-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x16 : S_.BroadcastsInDim S8x16 (![] : Fin 0 → Fin S8x16.rank)
  reducesTo_S8x16_S_d0_1 : S8x16.ReducesTo [0, 1] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256x256 .f32) (main_arg26 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S8x16 .f32) (main_arg22 : FVec F S128 .f32) (main_arg23 : FVec F S256 .f32) (main_arg24 : FVec F S256 .f32) (main_arg25 : FVec F S256x256 .f32) (main_arg26 : FVec F S256 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S8x16 .f32 := Host.absf main_arg21
  let main_cst_40 : FVec F S_ .f32 := constant S_ .f32 0x7F800000#32
  let main_v105 : FVec F S8x16 .f32 := broadcastInDim S8x16 ![] bcast_S_S8x16 main_cst_40
  let main_v106 : IVec S8x16 1 := cmpf .olt main_v104 main_v105
  let main_c_41 : IVec S_ 1 := constantI S_ 1 1#1
  let main_v107 : IVec S_ 1 := (fun x v => Host.reduce IntOp.andi x v reducesTo_S8x16_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_v118 main_v119

def fn_part5 {F : FTy → Type} [FloatOps F] (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S8x16 .f32 := Host.absf main_arg11
  let main_cst_20 : FVec F S_ .f32 := constant S_ .f32 0x7F800000#32
  let main_v55 : FVec F S8x16 .f32 := broadcastInDim S8x16 ![] bcast_S_S8x16 main_cst_20
  let main_v56 : IVec S8x16 1 := cmpf .olt main_v54 main_v55
  let main_c_21 : IVec S_ 1 := constantI S_ 1 1#1
  let main_v57 : IVec S_ 1 := (fun x v => Host.reduce IntOp.andi x v reducesTo_S8x16_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : FVec F S100000x128 .f32) (main_arg2 : FVec F S1x256 .f32) (main_arg3 : FVec F S256 .f32) (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S128x1 : Shape := ⟨2, ![128, 1]⟩
abbrev S1x128 : Shape := ⟨2, ![1, 128]⟩
abbrev S1x4000 : Shape := ⟨2, ![1, 4000]⟩
abbrev S4000x128 : Shape := ⟨2, ![4000, 128]⟩
abbrev S1 : Shape := ⟨1, ![1]⟩
abbrev S1x1 : Shape := ⟨2, ![1, 1]⟩

abbrev nBuf : Space → Nat
  | .hbm => 80
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1x256, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S8x16, .f32⟩
  | .hbm, ⟨12, _⟩ => ⟨S128, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S8x16, .f32⟩
  | .hbm, ⟨22, _⟩ => ⟨S128, .f32⟩
  | .hbm, ⟨23, _⟩ => ⟨S256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .f32⟩
  | .hbm, ⟨52, _⟩ => ⟨S128, .f32⟩
  | .hbm, ⟨53, _⟩ => ⟨S128x1, .f32⟩
  | .hbm, ⟨54, _⟩ => ⟨S128x128, .f32⟩
  | .hbm, ⟨55, _⟩ => ⟨S128x128, .f32⟩
  | .hbm, ⟨56, _⟩ => ⟨S128, .f32⟩
  | .hbm, ⟨57, _⟩ => ⟨S128x1, .f32⟩
  | .hbm, ⟨58, _⟩ => ⟨S128x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x256, .f32⟩
  | .hbm, ⟨65, _⟩ => ⟨S1x256, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x256, .f32⟩
  | .hbm, ⟨70, _⟩ => ⟨S1x256, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x4000, .f32⟩
  | .hbm, ⟨79, _⟩ => ⟨S1x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x4000, .f32⟩
  | .local _ .vmem, ⟨30, _⟩ => ⟨S1x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst : Ref sig .tc := ⟨.hbm, 77, rfl⟩
abbrev main_v33 : Ref sig .tc := ⟨.hbm, 78, rfl⟩
abbrev main_v34 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v85 : BitVec 1 := Scalar.cmpi .eq arg0 c24_i32
  let v86 : BitVec 32 := Scalar.extui v85
  let c0_i32_51 : BitVec 32 := 0#32
  let v87 : BitVec 1 := Scalar.cmpi .ne v86 c0_i32_51
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x4000 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S8x16_S128 : S8x16.ShapeCasts S128
  shapeCasts_S128_S1x128 : S128.ShapeCasts S1x128
  shapeCasts_S256_S1x256 : S256.ShapeCasts S1x256
  bcast_S_S1x4000 : S_.BroadcastsInDim S1x4000 (![] : Fin 0 → Fin S1x4000.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S128x128_S128x128 : S128x128.ShapeCasts S128x128
  reduces_S4000x128_S128 : S4000x128.Reduces [0] S128
  concatenates_S1x128_S1x128_S1x256_d1 : Shape.Concatenates [S1x128, S1x128] S1x256 1
  inb_S256x256_S256x256_0_0 : ∀ a, (![0, 0] : Fin 2 → Nat) a + S256x256.size a ≤ S256x256.size a
  h_S256x256 : 0 < S256x256.numel
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S4000x128_S128x128_S4000x128_1_0_0_1_n_n_wf : DotDims.WF S4000x128 S128x128 S4000x128 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S256x256.size a
  hwx0_25 : ∀ i : grid0.Coords, EltTy.bits .f32 = 32 ∨ (Rect.block (s := S256x256) S256x256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x4000.size a ≤ S1x4000.size a
  hwx0_27 : ∀ i : grid0.Coords, EltTy.bits .f32 = 32 ∨ (Rect.block (s := S1x4000) S1x4000.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x256.size a ≤ S1x256.size a
  hwx0_28 : ∀ i : grid0.Coords, EltTy.bits .f32 = 32 ∨ (Rect.block (s := S1x256) S1x256.size (cc0_transform_28 i) (hinb0_28 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v28) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v30) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v31) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S256x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v32) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v33) S1x4000.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v34) S1x256.size cc0_transform_28 reads0_28 true true 1 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

abbrev idle0 : Fin 29 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun i => !(k0_cond2 i == 1#1) | ⟨_ + 29, h⟩ => absurd h (Nat.not_lt.2 (Nat.le_add_left _ _))

class Facts : Prop extends Facts₀ where

variable [Facts]
-- ==== ReferenceIdeal.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S1 : Shape := ⟨1, ![1]⟩
abbrev S1x1 : Shape := ⟨2, ![1, 1]⟩
abbrev S1x128 : Shape := ⟨2, ![1, 128]⟩
abbrev S100000x8x16 : Shape := ⟨3, ![100000, 8, 16]⟩
abbrev S1x8x16 : Shape := ⟨3, ![1, 8, 16]⟩
abbrev S100000x8 : Shape := ⟨2, ![100000, 8]⟩
abbrev S8 : Shape := ⟨1, ![8]⟩
abbrev S1x8 : Shape := ⟨2, ![1, 8]⟩
abbrev S100000x8x1 : Shape := ⟨3, ![100000, 8, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S100000x128, .f32⟩
  | 2 => ⟨S1x256, .f32⟩
  | 3 => ⟨S256, .f32⟩
  | 4 => ⟨S256, .f32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S8x16, .f32⟩
  | 12 => ⟨S128, .f32⟩
  | 13 => ⟨S256, .f32⟩
  | 14 => ⟨S256, .f32⟩
  | 15 => ⟨S256x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S8x16, .f32⟩
  | 22 => ⟨S128, .f32⟩
  | 23 => ⟨S256, .f32⟩
  | 24 => ⟨S256, .f32⟩
  | 25 => ⟨S256x256, .f32⟩
  | 26 => ⟨S256, .f32⟩
  | 27 => ⟨S_, .f32⟩
  | 28 => ⟨S1, .f32⟩
  | 29 => ⟨S1x1, .f32⟩
  | 30 => ⟨S_, .f32⟩
  | 31 => ⟨S1x1, .f32⟩
  | 32 => ⟨S1x1, .f32⟩
  | 33 => ⟨S_, .i32⟩
  | 34 => ⟨S_, .f32⟩
  | 35 => ⟨S1, .f32⟩
  | 36 => ⟨S1x1, .f32⟩
  | 37 => ⟨S_, .f32⟩
  | 38 => ⟨S1x1, .f32⟩
  | 39 => ⟨S1x1, .f32⟩
  | 40 => ⟨S1x256, .f32⟩
  | 41 => ⟨S1x256, .f32⟩
  | 42 => ⟨S1x256, .f32⟩
  | 43 => ⟨S_, .f32⟩
  | 44 => ⟨S_, .f32⟩
  | 45 => ⟨S_, .f32⟩
  | 46 => ⟨S_, .f32⟩
  | 47 => ⟨S1, .f32⟩
  | 48 => ⟨S1x1, .f32⟩
  | 49 => ⟨S1x1, .f32⟩
  | 50 => ⟨S1x1, .f32⟩
  | 51 => ⟨S_, .f32⟩
  | 52 => ⟨S_, .i1⟩
  | 53 => ⟨S_, .f32⟩
  | 54 => ⟨S_, .f32⟩
  | 55 => ⟨S1x1, .f32⟩
  | 56 => ⟨S1x1, .f32⟩
  | 57 => ⟨S1x256, .f32⟩
  | 58 => ⟨S1x256, .f32⟩
  | 59 => ⟨S_, .f32⟩
  | 60 => ⟨S1x1, .f32⟩
  | 61 => ⟨S1x1, .f32⟩
  | 62 => ⟨S1x1, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x128, .f32⟩
  | 73 => ⟨S1x128, .f32⟩
  | 74 => ⟨S1x128, .f32⟩
  | 75 => ⟨S100000x128, .f32⟩
  | 76 => ⟨S1x128, .f32⟩
  | 77 => ⟨S100000x128, .f32⟩
  | 78 => ⟨S100000x128, .f32⟩
  | 79 => ⟨S100000x8x16, .f32⟩
  | 80 => ⟨S1x128, .f32⟩
  | 81 => ⟨S1x128, .f32⟩
  | 82 => ⟨S1x128, .f32⟩
  | 83 => ⟨S1x8x16, .f32⟩
  | 84 => ⟨S100000x8x16, .f32⟩
  | 85 => ⟨S100000x8x16, .f32⟩
  | 86 => ⟨S_, .f32⟩
  | 87 => ⟨S_, .f32⟩
  | 88 => ⟨S100000x8x16, .f32⟩
  | 89 => ⟨S100000x8x16, .i1⟩
  | 90 => ⟨S_, .f32⟩
  | 91 => ⟨S100000x8x16, .f32⟩
  | 92 => ⟨S100000x8x16, .f32⟩
  | 93 => ⟨S100000x8x16, .f32⟩
  | 94 => ⟨S1x8x16, .f32⟩
  | 95 => ⟨S100000x8x16, .f32⟩
  | 96 => ⟨S100000x8x16, .f32⟩
  | 97 => ⟨S_, .f32⟩
  | 98 => ⟨S100000x8, .f32⟩
  | 99 => ⟨S_, .f32⟩
  | 100 => ⟨S8, .f32⟩
  | 101 => ⟨S_, .f32⟩
  | 102 => ⟨S8, .f32⟩
  | 103 => ⟨S8, .f32⟩
  | 104 => ⟨S1x8, .f32⟩
  | 105 => ⟨S100000x8, .f32⟩
  | 106 => ⟨S100000x8, .f32⟩
  | 107 => ⟨S100000x8, .f32⟩
  | 108 => ⟨S_, .f32⟩
  | 109 => ⟨S8, .f32⟩
  | 110 => ⟨S1x8, .f32⟩
  | 111 => ⟨S100000x8, .f32⟩
  | 112 => ⟨S100000x8, .f32⟩
  | 113 => ⟨S100000x8x1, .f32⟩
  | 114 => ⟨S100000x8x16, .f32⟩
  | 115 => ⟨S100000x8x16, .f32⟩
  | 116 => ⟨S_, .f32⟩
  | 117 => ⟨S8x16, .f32⟩
  | 118 => ⟨S1x128, .f32⟩
  | 119 => ⟨S1x128, .f32⟩
  | 120 => ⟨S1x128, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S_, .i32⟩
  | _ => ⟨S100000x128, .f32⟩

abbrev hbmTy0_1 (i : Nat) : BufTy := match i % 128 with
  | 0 => ⟨S_, .f32⟩
  | 1 => ⟨S1, .f32⟩
  | 2 => ⟨S1x1, .f32⟩
  | 3 => ⟨S_, .f32⟩
  | 4 => ⟨S1x1, .f32⟩
  | 5 => ⟨S1x1, .f32⟩
  | 6 => ⟨S1x256, .f32⟩
  | 7 => ⟨S1x256, .f32⟩
  | 8 => ⟨S1x256, .f32⟩
  | 9 => ⟨S_, .f32⟩
  | 10 => ⟨S_, .f32⟩
  | 11 => ⟨S_, .f32⟩
  | 12 => ⟨S_, .f32⟩
  | 13 => ⟨S1, .f32⟩
  | 14 => ⟨S1x1, .f32⟩
  | 15 => ⟨S1x1, .f32⟩
  | 16 => ⟨S1x1, .f32⟩
  | 17 => ⟨S_, .f32⟩
  | 18 => ⟨S_, .i1⟩
  | 19 => ⟨S_, .f32⟩
  | 20 => ⟨S_, .f32⟩
  | 21 => ⟨S1x1, .f32⟩
  | 22 => ⟨S1x1, .f32⟩
  | 23 => ⟨S1x256, .f32⟩
  | 24 => ⟨S1x256, .f32⟩
  | 25 => ⟨S_, .f32⟩
  | 26 => ⟨S1x1, .f32⟩
  | 27 => ⟨S1x1, .f32⟩
  | 28 => ⟨S1x1, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S1x128, .f32⟩
  | 39 => ⟨S1x128, .f32⟩
  | 40 => ⟨S1x128, .f32⟩
  | 41 => ⟨S100000x128, .f32⟩
  | 42 => ⟨S1x128, .f32⟩
  | 43 => ⟨S100000x128, .f32⟩
  | 44 => ⟨S100000x128, .f32⟩
  | 45 => ⟨S100000x8x16, .f32⟩
  | 46 => ⟨S1x128, .f32⟩
  | 47 => ⟨S1x128, .f32⟩
  | 48 => ⟨S1x128, .f32⟩
  | 49 => ⟨S1x8x16, .f32⟩
  | 50 => ⟨S100000x8x16, .f32⟩
  | 51 => ⟨S100000x8x16, .f32⟩
  | 52 => ⟨S_, .f32⟩
  | 53 => ⟨S_, .f32⟩
  | 54 => ⟨S100000x8x16, .f32⟩
  | 55 => ⟨S100000x8x16, .i1⟩
  | 56 => ⟨S_, .f32⟩
  | 57 => ⟨S100000x8x16, .f32⟩
  | 58 => ⟨S100000x8x16, .f32⟩
  | 59 => ⟨S100000x8x16, .f32⟩
  | 60 => ⟨S1x8x16, .f32⟩
  | 61 => ⟨S100000x8x16, .f32⟩
  | 62 => ⟨S100000x8x16, .f32⟩
  | 63 => ⟨S_, .f32⟩
  | 64 => ⟨S100000x8, .f32⟩
  | 65 => ⟨S_, .f32⟩
  | 66 => ⟨S8, .f32⟩
  | 67 => ⟨S_, .f32⟩
  | 68 => ⟨S8, .f32⟩
  | 69 => ⟨S8, .f32⟩
  | 70 => ⟨S1x8, .f32⟩
  | 71 => ⟨S100000x8, .f32⟩
  | 72 => ⟨S100000x8, .f32⟩
  | 73 => ⟨S100000x8, .f32⟩
  | 74 => ⟨S_, .f32⟩
  | 75 => ⟨S8, .f32⟩
  | 76 => ⟨S1x8, .f32⟩
  | 77 => ⟨S100000x8, .f32⟩
  | 78 => ⟨S100000x8, .f32⟩
  | 79 => ⟨S100000x8x1, .f32⟩
  | 80 => ⟨S100000x8x16, .f32⟩
  | 81 => ⟨S100000x8x16, .f32⟩
  | 82 => ⟨S_, .f32⟩
  | 83 => ⟨S8x16, .f32⟩
  | 84 => ⟨S1x128, .f32⟩
  | 85 => ⟨S1x128, .f32⟩
  | 86 => ⟨S1x128, .f32⟩
  | 87 => ⟨S1x256, .f32⟩
  | 88 => ⟨S1x256, .f32⟩
  | 89 => ⟨S_, .f32⟩
  | 90 => ⟨S1, .f32⟩
  | 91 => ⟨S1x1, .f32⟩
  | 92 => ⟨S_, .f32⟩
  | 93 => ⟨S1x1, .f32⟩
  | 94 => ⟨S1x1, .f32⟩
  | 95 => ⟨S_, .i32⟩
  | 96 => ⟨S_, .f32⟩
  | 97 => ⟨S1, .f32⟩
  | 98 => ⟨S1x1, .f32⟩
  | 99 => ⟨S_, .f32⟩
  | 100 => ⟨S1x1, .f32⟩
  | 101 => ⟨S1x1, .f32⟩
  | 102 => ⟨S1x256, .f32⟩
  | 103 => ⟨S1x256, .f32⟩
  | 104 => ⟨S1x256, .f32⟩
  | 105 => ⟨S_, .f32⟩
  | 106 => ⟨S_, .f32⟩
  | 107 => ⟨S_, .f32⟩
  | 108 => ⟨S_, .f32⟩
  | 109 => ⟨S1, .f32⟩
  | 110 => ⟨S1x1, .f32⟩
  | 111 => ⟨S1x1, .f32⟩
  | 112 => ⟨S1x1, .f32⟩
  | 113 => ⟨S_, .f32⟩
  | 114 => ⟨S_, .i1⟩
  | 115 => ⟨S_, .f32⟩
  | 116 => ⟨S_, .f32⟩
  | 117 => ⟨S1x1, .f32⟩
  | 118 => ⟨S1x1, .f32⟩
  | 119 => ⟨S1x256, .f32⟩
  | 120 => ⟨S1x256, .f32⟩
  | 121 => ⟨S_, .f32⟩
  | 122 => ⟨S1x1, .f32⟩
  | 123 => ⟨S1x1, .f32⟩
  | 124 => ⟨S1x1, .f32⟩
  | 125 => ⟨S1x256, .f32⟩
  | 126 => ⟨S1x256, .f32⟩
  | 127 => ⟨S1x256, .f32⟩
  | _ => ⟨S100000x128, .f32⟩

abbrev hbmTy0_2 (i : Nat) : BufTy := match i % 128 with
  | 0 => ⟨S1x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S1x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst_1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call1_cst : Ref sig .tc := ⟨.hbm, 69, rfl⟩
abbrev main_call1_v0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_2 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_3 : Ref sig .tc := ⟨.hbm, 97, rfl⟩
abbrev main_v35 : Ref sig .tc := ⟨.hbm, 98, rfl⟩
abbrev main_cst_4 : Ref sig .tc := ⟨.hbm, 99, rfl⟩
abbrev main_v36 : Ref sig .tc := ⟨.hbm, 100, rfl⟩
abbrev main_cst_5 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_8 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_c_10 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_cst_3 : Ref sig .tc := ⟨.hbm, 145, rfl⟩
abbrev main_call3_v13 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_11 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_call4_cst : Ref sig .tc := ⟨.hbm, 163, rfl⟩
abbrev main_call4_v0 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_12 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_13 : Ref sig .tc := ⟨.hbm, 191, rfl⟩
abbrev main_v89 : Ref sig .tc := ⟨.hbm, 192, rfl⟩
abbrev main_cst_14 : Ref sig .tc := ⟨.hbm, 193, rfl⟩
abbrev main_v90 : Ref sig .tc := ⟨.hbm, 194, rfl⟩
abbrev main_cst_15 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_cst_16 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_cst_17 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_cst_18 : Ref sig .tc := ⟨.hbm, 217, rfl⟩
abbrev main_v110 : Ref sig .tc := ⟨.hbm, 218, rfl⟩
abbrev main_v111 : Ref sig .tc := ⟨.hbm, 219, rfl⟩
abbrev main_cst_19 : Ref sig .tc := ⟨.hbm, 220, rfl⟩
abbrev main_v112 : Ref sig .tc := ⟨.hbm, 221, rfl⟩
abbrev main_v113 : Ref sig .tc := ⟨.hbm, 222, rfl⟩
abbrev main_c_20 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_cst_1 : Ref sig .tc := ⟨.hbm, 234, rfl⟩
abbrev main_call6_v8 : Ref sig .tc := ⟨.hbm, 235, rfl⟩
abbrev main_call6_cst_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_v12 : Ref sig .tc := ⟨.hbm, 240, rfl⟩
abbrev main_call6_cst_3 : Ref sig .tc := ⟨.hbm, 241, rfl⟩
abbrev main_call6_v13 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_21 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_call7_cst : Ref sig .tc := ⟨.hbm, 259, rfl⟩
abbrev main_call7_v0 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩

abbrev nD : Nat := 1
abbrev τ : Topo := Topo.v7x

variable {F : FTy → Type} [FloatOps F]

class Facts₀ : Prop where
  reducesTo_S1x256_S1_d1 : S1x256.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S256_S1x256_1 : S256.BroadcastsInDim S1x256 (![1] : Fin 1 → Fin S1x256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x8x16 : S100000x128.ShapeCasts S100000x8x16
  shapeCasts_S1x128_S1x8x16 : S1x128.ShapeCasts S1x8x16
  bcast_S1x8x16_S100000x8x16_0_1_2 : S1x8x16.BroadcastsInDim S100000x8x16 (![0, 1, 2] : Fin 3 → Fin S100000x8x16.rank)
  bcast_S_S100000x8x16 : S_.BroadcastsInDim S100000x8x16 (![] : Fin 0 → Fin S100000x8x16.rank)
  bcast_S8x16_S1x8x16_1_2 : S8x16.BroadcastsInDim S1x8x16 (![1, 2] : Fin 2 → Fin S1x8x16.rank)
  reducesTo_S100000x8x16_S100000x8_d2 : S100000x8x16.ReducesTo [2] S100000x8
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  reducesTo_S100000x8x16_S8x16_d0 : S100000x8x16.ReducesTo [0] S8x16
  shapeCasts_S8x16_S1x128 : S8x16.ShapeCasts S1x128
  concatenates_S1x128_S1x128_S1x256_d1 : Shape.Concatenates [S1x128, S1x128] S1x256 1
  dot_S1x256_S256x128_S1x128_1_0_0_1_n_n_wf : DotDims.WF S1x256 S256x128 S1x128 [1] [0] [0] [1] [] []
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S1x256_S256x256_S1x256_1_0_0_1_n_n_wf : DotDims.WF S1x256 S256x256 S1x256 [1] [0] [0] [1] [] []

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

class Facts : Prop extends Facts₀ where

variable [Facts]
-- ==== Proof.KBody.lean ====
/-
  The kernel's body as pure functions of its input blocks and of the eight carried vectors
  (running maximum, normaliser, weighted sum and attention-input offset, for the view stream and the scenepoint stream),
  composed from the generated payload terms exactly as the printed body composes them.

  * at the first grid point the offsets are computed from the global feature (LayerNorm, ReLU, two linear layers) and the
    running state is reset (maximum minus infinity, sums zero);
  * at every grid point each stream folds its block of 4000 rows into its state;
  * at the last grid point the two aggregations are normalised and the epilogue produces the output row.
-/
import proofs.«146274_g33088428049086_cont_sun_c4_530_10_alg».proof.Proof.Gen.KernelIdeal.Skeleton

noncomputable section

namespace Cert.KernelIdeal.Hand

open Cert.KernelIdeal Cert.KernelIdeal.Gen Idealize.ShloMosaic

variable {F : FTy → Type} [FloatOps F]

/-! ## First point: offsets and reset values -/

/-- the view stream's attention-input offset: source bias + (projected global feature) · Wr + target bias -/
def initXrV (g lns lnb : Vec F S1x256 .f32) (Wg : Vec F S256x128 .f32) (bg : Vec F S1x128 .f32) (bl : Vec F S1x128 .f32)
    (Wr : Vec F S128x128 .f32) (br : Vec F S1x128 .f32) : FVec F S1x128 .f32 :=
  k0_pay7 (k0_pay5 bl) (k0_pay6 g lns lnb Wg bg Wr) br

/-- the scenepoint stream's attention-input offset -/
def initXrS (g lns lnb : Vec F S1x256 .f32) (Wg : Vec F S256x128 .f32) (bg : Vec F S1x128 .f32) (bl : Vec F S1x128 .f32)
    (Wr : Vec F S128x128 .f32) (br : Vec F S1x128 .f32) : FVec F S1x128 .f32 :=
  k0_pay9 (k0_pay8 g lns lnb Wg bg) bl Wr br

/-- reset values: the two maxima, the two normalisers, the two weighted sums -/
def initMV : FVec F S1x128 .f32 := k0_pay11 (F := F)
def initMS : FVec F S1x128 .f32 := k0_pay12 (F := F)
def initSV : FVec F S1x128 .f32 := k0_pay14 (F := F)
def initSS : FVec F S1x128 .f32 := k0_pay15 (F := F)
def initWV : FVec F S1x128 .f32 := k0_pay16 (F := F)
def initWS : FVec F S1x128 .f32 := k0_pay17 (F := F)

/-! ## Every point: one block folded into a stream's state -/

/-- view stream, new running maximum -/
def stepMV (x : Vec F S4000x128 .f32) (Wl AE : Vec F S128x128 .f32) (xr m : Vec F S1x128 .f32) : FVec F S1x128 .f32 :=
  k0_pay32 (k0_pay26 x Wl xr AE m)
/-- view stream, new normaliser -/
def stepSV (x : Vec F S4000x128 .f32) (Wl AE : Vec F S128x128 .f32) (xr m s : Vec F S1x128 .f32) : FVec F S1x128 .f32 :=
  k0_pay29 x Wl xr AE m s
/-- view stream, new weighted feature sum -/
def stepWV (x : Vec F S4000x128 .f32) (Wl AE : Vec F S128x128 .f32) (xr m w : Vec F S1x128 .f32) : FVec F S1x128 .f32 :=
  k0_pay31 (k0_pay24 x Wl) (k0_pay28 x Wl xr AE m) (k0_pay30 x Wl xr AE m w)

/-- scenepoint stream, new running maximum -/
def stepMS (x : Vec F S4000x128 .f32) (Wl AE : Vec F S128x128 .f32) (xr m : Vec F S1x128 .f32) : FVec F S1x128 .f32 :=
  k0_pay3 (k0_pay35 x Wl xr AE m)
/-- scenepoint stream, new normaliser -/
def stepSS (x : Vec F S4000x128 .f32) (Wl AE : Vec F S128x128 .f32) (xr m s : Vec F S1x128 .f32) : FVec F S1x128 .f32 :=
  k0_pay1 (k0_pay38 x Wl xr AE m s)
/-- scenepoint stream, new weighted feature sum -/
def stepWS (x : Vec F S4000x128 .f32) (Wl AE : Vec F S128x128 .f32) (xr m w : Vec F S1x128 .f32) : FVec F S1x128 .f32 :=
  k0_pay2 (k0_pay33 x Wl) (k0_pay36 x Wl xr AE m) (k0_pay37 x Wl xr AE m) w

/-! ## Last point: the output row -/

/-- the output row from the two final states (weighted sum, normaliser, folded bias per stream), the global feature and the
    epilogue's parameters -/
def finOut (wv sv bbv ws ss bbs : Vec F S1x128 .f32) (g lns lnb : Vec F S1x256 .f32) (W : Vec F S256x256 .f32)
    (b : Vec F S1x256 .f32) : FVec F S1x256 .f32 :=
  k0_pay4 (k0_pay18 wv sv bbv ws ss bbs g) (k0_pay19 lns) (k0_pay20 lnb) (k0_pay22 wv sv bbv ws ss bbs g)
    (k0_pay23 wv sv bbv ws ss bbs g) W b

end Cert.KernelIdeal.Hand

end
-- ==== Proof.KPieces.lean ====
/-
  What each control case of the body leaves in each carried vector, and in the output row at the last point, as the pure
  functions of the input blocks and of the carried vectors that the body composes (KBody): the stores the case's run found,
  read back, are those payload compositions.

  Case A is the first grid point (offsets computed, state reset, then both streams fold their block); case B a middle
  point (both streams fold their block; the offsets stay); case C the last point (as B, then the output row).
-/
import proofs.«146274_g33088428049086_cont_sun_c4_530_10_alg».proof.Proof.GenP.KernelIdeal.FrameDefs
import proofs.«146274_g33088428049086_cont_sun_c4_530_10_alg».proof.Proof.KBody
import Idealize.ShloMosaic.Lib.Pipeline.Value

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.Tactic
open Idealize.SL Idealize.SL.Sem

variable {F : FTy → Type} [FloatOps F]

/-- the whole-shape rectangle's offsets are zero -/
private theorem hz2 : (![0, 0] : Fin 2 → Nat) = fun _ => 0 := funext fun a => by fin_cases a <;> rfl

section
variable (c : Dev nD) (i : grid0.Coords)
  (arg1 : Memref sig .tc .vmem S4000x128 .f32) (harg1 : arg1.IsWhole) (arg2 : Memref sig .tc .vmem S4000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x4000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole)
  (x0 : Vec F S4000x128 .f32) (x1 : Vec F S4000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x4000 .f32)
  (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

/-! ## Case A: the first point -/

theorem pieceA0 (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepMV x0 x7 x11 (initXrV x2 x3 x4 x5 x6 x8 x9 x10) (initMV (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA1 (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepSV x0 x7 x11 (initXrV x2 x3 x4 x5 x6 x8 x9 x10) (initMV (F := F)) (initSV (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA2 (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepWV x0 x7 x11 (initXrV x2 x3 x4 x5 x6 x8 x9 x10) (initMV (F := F)) (initWV (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA3 (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = initXrV x2 x3 x4 x5 x6 x8 x9 x10 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA4 (hc0 : cond0_0 i) (hc1 : ¬cond0_1 i) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepMS x1 x17 x21 (initXrS x2 x13 x14 x15 x16 x18 x19 x20) (initMS (F := F)) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA5 (hc0 : cond0_0 i) (hc1 : ¬cond0_1 i) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepSS x1 x17 x21 (initXrS x2 x13 x14 x15 x16 x18 x19 x20) (initMS (F := F)) (initSS (F := F)) := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA6 (hc0 : cond0_0 i) (hc1 : ¬cond0_1 i) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = stepWS x1 x17 x21 (initXrS x2 x13 x14 x15 x16 x18 x19 x20) (initMS (F := F)) (initWS (F := F)) := by
  unfold sout0_A_6
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceA7 (hc0 : cond0_0 i) (hc1 : ¬cond0_1 i) :
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27
      = initXrS x2 x13 x14 x15 x16 x18 x19 x20 := by
  unfold sout0_A_7
  rw [View.read_writes_eq_canon _ _ _ (scover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero (S := S1x128) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread, harg17.read_unread, harg18.read_unread, harg19.read_unread, harg20.read_unread, harg21.read_unread, harg22.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

/-! ## Case B: a middle point -/

theorem pieceB0 (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepMV x0 x7 x11 xs3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB1 (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepSV x0 x7 x11 xs3 xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB2 (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepWV x0 x7 x11 xs3 xs0 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB3 (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = xs3 := by
  rfl

theorem pieceB4 (hc0 : ¬cond0_0 i) (hc1 : ¬cond0_1 i) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepMS x1 x17 x21 xs7 xs4 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB5 (hc0 : ¬cond0_0 i) (hc1 : ¬cond0_1 i) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepSS x1 x17 x21 xs7 xs4 xs5 := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB6 (hc0 : ¬cond0_0 i) (hc1 : ¬cond0_1 i) :
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepWS x1 x17 x21 xs7 xs4 xs6 := by
  unfold sout0_B_6
  rw [View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg8.read_unread, harg12.read_unread, harg18.read_unread, harg22.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceB7 (hc0 : ¬cond0_0 i) (hc1 : ¬cond0_1 i) :
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = xs7 := by
  rfl

/-! ## Case C: the last point -/

theorem pieceC0 (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepMV x0 x7 x11 xs3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC1 (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepSV x0 x7 x11 xs3 xs0 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC2 (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepWV x0 x7 x11 xs3 xs0 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC3 (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = xs3 := by
  rfl

theorem pieceC4 (hc0 : ¬cond0_0 i) (hc1 : cond0_1 i) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepMS x1 x17 x21 xs7 xs4 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC5 (hc0 : ¬cond0_0 i) (hc1 : cond0_1 i) :
    sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepSS x1 x17 x21 xs7 xs4 xs5 := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC6 (hc0 : ¬cond0_0 i) (hc1 : cond0_1 i) :
    sout0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = stepWS x1 x17 x21 xs7 xs4 xs6 := by
  unfold sout0_C_6
  rw [View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x128) hz2]
  simp only [initXrV, initXrS, initMV, initMS, initSV, initSS, initWV, initWS, stepMV, stepSV, stepWV, stepMS, stepSS, stepWS, finOut, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

theorem pieceC7 (hc0 : ¬cond0_0 i) (hc1 : cond0_1 i) :
    sout0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = xs7 := by
  rfl

theorem pieceC28 (hc0 : ¬cond0_0 i) (hc1 : cond0_1 i) :
    out0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = finOut (stepWV x0 x7 x11 xs3 xs0 xs2) (stepSV x0 x7 x11 xs3 xs0 xs1) x12 (stepWS x1 x17 x21 xs7 xs4 xs6)
          (stepSS x1 x17 x21 xs7 xs4 xs5) x22 x2 x23 x24 x25 x26 := by
  unfold out0_C_28
  rw [View.read_writes_eq_canon _ _ _ (cover0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero (S := S1x256) hz2]
  simp only [initXrV, initXrS, initMV, initMS, initSV, initSS, initWV, initWS, stepMV, stepSV, stepWV, stepMS, stepSS, stepWS, finOut, View.readCov_unit_zero (S := S1x128) _ hz2, View.readAt_eq_ld, harg1.read_unread, harg2.read_unread, harg3.read_unread, harg8.read_unread, harg12.read_unread, harg13.read_unread, harg18.read_unread, harg22.read_unread, harg23.read_unread, harg24.read_unread, harg25.read_unread, harg26.read_unread, harg27.read_unread, harg30.read_unread, harg31.read_unread, harg32.read_unread, harg33.read_unread, harg34.read_unread, harg35.read_unread, harg36.read_unread, harg37.read_unread, View.ld_unit_zero (S := S4000x128) hz2, View.ld_unit_zero (S := S128x128) hz2, View.ld_unit_zero (S := S1x128) hz2, View.ld_unit_zero (S := S1x256) hz2, View.ld_unit_zero (S := S256x128) hz2, View.ld_unit_zero (S := S256x256) hz2]

end

end Cert.KernelIdeal.Hand

end
-- ==== Proof.Spec.lean ====
/-
  The mathematics both programs compute, over plain index types and extended reals, with no program in sight.

  The operator: two attention aggregations over star graphs (every one of 100000 source rows has one edge to the single
  global node), and a small LayerNorm / linear prologue and epilogue on the 256-wide global feature.

  Two forms of the aggregation are written down, each in the order of operations one of the two programs uses:
  * the STREAMED form: rows arrive in 25 blocks of 4000; a running column maximum `m`, a normaliser `s` and a weighted
    feature sum `w` are rescaled by `exp (m_old - m_new)` at every block; the logits come head-replicated over 128 lanes
    from a product with a 128 x 128 matrix `AE`; the bias of the source projection is added once at the end;
  * the WHOLE form: logits per head (8 heads of 16 channels), a softmax over all rows at once, the weighted sum of
    the biased projection.
  That the two agree on finite inputs is proved in the modules that import this one; here are only the definitions.
-/
import Idealize.ShloMosaic.PureOps.Ideal

noncomputable section

namespace Cert.Spec

open Idealize.ShloMosaic

/-! ## The float words both programs spell the same way -/

/-- 256, the width of the global feature (the divisor of both means). -/
def c256 : EReal := Ideal.ofBits .f32 0x43800000#32
/-- the LayerNorm epsilon -/
def ceps : EReal := Ideal.ofBits .f32 0x3727C5AC#32
/-- the leaky-ReLU slope -/
def cslope : EReal := Ideal.ofBits .f32 0x3E4CCCCD#32
/-- minus infinity, the neutral element of every maximum taken here -/
def cbot : EReal := Ideal.ofBits .f32 0xFF800000#32

/-! ## Prologue and epilogue pieces (the same in both programs) -/

/-- the mean of a 256-vector -/
def mean (x : Fin 256 → EReal) : EReal := Ideal.div (∑ j, x j) c256

/-- LayerNorm over 256 entries: `(x - μ) · rsqrt (var + ε) · scale + bias`, the variance the mean of the squared
    deviations. -/
def lnorm (x s b : Fin 256 → EReal) : Fin 256 → EReal := fun j =>
  (x j - mean x) * Ideal.rsqrt (mean (fun i => (x i - mean x) * (x i - mean x)) + ceps) * s j + b j

def relu (x : EReal) : EReal := max x 0

/-- a row vector times a matrix, plus a bias -/
def lin {a b : ℕ} (x : Fin a → EReal) (W : Fin a → Fin b → EReal) (bias : Fin b → EReal) : Fin b → EReal :=
  fun k => (∑ j, x j * W j k) + bias k

/-- the global feature projected into a source stream's feature space: `relu (LayerNorm g) · Wg + bg` -/
def gproj (g s b : Fin 256 → EReal) (Wg : Fin 256 → Fin 128 → EReal) (bg : Fin 128 → EReal) : Fin 128 → EReal :=
  lin (fun j => relu (lnorm g s b j)) Wg bg

/-- a row vector times a matrix, no bias -/
def vecmat (x : Fin 128 → EReal) (W : Fin 128 → Fin 128 → EReal) : Fin 128 → EReal := fun k => ∑ j, x j * W j k

/-- two 128-vectors side by side -/
def cat (a b : Fin 128 → EReal) : Fin 256 → EReal := fun j =>
  if h : j.val < 128 then a ⟨j.val, h⟩ else b ⟨j.val - 128, by omega⟩

/-- the epilogue: skip connection, LayerNorm, ReLU, linear layer, skip connection -/
def epi (g : Fin 256 → EReal) (v s : Fin 128 → EReal) (lns lnb : Fin 256 → EReal) (W : Fin 256 → Fin 256 → EReal)
    (b : Fin 256 → EReal) : Fin 256 → EReal :=
  fun j => (g j + cat v s j) + lin (fun i => relu (lnorm (fun i' => g i' + cat v s i') lns lnb i)) W b j

/-! ## The source projection and the two leaky ReLUs -/

/-- rows times the source weight matrix, without its bias -/
def ymat {ι : Type} (X : ι → Fin 128 → EReal) (Wl : Fin 128 → Fin 128 → EReal) (n : ι) (k : Fin 128) : EReal :=
  ∑ j, X n j * Wl j k

/-- leaky ReLU as a maximum (right for a slope below one) -/
def lreluMax (z : EReal) : EReal := max z (cslope * z)

/-- leaky ReLU as a choice on the sign -/
def lreluSel (z : EReal) : EReal := if 0 ≤ z then z else cslope * z

/-- lane `16 h + c` of head `h`, channel `c` -/
def lane (h : Fin 8) (c : Fin 16) : Fin 128 := ⟨16 * h.val + c.val, by omega⟩

/-! ## The streamed form -/

/-- head-replicated logits of a block of rows: `leakyrelu (Y + xr) · AE` -/
def lbK {ι : Type} (X : ι → Fin 128 → EReal) (Wl : Fin 128 → Fin 128 → EReal) (xr : Fin 128 → EReal)
    (AE : Fin 128 → Fin 128 → EReal) (n : ι) (k : Fin 128) : EReal :=
  ∑ j, lreluMax (ymat X Wl n j + xr j) * AE j k

/-- the running state of the streamed softmax: column maximum, normaliser, weighted feature sum -/
structure St where
  m : Fin 128 → EReal
  s : Fin 128 → EReal
  w : Fin 128 → EReal

/-- before any block: maximum minus infinity, sums zero -/
def St.init : St := ⟨fun _ => cbot, fun _ => 0, fun _ => 0⟩

/-- one block of 4000 rows folded into the state -/
def step (X : Fin 4000 → Fin 128 → EReal) (Wl : Fin 128 → Fin 128 → EReal) (xr : Fin 128 → EReal)
    (AE : Fin 128 → Fin 128 → EReal) (st : St) : St :=
  let mn : Fin 128 → EReal := fun k =>
    max (st.m k) ((Finset.univ : Finset (Fin 4000)).fold max cbot (fun n => lbK X Wl xr AE n k))
  { m := mn
    s := fun k => st.s k * Ideal.exp (st.m k - mn k) + ∑ n : Fin 4000, Ideal.exp (lbK X Wl xr AE n k - mn k)
    w := fun k => st.w k * Ideal.exp (st.m k - mn k)
                    + ∑ n : Fin 4000, Ideal.exp (lbK X Wl xr AE n k - mn k) * ymat X Wl n k }

/-- block `t` of the rows (rows `4000 t … 4000 t + 3999`) -/
def blockOf (X : Fin 100000 → Fin 128 → EReal) (t : Fin 25) : Fin 4000 → Fin 128 → EReal :=
  fun r j => X ⟨4000 * t.val + r.val, by omega⟩ j

/-- the state after the first `n` blocks -/
def online (X : Fin 100000 → Fin 128 → EReal) (Wl : Fin 128 → Fin 128 → EReal) (xr : Fin 128 → EReal)
    (AE : Fin 128 → Fin 128 → EReal) : (n : ℕ) → n ≤ 25 → St
  | 0, _ => St.init
  | n + 1, h => step (blockOf X ⟨n, by omega⟩) Wl xr AE (online X Wl xr AE n (by omega))

/-- the streamed aggregation's result: `w / s` after all 25 blocks, plus the folded bias `bb` -/
def aggK (X : Fin 100000 → Fin 128 → EReal) (Wl : Fin 128 → Fin 128 → EReal) (xr : Fin 128 → EReal)
    (AE : Fin 128 → Fin 128 → EReal) (bb : Fin 128 → EReal) : Fin 128 → EReal :=
  fun k => Ideal.div ((online X Wl xr AE 25 le_rfl).w k) ((online X Wl xr AE 25 le_rfl).s k) + bb k

/-- the block-diagonal logit matrix: `AE j k = [j, k in the same head] · att (j / 16) (j % 16)`, the indicator a float
    one or zero -/
def aeOf (att : Fin 8 → Fin 16 → EReal) (j k : Fin 128) : EReal :=
  (if j.val / 16 = k.val / 16 then (1 : EReal) else 0) * att ⟨j.val / 16, by omega⟩ ⟨j.val % 16, by omega⟩

/-! ## The whole form -/

/-- logits per row and head: `∑ c, leakyrelu ((Y + bl) + xr) · att` -/
def lgR (X : Fin 100000 → Fin 128 → EReal) (Wl : Fin 128 → Fin 128 → EReal) (bl xr : Fin 128 → EReal)
    (att : Fin 8 → Fin 16 → EReal) (n : Fin 100000) (h : Fin 8) : EReal :=
  ∑ c : Fin 16, lreluSel ((ymat X Wl n (lane h c) + bl (lane h c)) + xr (lane h c)) * att h c

/-- the maximum of a head's logits over all rows -/
def mxR (X : Fin 100000 → Fin 128 → EReal) (Wl : Fin 128 → Fin 128 → EReal) (bl xr : Fin 128 → EReal)
    (att : Fin 8 → Fin 16 → EReal) (h : Fin 8) : EReal :=
  max cbot ((Finset.univ : Finset (Fin 100000)).fold max cbot (fun n => lgR X Wl bl xr att n h))

/-- the softmax weight of row `n` in head `h` -/
def alphaR (X : Fin 100000 → Fin 128 → EReal) (Wl : Fin 128 → Fin 128 → EReal) (bl xr : Fin 128 → EReal)
    (att : Fin 8 → Fin 16 → EReal) (n : Fin 100000) (h : Fin 8) : EReal :=
  Ideal.div (Ideal.exp (lgR X Wl bl xr att n h - mxR X Wl bl xr att h))
    (∑ n' : Fin 100000, Ideal.exp (lgR X Wl bl xr att n' h - mxR X Wl bl xr att h))

/-- the whole aggregation's result on lane `16 h + c`: the softmax-weighted sum of the biased projection, plus the
    output bias -/
def aggR (X : Fin 100000 → Fin 128 → EReal) (Wl : Fin 128 → Fin 128 → EReal) (bl xr : Fin 128 → EReal)
    (att : Fin 8 → Fin 16 → EReal) (bias : Fin 128 → EReal) : Fin 128 → EReal :=
  fun k => (∑ n : Fin 100000, alphaR X Wl bl xr att n ⟨k.val / 16, by omega⟩ * (ymat X Wl n k + bl k)) + bias k

/-! ## The arguments, and the two results -/

/-- the 27 argument arrays, read through plain indices -/
structure Args where
  xv : Fin 100000 → Fin 128 → EReal
  xs : Fin 100000 → Fin 128 → EReal
  g : Fin 256 → EReal
  ln_g2v_s : Fin 256 → EReal
  ln_g2v_b : Fin 256 → EReal
  W_g2v : Fin 256 → Fin 128 → EReal
  b_g2v : Fin 128 → EReal
  Wl_v : Fin 128 → Fin 128 → EReal
  bl_v : Fin 128 → EReal
  Wr_v : Fin 128 → Fin 128 → EReal
  br_v : Fin 128 → EReal
  att_v : Fin 8 → Fin 16 → EReal
  bias_v : Fin 128 → EReal
  ln_g2s_s : Fin 256 → EReal
  ln_g2s_b : Fin 256 → EReal
  W_g2s : Fin 256 → Fin 128 → EReal
  b_g2s : Fin 128 → EReal
  Wl_s : Fin 128 → Fin 128 → EReal
  bl_s : Fin 128 → EReal
  Wr_s : Fin 128 → Fin 128 → EReal
  br_s : Fin 128 → EReal
  att_s : Fin 8 → Fin 16 → EReal
  bias_s : Fin 128 → EReal
  ln_pre_s : Fin 256 → EReal
  ln_pre_b : Fin 256 → EReal
  W_mlp : Fin 256 → Fin 256 → EReal
  b_mlp : Fin 256 → EReal

/-- every entry of every argument is a real number -/
def Args.Finite (a : Args) : Prop :=
  (∀ n j, ∃ r : ℝ, a.xv n j = r) ∧ (∀ n j, ∃ r : ℝ, a.xs n j = r) ∧ (∀ j, ∃ r : ℝ, a.g j = r)
  ∧ (∀ j, ∃ r : ℝ, a.ln_g2v_s j = r) ∧ (∀ j, ∃ r : ℝ, a.ln_g2v_b j = r) ∧ (∀ j k, ∃ r : ℝ, a.W_g2v j k = r)
  ∧ (∀ j, ∃ r : ℝ, a.b_g2v j = r) ∧ (∀ j k, ∃ r : ℝ, a.Wl_v j k = r) ∧ (∀ j, ∃ r : ℝ, a.bl_v j = r)
  ∧ (∀ j k, ∃ r : ℝ, a.Wr_v j k = r) ∧ (∀ j, ∃ r : ℝ, a.br_v j = r) ∧ (∀ h c, ∃ r : ℝ, a.att_v h c = r)
  ∧ (∀ j, ∃ r : ℝ, a.bias_v j = r)
  ∧ (∀ j, ∃ r : ℝ, a.ln_g2s_s j = r) ∧ (∀ j, ∃ r : ℝ, a.ln_g2s_b j = r) ∧ (∀ j k, ∃ r : ℝ, a.W_g2s j k = r)
  ∧ (∀ j, ∃ r : ℝ, a.b_g2s j = r) ∧ (∀ j k, ∃ r : ℝ, a.Wl_s j k = r) ∧ (∀ j, ∃ r : ℝ, a.bl_s j = r)
  ∧ (∀ j k, ∃ r : ℝ, a.Wr_s j k = r) ∧ (∀ j, ∃ r : ℝ, a.br_s j = r) ∧ (∀ h c, ∃ r : ℝ, a.att_s h c = r)
  ∧ (∀ j, ∃ r : ℝ, a.bias_s j = r)
  ∧ (∀ j, ∃ r : ℝ, a.ln_pre_s j = r) ∧ (∀ j, ∃ r : ℝ, a.ln_pre_b j = r) ∧ (∀ j k, ∃ r : ℝ, a.W_mlp j k = r)
  ∧ (∀ j, ∃ r : ℝ, a.b_mlp j = r)

/-- the streamed program's offset of the attention input: `(bl + xv · Wr) + br` -/
def xrK (bl : Fin 128 → EReal) (xv : Fin 128 → EReal) (Wr : Fin 128 → Fin 128 → EReal) (br : Fin 128 → EReal) :
    Fin 128 → EReal := fun k => (bl k + vecmat xv Wr k) + br k

/-- the whole program's target projection: `xv · Wr + br` -/
def xrR (xv : Fin 128 → EReal) (Wr : Fin 128 → Fin 128 → EReal) (br : Fin 128 → EReal) : Fin 128 → EReal :=
  fun k => vecmat xv Wr k + br k

/-- what the streamed program computes -/
def outK (a : Args) : Fin 256 → EReal :=
  epi a.g
    (aggK a.xv a.Wl_v (xrK a.bl_v (gproj a.g a.ln_g2v_s a.ln_g2v_b a.W_g2v a.b_g2v) a.Wr_v a.br_v) (aeOf a.att_v)
      (fun k => a.bl_v k + a.bias_v k))
    (aggK a.xs a.Wl_s (xrK a.bl_s (gproj a.g a.ln_g2s_s a.ln_g2s_b a.W_g2s a.b_g2s) a.Wr_s a.br_s) (aeOf a.att_s)
      (fun k => a.bl_s k + a.bias_s k))
    a.ln_pre_s a.ln_pre_b a.W_mlp a.b_mlp

/-- what the whole program computes -/
def outR (a : Args) : Fin 256 → EReal :=
  epi a.g
    (aggR a.xv a.Wl_v a.bl_v (xrR (gproj a.g a.ln_g2v_s a.ln_g2v_b a.W_g2v a.b_g2v) a.Wr_v a.br_v) a.att_v a.bias_v)
    (aggR a.xs a.Wl_s a.bl_s (xrR (gproj a.g a.ln_g2s_s a.ln_g2s_b a.W_g2s a.b_g2s) a.Wr_s a.br_s) a.att_s a.bias_s)
    a.ln_pre_s a.ln_pre_b a.W_mlp a.b_mlp

end Cert.Spec

end
-- ==== Proof.Finite.lean ====
import proofs.«146274_g33088428049086_cont_sun_c4_530_10_alg».proof.Defs
import proofs.«146274_g33088428049086_cont_sun_c4_530_10_alg».proof.Proof.Gen.Pre_finite_inputs
import proofs.«146274_g33088428049086_cont_sun_c4_530_10_alg».proof.Proof.Spec
import Idealize.ShloMosaic.Lib.ReduceAll
import Idealize.ShloMosaic.Lib.ValueIdx

/-!
  The precondition read back. The certificate assumes of its 27 argument arrays that a predicate evaluates to all
  ones: for each array, "every |x| is strictly below plus infinity", the 27 answers joined by conjunction. Here that
  is turned into the statement the mathematics uses: every entry of every array is (the image of) a real number.
  An extended real x with max x (-x) < ⊤ is neither ⊤ nor ⊥.
-/

noncomputable section

namespace Cert.KernelIdeal.Hand

open Idealize.ShloMosaic Idealize.ShloMosaic.ValueIdx

/-- the scalar shape has one index -/
instance : Subsingleton Cert.Pre_finite_inputs.S_.Idx := ⟨fun a b => funext fun d => d.elim0⟩

/-- the float word 0x7F800000 denotes plus infinity -/
theorem inf_word : Ideal.ofBits .f32 0x7F800000#32 = (⊤ : EReal) := by
  simp [Ideal.ofBits, Ideal.ieee]

/-- an extended real whose absolute value lies strictly below plus infinity is a real number -/
theorem real_of_abs_lt_top (x : EReal) (h : Ideal.cmp .olt (max x (-x)) (⊤ : EReal) = 1#1) : ∃ r : ℝ, x = r := by
  induction x using EReal.rec with
  | bot => simp [Ideal.cmp] at h
  | coe r => exact ⟨r, rfl⟩
  | top => simp [Ideal.cmp] at h

/-- one conjunct of the precondition, "all of |a| < +inf" reduced by conjunction from 1 and found to be 1, says that
    every entry of the array a is a real number; any shape -/
theorem all_real {s : Shape} {axes : List (Fin s.rank)} (a : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] bc (constant Cert.Pre_finite_inputs.S_ .f32 0x7F800000#32)))
          (constantI Cert.Pre_finite_inputs.S_ 1 1#1) rd hu j = 1#1)
    (i : s.Idx) : ∃ r : ℝ, a i = r := by
  have h1 := Host.reduce_andi_all _ _ rd hu j e i
  have h2 : Ideal.cmp .olt (max (a i) (-(a i))) (Ideal.ofBits .f32 0x7F800000#32) = 1#1 := h1
  rw [inf_word] at h2
  exact real_of_abs_lt_top _ h2

/-- the precondition, decoded: every entry of each of the 27 argument arrays is a real number -/
theorem entries_real [Cert.Pre_finite_inputs.Facts] (a0 : FVec Ideal Cert.KernelIdeal.S100000x128 .f32) (a1 : FVec Ideal Cert.KernelIdeal.S100000x128 .f32) (a2 : FVec Ideal Cert.KernelIdeal.S1x256 .f32) (a3 : FVec Ideal Cert.KernelIdeal.S256 .f32) (a4 : FVec Ideal Cert.KernelIdeal.S256 .f32) (a5 : FVec Ideal Cert.KernelIdeal.S256x128 .f32) (a6 : FVec Ideal Cert.KernelIdeal.S128 .f32) (a7 : FVec Ideal Cert.KernelIdeal.S128x128 .f32) (a8 : FVec Ideal Cert.KernelIdeal.S128 .f32) (a9 : FVec Ideal Cert.KernelIdeal.S128x128 .f32) (a10 : FVec Ideal Cert.KernelIdeal.S128 .f32) (a11 : FVec Ideal Cert.KernelIdeal.S8x16 .f32) (a12 : FVec Ideal Cert.KernelIdeal.S128 .f32) (a13 : FVec Ideal Cert.KernelIdeal.S256 .f32) (a14 : FVec Ideal Cert.KernelIdeal.S256 .f32) (a15 : FVec Ideal Cert.KernelIdeal.S256x128 .f32) (a16 : FVec Ideal Cert.KernelIdeal.S128 .f32) (a17 : FVec Ideal Cert.KernelIdeal.S128x128 .f32) (a18 : FVec Ideal Cert.KernelIdeal.S128 .f32) (a19 : FVec Ideal Cert.KernelIdeal.S128x128 .f32) (a20 : FVec Ideal Cert.KernelIdeal.S128 .f32) (a21 : FVec Ideal Cert.KernelIdeal.S8x16 .f32) (a22 : FVec Ideal Cert.KernelIdeal.S128 .f32) (a23 : FVec Ideal Cert.KernelIdeal.S256 .f32) (a24 : FVec Ideal Cert.KernelIdeal.S256 .f32) (a25 : FVec Ideal Cert.KernelIdeal.S256x256 .f32) (a26 : FVec Ideal Cert.KernelIdeal.S256 .f32)
    (h : Cert.Pre_finite_inputs.fn (F := Ideal) a0 a1 a2 a3 a4 a5 a6 a7 a8 a9 a10 a11 a12 a13 a14 a15 a16 a17 a18 a19 a20 a21 a22 a23 a24 a25 a26 = (fun _ => 1#1)) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r) ∧ (∀ i, ∃ r : ℝ, a5 i = r) ∧ (∀ i, ∃ r : ℝ, a6 i = r) ∧ (∀ i, ∃ r : ℝ, a7 i = r) ∧ (∀ i, ∃ r : ℝ, a8 i = r) ∧ (∀ i, ∃ r : ℝ, a9 i = r) ∧ (∀ i, ∃ r : ℝ, a10 i = r) ∧ (∀ i, ∃ r : ℝ, a11 i = r) ∧ (∀ i, ∃ r : ℝ, a12 i = r) ∧ (∀ i, ∃ r : ℝ, a13 i = r) ∧ (∀ i, ∃ r : ℝ, a14 i = r) ∧ (∀ i, ∃ r : ℝ, a15 i = r) ∧ (∀ i, ∃ r : ℝ, a16 i = r) ∧ (∀ i, ∃ r : ℝ, a17 i = r) ∧ (∀ i, ∃ r : ℝ, a18 i = r) ∧ (∀ i, ∃ r : ℝ, a19 i = r) ∧ (∀ i, ∃ r : ℝ, a20 i = r) ∧ (∀ i, ∃ r : ℝ, a21 i = r) ∧ (∀ i, ∃ r : ℝ, a22 i = r) ∧ (∀ i, ∃ r : ℝ, a23 i = r) ∧ (∀ i, ∃ r : ℝ, a24 i = r) ∧ (∀ i, ∃ r : ℝ, a25 i = r) ∧ (∀ i, ∃ r : ℝ, a26 i = r) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  obtain ⟨h0, c26⟩ := IntOp.andi_eq_one.1 h0
  obtain ⟨h0, c25⟩ := IntOp.andi_eq_one.1 h0
  obtain ⟨h0, c24⟩ := IntOp.andi_eq_one.1 h0
  obtain ⟨h0, c23⟩ := IntOp.andi_eq_one.1 h0
  obtain ⟨h0, c22⟩ := IntOp.andi_eq_one.1 h0
  obtain ⟨h0, c21⟩ := IntOp.andi_eq_one.1 h0
  obtain ⟨h0, c20⟩ := IntOp.andi_eq_one.1 h0
  obtain ⟨h0, c19⟩ := IntOp.andi_eq_one.1 h0
  obtain ⟨h0, c18⟩ := IntOp.andi_eq_one.1 h0
  obtain ⟨h0, c17⟩ := IntOp.andi_eq_one.1 h0
  obtain ⟨h0, c16⟩ := IntOp.andi_eq_one.1 h0
  obtain ⟨h0, c15⟩ := IntOp.andi_eq_one.1 h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨all_real a0 _ _ _ _ c0, all_real a1 _ _ _ _ c1, all_real a2 _ _ _ _ c2, all_real a3 _ _ _ _ c3, all_real a4 _ _ _ _ c4, all_real a5 _ _ _ _ c5, all_real a6 _ _ _ _ c6, all_real a7 _ _ _ _ c7, all_real a8 _ _ _ _ c8, all_real a9 _ _ _ _ c9, all_real a10 _ _ _ _ c10, all_real a11 _ _ _ _ c11, all_real a12 _ _ _ _ c12, all_real a13 _ _ _ _ c13, all_real a14 _ _ _ _ c14, all_real a15 _ _ _ _ c15, all_real a16 _ _ _ _ c16, all_real a17 _ _ _ _ c17, all_real a18 _ _ _ _ c18, all_real a19 _ _ _ _ c19, all_real a20 _ _ _ _ c20, all_real a21 _ _ _ _ c21, all_real a22 _ _ _ _ c22, all_real a23 _ _ _ _ c23, all_real a24 _ _ _ _ c24, all_real a25 _ _ _ _ c25, all_real a26 _ _ _ _ c26⟩

/-- the 27 argument arrays of the program, read through plain indices: the specification's argument record -/
def argsOfK (a0 : FVec Ideal Cert.KernelIdeal.S100000x128 .f32) (a1 : FVec Ideal Cert.KernelIdeal.S100000x128 .f32) (a2 : FVec Ideal Cert.KernelIdeal.S1x256 .f32) (a3 : FVec Ideal Cert.KernelIdeal.S256 .f32) (a4 : FVec Ideal Cert.KernelIdeal.S256 .f32) (a5 : FVec Ideal Cert.KernelIdeal.S256x128 .f32) (a6 : FVec Ideal Cert.KernelIdeal.S128 .f32) (a7 : FVec Ideal Cert.KernelIdeal.S128x128 .f32) (a8 : FVec Ideal Cert.KernelIdeal.S128 .f32) (a9 : FVec Ideal Cert.KernelIdeal.S128x128 .f32) (a10 : FVec Ideal Cert.KernelIdeal.S128 .f32) (a11 : FVec Ideal Cert.KernelIdeal.S8x16 .f32) (a12 : FVec Ideal Cert.KernelIdeal.S128 .f32) (a13 : FVec Ideal Cert.KernelIdeal.S256 .f32) (a14 : FVec Ideal Cert.KernelIdeal.S256 .f32) (a15 : FVec Ideal Cert.KernelIdeal.S256x128 .f32) (a16 : FVec Ideal Cert.KernelIdeal.S128 .f32) (a17 : FVec Ideal Cert.KernelIdeal.S128x128 .f32) (a18 : FVec Ideal Cert.KernelIdeal.S128 .f32) (a19 : FVec Ideal Cert.KernelIdeal.S128x128 .f32) (a20 : FVec Ideal Cert.KernelIdeal.S128 .f32) (a21 : FVec Ideal Cert.KernelIdeal.S8x16 .f32) (a22 : FVec Ideal Cert.KernelIdeal.S128 .f32) (a23 : FVec Ideal Cert.KernelIdeal.S256 .f32) (a24 : FVec Ideal Cert.KernelIdeal.S256 .f32) (a25 : FVec Ideal Cert.KernelIdeal.S256x256 .f32) (a26 : FVec Ideal Cert.KernelIdeal.S256 .f32) : Cert.Spec.Args where
  xv := fun n j => a0 (ix2 n j)
  xs := fun n j => a1 (ix2 n j)
  g := fun j => a2 (ix2 0 j)
  ln_g2v_s := fun j => a3 (ix1 j)
  ln_g2v_b := fun j => a4 (ix1 j)
  W_g2v := fun j k => a5 (ix2 j k)
  b_g2v := fun j => a6 (ix1 j)
  Wl_v := fun j k => a7 (ix2 j k)
  bl_v := fun j => a8 (ix1 j)
  Wr_v := fun j k => a9 (ix2 j k)
  br_v := fun j => a10 (ix1 j)
  att_v := fun h c => a11 (ix2 h c)
  bias_v := fun j => a12 (ix1 j)
  ln_g2s_s := fun j => a13 (ix1 j)
  ln_g2s_b := fun j => a14 (ix1 j)
  W_g2s := fun j k => a15 (ix2 j k)
  b_g2s := fun j => a16 (ix1 j)
  Wl_s := fun j k => a17 (ix2 j k)
  bl_s := fun j => a18 (ix1 j)
  Wr_s := fun j k => a19 (ix2 j k)
  br_s := fun j => a20 (ix1 j)
  att_s := fun h c => a21 (ix2 h c)
  bias_s := fun j => a22 (ix1 j)
  ln_pre_s := fun j => a23 (ix1 j)
  ln_pre_b := fun j => a24 (ix1 j)
  W_mlp := fun j k => a25 (ix2 j k)
  b_mlp := fun j => a26 (ix1 j)

/-- on inputs of which the precondition holds, every entry of the argument record is a real number -/
theorem finite_of_pre [Cert.Pre_finite_inputs.Facts] (a0 : FVec Ideal Cert.KernelIdeal.S100000x128 .f32) (a1 : FVec Ideal Cert.KernelIdeal.S100000x128 .f32) (a2 : FVec Ideal Cert.KernelIdeal.S1x256 .f32) (a3 : FVec Ideal Cert.KernelIdeal.S256 .f32) (a4 : FVec Ideal Cert.KernelIdeal.S256 .f32) (a5 : FVec Ideal Cert.KernelIdeal.S256x128 .f32) (a6 : FVec Ideal Cert.KernelIdeal.S128 .f32) (a7 : FVec Ideal Cert.KernelIdeal.S128x128 .f32) (a8 : FVec Ideal Cert.KernelIdeal.S128 .f32) (a9 : FVec Ideal Cert.KernelIdeal.S128x128 .f32) (a10 : FVec Ideal Cert.KernelIdeal.S128 .f32) (a11 : FVec Ideal Cert.KernelIdeal.S8x16 .f32) (a12 : FVec Ideal Cert.KernelIdeal.S128 .f32) (a13 : FVec Ideal Cert.KernelIdeal.S256 .f32) (a14 : FVec Ideal Cert.KernelIdeal.S256 .f32) (a15 : FVec Ideal Cert.KernelIdeal.S256x128 .f32) (a16 : FVec Ideal Cert.KernelIdeal.S128 .f32) (a17 : FVec Ideal Cert.KernelIdeal.S128x128 .f32) (a18 : FVec Ideal Cert.KernelIdeal.S128 .f32) (a19 : FVec Ideal Cert.KernelIdeal.S128x128 .f32) (a20 : FVec Ideal Cert.KernelIdeal.S128 .f32) (a21 : FVec Ideal Cert.KernelIdeal.S8x16 .f32) (a22 : FVec Ideal Cert.KernelIdeal.S128 .f32) (a23 : FVec Ideal Cert.KernelIdeal.S256 .f32) (a24 : FVec Ideal Cert.KernelIdeal.S256 .f32) (a25 : FVec Ideal Cert.KernelIdeal.S256x256 .f32) (a26 : FVec Ideal Cert.KernelIdeal.S256 .f32)
    (h : Cert.Pre_finite_inputs.fn (F := Ideal) a0 a1 a2 a3 a4 a5 a6 a7 a8 a9 a10 a11 a12 a13 a14 a15 a16 a17 a18 a19 a20 a21 a22 a23 a24 a25 a26 = (fun _ => 1#1)) :
    (argsOfK a0 a1 a2 a3 a4 a5 a6 a7 a8 a9 a10 a11 a12 a13 a14 a15 a16 a17 a18 a19 a20 a21 a22 a23 a24 a25 a26).Finite := by
  obtain ⟨e0, e1, e2, e3, e4, e5, e6, e7, e8, e9, e10, e11, e12, e13, e14, e15, e16, e17, e18, e19, e20, e21, e22, e23, e24, e25, e26⟩ := entries_real a0 a1 a2 a3 a4 a5 a6 a7 a8 a9 a10 a11 a12 a13 a14 a15 a16 a17 a18 a19 a20 a21 a22 a23 a24 a25 a26 h
  exact ⟨fun n j => e0 (ix2 n j), fun n j => e1 (ix2 n j), fun j => e2 (ix2 0 j), fun j => e3 (ix1 j), fun j => e4 (ix1 j), fun n j => e5 (ix2 n j), fun j => e6 (ix1 j), fun n j => e7 (ix2 n j), fun j => e8 (ix1 j), fun n j => e9 (ix2 n j), fun j => e10 (ix1 j), fun n j => e11 (ix2 n j), fun j => e12 (ix1 j), fun j => e13 (ix1 j), fun j => e14 (ix1 j), fun n j => e15 (ix2 n j), fun j => e16 (ix1 j), fun n j => e17 (ix2 n j), fun j => e18 (ix1 j), fun n j => e19 (ix2 n j), fun j => e20 (ix1 j), fun n j => e21 (ix2 n j), fun j => e22 (ix1 j), fun j => e23 (ix1 j), fun j => e24 (ix1 j), fun n j => e25 (ix2 n j), fun j => e26 (ix1 j)⟩

end Cert.KernelIdeal.Hand

end
-- ==== Proof.KConv.lean ====
/-
  Reading a printed vector through plain indices: a one-row array as a function of its column, a matrix as a function
  of row and column.
-/
import proofs.«146274_g33088428049086_cont_sun_c4_530_10_alg».proof.Proof.Spec
import Idealize.ShloMosaic.Lib.ValueIdx

noncomputable section

namespace Cert.Hand

open Idealize.ShloMosaic Idealize.ShloMosaic.ValueIdx

/-- a one-row array read by its column -/
def rowOf {n : ℕ} (v : (⟨2, ![1, n]⟩ : Shape).Idx → EReal) : Fin n → EReal := fun k => v (ix2 0 k)

/-- a matrix read by row and column -/
def matOf {a b : ℕ} (A : (⟨2, ![a, b]⟩ : Shape).Idx → EReal) : Fin a → Fin b → EReal := fun j k => A (ix2 j k)

/-- a vector read by its one index -/
def vecOf {n : ℕ} (v : (⟨1, ![n]⟩ : Shape).Idx → EReal) : Fin n → EReal := fun k => v (ix1 k)

end Cert.Hand

end
-- ==== Proof.KHostAE.lean ====
/-
  The two block-diagonal logit matrices the host part of the program hands to the kernel. Lane j of 128 belongs to head
  j / 16 (a floor division, computed on 32-bit words); the mask "lanes j and k share a head", as float ones and zeros,
  is multiplied entrywise by the 8 × 16 attention table flattened to 128 entries and repeated along each row. Read by
  row and column that product is the matrix AE of the specification: AE j k = [j / 16 = k / 16] · att (j / 16) (j % 16).
-/
import proofs.«146274_g33088428049086_cont_sun_c4_530_10_alg».proof.Proof.Gen.KernelIdeal.Frame.Runs
import proofs.«146274_g33088428049086_cont_sun_c4_530_10_alg».proof.Proof.Spec
import proofs.«146274_g33088428049086_cont_sun_c4_530_10_alg».proof.Proof.KConv
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem Cert.Hand
open Idealize.ShloMosaic.ValueIdx Idealize.ShloMosaic.StableHlo

variable (m : (ℓ : Loc nD τ sig) → Buf (Elt Ideal) ℓ)

/-- the buffers once the lane numbers, the constant 16 and the floor division have been computed -/
abbrev hostW (c : Dev nD) : Valuation τ sig (Elt Ideal) :=
  StableHlo.after ((hostOps0 (F := Ideal)) ++ hostOps0_1) (fun b => m (c, b))

/-- the buffers at the kernel's entry are those, followed by the remaining host operations -/
theorem V_eq_hostW (c : Dev nD) (b : Ref sig .tc) : V m c b = StableHlo.after (hostOps0_2 (F := Ideal)) (hostW m c) b := by
  show StableHlo.after (List.flatten [hostOps0, hostOps0_1, hostOps0_2]) _ _ = _
  rw [show List.flatten [hostOps0 (F := Ideal), hostOps0_1, hostOps0_2] = (hostOps0 ++ hostOps0_1) ++ hostOps0_2 from by
    simp only [List.flatten_cons, List.flatten_nil, List.append_nil, List.append_assoc], StableHlo.after_append]

/-- the floor division by 16 of the lane numbers 0 … 127, operation by operation: quotient and remainder rounded toward
    zero, and one subtracted where the signs of dividend and divisor differ and the remainder is not zero -/
def headsOf : IVec S128 32 :=
  let x : IVec S128 32 := iotaInDim S128 32 0
  let d0 : IVec S_ 32 := constantI S_ 32 16#32
  let q : IVec S128 32 := Host.divsi x (broadcastInDim S128 ![] Gen.bcast_S_S128 d0)
  let s : IVec S128 1 := cmpi .ne (signi x) (broadcastInDim S128 ![] Gen.bcast_S_S128 (signi d0))
  let r : IVec S128 32 := Host.remsi x (broadcastInDim S128 ![] Gen.bcast_S_S128 d0)
  let z : IVec S128 1 := cmpi .ne r (broadcastInDim S128 ![] Gen.bcast_S_S128 (constantI S_ 32 0#32))
  select (andi s z) (subi q (broadcastInDim S128 ![] Gen.bcast_S_S128 (constantI S_ 32 1#32))) q

set_option maxHeartbeats 1000000 in
/-- the floor division's result buffer holds the chain above -/
theorem hostW_v1 (c : Dev nD) : (hostW m c main_v1 : S128.Idx → BitVec 32) = headsOf := by
  dsimp only [hostW]
  simp only [Gen.hostOps0, Gen.hostOps0_1, List.cons_append, List.nil_append]
  after_results
  rfl

set_option maxHeartbeats 1000000 in
/-- none of those operations writes the view stream's attention table -/
theorem hostW_arg11 (c : Dev nD) : hostW m c main_arg11 = m ((c : Thread nD τ).loc main_arg11) := by
  dsimp only [hostW]
  simp only [Gen.hostOps0, Gen.hostOps0_1, List.cons_append, List.nil_append]
  after_results

set_option maxHeartbeats 1000000 in
/-- nor the scenepoint stream's -/
theorem hostW_arg21 (c : Dev nD) : hostW m c main_arg21 = m ((c : Thread nD τ).loc main_arg21) := by
  dsimp only [hostW]
  simp only [Gen.hostOps0, Gen.hostOps0_1, List.cons_append, List.nil_append]
  after_results

/-- the 128 × 128 mask "lane j and lane k have the same head number", as float ones and zeros -/
def sameHead (h : IVec S128 32) : FVec Ideal S128x128 .f32 :=
  uitofp .f32 (cmpi .eq
    (broadcastInDim S128x128 ![0, 1] Gen.bcast_S128x1_S128x128_0_1 (broadcastInDim S128x1 ![0] Gen.bcast_S128_S128x1_0 h))
    (broadcastInDim S128x128 ![0, 1] Gen.bcast_S1x128_S128x128_0_1 (broadcastInDim S1x128 ![1] Gen.bcast_S128_S1x128_1 h)))

/-- an 8 × 16 table flattened to 128 entries, entry j repeated along row j of a 128 × 128 matrix -/
def attCol (a : FVec Ideal S8x16 .f32) : FVec Ideal S128x128 .f32 :=
  broadcastInDim S128x128 ![0, 1] Gen.bcast_S128x1_S128x128_0_1
    (broadcastInDim S128x1 ![0] Gen.bcast_S128_S128x1_0 (shapeCast S128 a Gen.shapeCasts_S8x16_S128))

set_option maxHeartbeats 2000000 in
/-- the view stream's logit matrix, as the kernel's host operations compute it -/
theorem V_v11 (c : Dev nD) : (V m c main_v11 : S128x128.Idx → EReal)
    = mulf (sameHead headsOf) (attCol (m ((c : Thread nD τ).loc main_arg11))) := by
  rw [V_eq_hostW]
  simp only [Gen.hostOps0_2]
  after_results
  rw [hostW_v1, hostW_arg11]
  rfl

set_option maxHeartbeats 2000000 in
/-- the scenepoint stream's -/
theorem V_v15 (c : Dev nD) : (V m c main_v15 : S128x128.Idx → EReal)
    = mulf (sameHead headsOf) (attCol (m ((c : Thread nD τ).loc main_arg21))) := by
  rw [V_eq_hostW]
  simp only [Gen.hostOps0_2]
  after_results
  rw [hostW_v1, hostW_arg21]
  rfl

/-! ## The head number of a lane -/

/-- the same floor division by 16 on one 32-bit word -/
private def fdiv16 (x : BitVec 32) : BitVec 32 :=
  let q := IntOp.divsi .host x 16#32
  let sx : BitVec 32 := if x = 0 then 0 else if x.msb then -1 else 1
  let sd : BitVec 32 := if (16#32 : BitVec 32) = 0 then 0 else if (16#32 : BitVec 32).msb then -1 else 1
  let r := IntOp.remsi .host x 16#32
  Scalar.select (IntOp.andi (IntOp.cmpi .ne sx sd) (IntOp.cmpi .ne r 0#32)) (IntOp.subi q 1#32) q

/-- on the words 0 … 127 it is the natural quotient: the operands are non-negative, so the signed quotient and remainder
    are the natural ones, and the correction "signs differ and remainder nonzero" is never on (at 0 the signs differ but
    the remainder is 0; above 0 the signs agree); a finite check over the 128 words -/
private theorem fdiv16_eq : ∀ j : Fin 128, fdiv16 (BitVec.ofNat 32 j.val) = BitVec.ofNat 32 (j.val / 16) := by
  decide

/-- lane j belongs to head j / 16 -/
theorem heads_apply (j : Fin 128) : headsOf (ix1 j) = BitVec.ofNat 32 (j.val / 16) :=
  fdiv16_eq j

/-! ## Indices -/

private theorem ofFin_eq_ix1 {n : ℕ} (j : Fin n) : Shape.Idx.ofFin j = ix1 j := by
  funext a; match a with | ⟨0, _⟩ => rfl

private theorem ij_eq_ix2 {a b : ℕ} (j : Fin a) (k : Fin b) : Predicate.ij j k = ix2 j k := by
  funext d; match d with | ⟨0, _⟩ => rfl | ⟨1, _⟩ => rfl

/-! ## The two factors at an entry -/

/-- two head numbers below 8, as 32-bit words, are equal exactly when the numbers are -/
private theorem ofNat_inj_small {p q : ℕ} (hp : p < 8) (hq : q < 8) : BitVec.ofNat 32 p = BitVec.ofNat 32 q ↔ p = q := by
  constructor
  · intro h
    have := congrArg BitVec.toNat h
    simp only [BitVec.toNat_ofNat] at this
    omega
  · rintro rfl; rfl

/-- the mask at (j, k): one when the lanes share a head, zero otherwise -/
theorem sameHead_apply (j k : Fin 128) :
    sameHead headsOf (ix2 j k) = if j.val / 16 = k.val / 16 then (1 : EReal) else 0 := by
  have hL := Predicate.bcast_rows Gen.bcast_S128_S128x1_0 Gen.bcast_S128x1_S128x128_0_1 headsOf j k
  have hR := Predicate.bcast_cols Gen.bcast_S128_S1x128_1 Gen.bcast_S1x128_S128x128_0_1 headsOf j k
  rw [ij_eq_ix2, ofFin_eq_ix1, heads_apply] at hL hR
  show ((((IntOp.cmpi .eq _ _ : BitVec 1).toNat : ℝ)) : EReal) = _
  rw [hL, hR]
  have hj := j.isLt
  have hk := k.isLt
  by_cases h : j.val / 16 = k.val / 16
  · rw [if_pos h, h, (Predicate.cmpi_eq_iff).2 rfl]
    norm_num
  · rw [if_neg h]
    have hne : ¬ IntOp.cmpi .eq (BitVec.ofNat 32 (j.val / 16)) (BitVec.ofNat 32 (k.val / 16)) = 1#1 := fun e =>
      h ((ofNat_inj_small (by omega) (by omega)).1 (Predicate.cmpi_eq_iff.1 e))
    rw [eq_zero_of_ne_one hne]
    norm_num

/-- the broadcast table at (j, k): entry (j / 16, j % 16) of the 8 × 16 table -/
theorem attCol_apply (a : FVec Ideal S8x16 .f32) (j k : Fin 128) :
    attCol a (ix2 j k) = a (ix2 (⟨j.val / 16, by omega⟩ : Fin 8) (⟨j.val % 16, by omega⟩ : Fin 16)) := by
  have hB := Predicate.bcast_rows Gen.bcast_S128_S128x1_0 Gen.bcast_S128x1_S128x128_0_1
    (shapeCast S128 a Gen.shapeCasts_S8x16_S128) j k
  rw [ij_eq_ix2, ofFin_eq_ix1] at hB
  unfold attCol
  rw [hB]
  refine shapeCast_apply a Gen.shapeCasts_S8x16_S128 (ix1 j) _ ?_
  rw [Shape.rowMajor_val_two, Shape.rowMajor_val_one]
  show j.val / 16 * 16 + j.val % 16 = j.val
  omega

/-- mask times broadcast table, read by row and column, is the block-diagonal logit matrix of the specification -/
theorem ae_of (a : FVec Ideal S8x16 .f32) :
    matOf (mulf (sameHead headsOf) (attCol a)) = Cert.Spec.aeOf (fun h c' => a (ix2 h c')) := by
  funext j k
  show sameHead headsOf (ix2 j k) * attCol a (ix2 j k) = _
  rw [sameHead_apply, attCol_apply]
  rfl

/-! ## The two logit matrices -/

/-- the view stream's block-diagonal logit matrix is the specification's, of the view attention table -/
theorem ae_v (c : Dev nD) : Cert.Hand.matOf (V m c main_v11 : S128x128.Idx → EReal)
    = Cert.Spec.aeOf (fun h c' => (m ((c : Thread nD τ).loc main_arg11) : S8x16.Idx → EReal) (ValueIdx.ix2 h c')) := by
  rw [V_v11]
  exact ae_of _

/-- the scenepoint stream's, of the scenepoint attention table -/
theorem ae_s (c : Dev nD) : Cert.Hand.matOf (V m c main_v15 : S128x128.Idx → EReal)
    = Cert.Spec.aeOf (fun h c' => (m ((c : Thread nD τ).loc main_arg21) : S8x16.Idx → EReal) (ValueIdx.ix2 h c')) := by
  rw [V_v15]
  exact ae_of _

end Cert.KernelIdeal.Hand

end
-- ==== Proof.KHost.lean ====
/-
  What the pallas_call finds in its 27 input windows, in the specification's terms.

  @main runs 52 host operations before the call (an integer floor division for the head index of each lane, the two
  block-diagonal logit matrices, two bias sums, and reshapes of the vector arguments to one-row arrays); the call then
  stages, at every grid point, a block of each window's array. Here each block is identified with an entry of the
  argument record `argsK`: the two streamed inputs by their 4000-row blocks, every other window by its whole array.

  Three steps, each proved once per window:
  * the block read: a window whose index map is constantly zero and whose block has the array's extents reads the
    array itself; the streamed windows read rows 4000 t … 4000 t + 3999;
  * the array: an argument is untouched by the host operations; a host-computed buffer holds the result of the one
    operation that writes it, applied to what the operations before it left (every operation writes one reference
    of its own, listed in order in `hostRefs`);
  * the reshape of a vector to one row reads the vector at the column.
-/
import proofs.«146274_g33088428049086_cont_sun_c4_530_10_alg».proof.Proof.Gen.KernelIdeal.Frame.Runs
import proofs.«146274_g33088428049086_cont_sun_c4_530_10_alg».proof.Proof.Finite
import proofs.«146274_g33088428049086_cont_sun_c4_530_10_alg».proof.Proof.KConv
import proofs.«146274_g33088428049086_cont_sun_c4_530_10_alg».proof.Proof.Spec
import proofs.«146274_g33088428049086_cont_sun_c4_530_10_alg».proof.Proof.KHostAE
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.Hand

open Cert.KernelIdeal Cert.KernelIdeal.Gen Cert.Hand

variable (m : (ℓ : Loc nD τ sig) → Buf (Elt Ideal) ℓ)

/-! ## The host operations before the pallas_call: which reference each writes -/

/-- every operation of a line writes exactly the one reference listed for it -/
def WritesL : List (HloOp τ sig (Elt Ideal)) → List (Ref sig .tc) → Prop
  | [], [] => True
  | op :: ops, r :: rs => op.writes = {Proc.devRef .tc r} ∧ WritesL ops rs
  | [], _ :: _ => False
  | _ :: _, [] => False

theorem WritesL.drop : ∀ (k : ℕ) {ops : List (HloOp τ sig (Elt Ideal))} {W : List (Ref sig .tc)}, WritesL ops W → WritesL (ops.drop k) (W.drop k)
  | 0, _, _, h => h
  | _ + 1, [], [], _ => trivial
  | k + 1, _ :: _, _ :: _, h => WritesL.drop k h.2
  | _ + 1, [], _ :: _, h => h.elim
  | _ + 1, _ :: _, [], h => h.elim

theorem WritesL.take : ∀ (k : ℕ) {ops : List (HloOp τ sig (Elt Ideal))} {W : List (Ref sig .tc)}, WritesL ops W → WritesL (ops.take k) (W.take k)
  | 0, _, _, _ => trivial
  | _ + 1, [], [], _ => trivial
  | k + 1, _ :: _, _ :: _, h => ⟨h.1, WritesL.take k h.2⟩
  | _ + 1, [], _ :: _, h => h.elim
  | _ + 1, _ :: _, [], h => h.elim

/-- a reference the line does not write keeps its contents -/
theorem after_keep : ∀ {ops : List (HloOp τ sig (Elt Ideal))} {W : List (Ref sig .tc)}, WritesL ops W →
    ∀ (V : Valuation τ sig (Elt Ideal)) {r : Ref sig .tc}, r ∉ W → StableHlo.after ops V (Proc.devRef .tc r) = V (Proc.devRef .tc r)
  | [], [], _, _, _, _ => rfl
  | op :: ops, r0 :: rs, h, V, r, hr => by
      rw [StableHlo.after_cons, after_keep h.2 _ (fun hm => hr (List.mem_cons_of_mem _ hm)), HloOp.result_of_not_mem]
      rw [h.1, Finset.mem_singleton]
      exact StableHlo.devRef_ne_of_ne (fun e => hr (e ▸ List.mem_cons_self))
  | [], _ :: _, h, _, _, _ => h.elim
  | _ :: _, [], h, _, _, _ => h.elim

/-- a line run up to its k-th operation, then the rest -/
theorem after_split : ∀ (k : ℕ) (ops : List (HloOp τ sig (Elt Ideal))) (V : Valuation τ sig (Elt Ideal)),
    StableHlo.after ops V = StableHlo.after (ops.drop k) (StableHlo.after (ops.take k) V)
  | 0, _, _ => rfl
  | _ + 1, [], _ => rfl
  | k + 1, op :: ops, V => after_split k ops (op.result V)

/-- the reference the k-th operation writes holds, after the line, that operation's result on what the operations
    before it left (no later operation writes it) -/
theorem after_at {ops : List (HloOp τ sig (Elt Ideal))} {W : List (Ref sig .tc)} (h : WritesL ops W) (V : Valuation τ sig (Elt Ideal))
    (k : ℕ) (op : HloOp τ sig (Elt Ideal)) (hk : ops.drop k = op :: ops.drop (k + 1)) {y : Ref sig .tc} (hy : y ∉ W.drop (k + 1)) :
    StableHlo.after ops V (Proc.devRef .tc y) = op.result (StableHlo.after (ops.take k) V) (Proc.devRef .tc y) := by
  rw [after_split k ops V, hk, StableHlo.after_cons]
  exact after_keep (h.drop (k + 1)) _ hy

/-- the references @main's host operations write, in order -/
abbrev hostRefs : List (Ref sig .tc) :=
  [main_v0, main_c, main_call0_v0, main_call0_v1, main_call0_v2, main_call0_v3, main_call0_v4, main_call0_v5, main_call0_v6, main_call0_v7,
   main_call0_v8, main_call0_c, main_call0_v9, main_call0_v10, main_call0_v11, main_call0_c_0, main_call0_v12, main_call0_v13, main_v1,
   main_v2, main_v3, main_v4, main_v5, main_v6, main_v7, main_v8, main_v9, main_v10, main_v11, main_v12, main_v13, main_v14, main_v15,
   main_v16, main_v17, main_v18, main_v19, main_v20, main_v21, main_v22, main_v23, main_v24, main_v25, main_v26, main_v27, main_v28,
   main_v29, main_v30, main_v31, main_v32, main_cst, main_v33]

/-- each host operation, in order, writes the reference listed at its place -/
theorem hostWrites : WritesL (List.flatten [hostOps0, hostOps0_1, hostOps0_2]) hostRefs := by
  repeat (first | exact trivial | refine ⟨rfl, ?_⟩)

/-! ## The argument record and the windows' blocks -/

/-- the 27 argument arrays of core c as launched, read through plain indices -/
noncomputable def argsK (c : Dev nD) : Cert.Spec.Args :=
  argsOfK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

abbrev B0 (c : Dev nD) (t : Fin cfg0.N) : Vec Ideal S4000x128 .f32 := iblk m c 0 t
abbrev B1 (c : Dev nD) (t : Fin cfg0.N) : Vec Ideal S4000x128 .f32 := iblk m c 1 t
abbrev B2 (c : Dev nD) (t : Fin cfg0.N) : Vec Ideal S1x256 .f32 := iblk m c 2 t
abbrev B3 (c : Dev nD) (t : Fin cfg0.N) : Vec Ideal S1x256 .f32 := iblk m c 3 t
abbrev B4 (c : Dev nD) (t : Fin cfg0.N) : Vec Ideal S1x256 .f32 := iblk m c 4 t
abbrev B5 (c : Dev nD) (t : Fin cfg0.N) : Vec Ideal S256x128 .f32 := iblk m c 5 t
abbrev B6 (c : Dev nD) (t : Fin cfg0.N) : Vec Ideal S1x128 .f32 := iblk m c 6 t
abbrev B7 (c : Dev nD) (t : Fin cfg0.N) : Vec Ideal S128x128 .f32 := iblk m c 7 t
abbrev B8 (c : Dev nD) (t : Fin cfg0.N) : Vec Ideal S1x128 .f32 := iblk m c 8 t
abbrev B9 (c : Dev nD) (t : Fin cfg0.N) : Vec Ideal S128x128 .f32 := iblk m c 9 t
abbrev B10 (c : Dev nD) (t : Fin cfg0.N) : Vec Ideal S1x128 .f32 := iblk m c 10 t
abbrev B11 (c : Dev nD) (t : Fin cfg0.N) : Vec Ideal S128x128 .f32 := iblk m c 11 t
abbrev B12 (c : Dev nD) (t : Fin cfg0.N) : Vec Ideal S1x128 .f32 := iblk m c 12 t
abbrev B13 (c : Dev nD) (t : Fin cfg0.N) : Vec Ideal S1x256 .f32 := iblk m c 13 t
abbrev B14 (c : Dev nD) (t : Fin cfg0.N) : Vec Ideal S1x256 .f32 := iblk m c 14 t
abbrev B15 (c : Dev nD) (t : Fin cfg0.N) : Vec Ideal S256x128 .f32 := iblk m c 15 t
abbrev B16 (c : Dev nD) (t : Fin cfg0.N) : Vec Ideal S1x128 .f32 := iblk m c 16 t
abbrev B17 (c : Dev nD) (t : Fin cfg0.N) : Vec Ideal S128x128 .f32 := iblk m c 17 t
abbrev B18 (c : Dev nD) (t : Fin cfg0.N) : Vec Ideal S1x128 .f32 := iblk m c 18 t
abbrev B19 (c : Dev nD) (t : Fin cfg0.N) : Vec Ideal S128x128 .f32 := iblk m c 19 t
abbrev B20 (c : Dev nD) (t : Fin cfg0.N) : Vec Ideal S1x128 .f32 := iblk m c 20 t
abbrev B21 (c : Dev nD) (t : Fin cfg0.N) : Vec Ideal S128x128 .f32 := iblk m c 21 t
abbrev B22 (c : Dev nD) (t : Fin cfg0.N) : Vec Ideal S1x128 .f32 := iblk m c 22 t
abbrev B23 (c : Dev nD) (t : Fin cfg0.N) : Vec Ideal S1x256 .f32 := iblk m c 23 t
abbrev B24 (c : Dev nD) (t : Fin cfg0.N) : Vec Ideal S1x256 .f32 := iblk m c 24 t
abbrev B25 (c : Dev nD) (t : Fin cfg0.N) : Vec Ideal S256x256 .f32 := iblk m c 25 t
abbrev B26 (c : Dev nD) (t : Fin cfg0.N) : Vec Ideal S1x256 .f32 := iblk m c 26 t

/-! ## A whole-array window reads its array at every point

The index map of each of these windows is zero at every grid point and the block has the array's own extents, so
the block read is the array. Stated over any valuation A of the core's buffers, then taken at the
buffers the pallas_call finds. -/

theorem hz2 (t : Fin cfg0.N) : (fun a => win0_2.index t a * main_arg2.ty.shape.size a) = fun _ => 0 :=
  funext fun a => match a with | ⟨0, _⟩ => rfl | ⟨1, _⟩ => rfl
theorem rdw2 (c : Dev nD) (A : (b : Ref sig .tc) → Buf (Elt Ideal) ((c : Thread nD τ).loc b)) (t : Fin cfg0.N) :
    (((cfg0.win 2).blk t).view.read (Elt Ideal) (A (Pipeline.arrRef spec0 2)) : Vec Ideal S1x256 .f32) = A main_arg2 :=
  Memref.read_access_unit_zero (Elt Ideal) main_arg2 (hz2 t) (fun a => by rw [congrFun (hz2 t) a]; simp) (A main_arg2)
theorem B2_whole (c : Dev nD) (t : Fin cfg0.N) : B2 m c t = V m c main_arg2 := rdw2 c (V m c) t

theorem hz3 (t : Fin cfg0.N) : (fun a => win0_3.index t a * main_v20.ty.shape.size a) = fun _ => 0 :=
  funext fun a => match a with | ⟨0, _⟩ => rfl | ⟨1, _⟩ => rfl
theorem rdw3 (c : Dev nD) (A : (b : Ref sig .tc) → Buf (Elt Ideal) ((c : Thread nD τ).loc b)) (t : Fin cfg0.N) :
    (((cfg0.win 3).blk t).view.read (Elt Ideal) (A (Pipeline.arrRef spec0 3)) : Vec Ideal S1x256 .f32) = A main_v20 :=
  Memref.read_access_unit_zero (Elt Ideal) main_v20 (hz3 t) (fun a => by rw [congrFun (hz3 t) a]; simp) (A main_v20)
theorem B3_whole (c : Dev nD) (t : Fin cfg0.N) : B3 m c t = V m c main_v20 := rdw3 c (V m c) t

theorem hz4 (t : Fin cfg0.N) : (fun a => win0_4.index t a * main_v21.ty.shape.size a) = fun _ => 0 :=
  funext fun a => match a with | ⟨0, _⟩ => rfl | ⟨1, _⟩ => rfl
theorem rdw4 (c : Dev nD) (A : (b : Ref sig .tc) → Buf (Elt Ideal) ((c : Thread nD τ).loc b)) (t : Fin cfg0.N) :
    (((cfg0.win 4).blk t).view.read (Elt Ideal) (A (Pipeline.arrRef spec0 4)) : Vec Ideal S1x256 .f32) = A main_v21 :=
  Memref.read_access_unit_zero (Elt Ideal) main_v21 (hz4 t) (fun a => by rw [congrFun (hz4 t) a]; simp) (A main_v21)
theorem B4_whole (c : Dev nD) (t : Fin cfg0.N) : B4 m c t = V m c main_v21 := rdw4 c (V m c) t

theorem hz5 (t : Fin cfg0.N) : (fun a => win0_5.index t a * main_arg5.ty.shape.size a) = fun _ => 0 :=
  funext fun a => match a with | ⟨0, _⟩ => rfl | ⟨1, _⟩ => rfl
theorem rdw5 (c : Dev nD) (A : (b : Ref sig .tc) → Buf (Elt Ideal) ((c : Thread nD τ).loc b)) (t : Fin cfg0.N) :
    (((cfg0.win 5).blk t).view.read (Elt Ideal) (A (Pipeline.arrRef spec0 5)) : Vec Ideal S256x128 .f32) = A main_arg5 :=
  Memref.read_access_unit_zero (Elt Ideal) main_arg5 (hz5 t) (fun a => by rw [congrFun (hz5 t) a]; simp) (A main_arg5)
theorem B5_whole (c : Dev nD) (t : Fin cfg0.N) : B5 m c t = V m c main_arg5 := rdw5 c (V m c) t

theorem hz6 (t : Fin cfg0.N) : (fun a => win0_6.index t a * main_v22.ty.shape.size a) = fun _ => 0 :=
  funext fun a => match a with | ⟨0, _⟩ => rfl | ⟨1, _⟩ => rfl
theorem rdw6 (c : Dev nD) (A : (b : Ref sig .tc) → Buf (Elt Ideal) ((c : Thread nD τ).loc b)) (t : Fin cfg0.N) :
    (((cfg0.win 6).blk t).view.read (Elt Ideal) (A (Pipeline.arrRef spec0 6)) : Vec Ideal S1x128 .f32) = A main_v22 :=
  Memref.read_access_unit_zero (Elt Ideal) main_v22 (hz6 t) (fun a => by rw [congrFun (hz6 t) a]; simp) (A main_v22)
theorem B6_whole (c : Dev nD) (t : Fin cfg0.N) : B6 m c t = V m c main_v22 := rdw6 c (V m c) t

theorem hz7 (t : Fin cfg0.N) : (fun a => win0_7.index t a * main_arg7.ty.shape.size a) = fun _ => 0 :=
  funext fun a => match a with | ⟨0, _⟩ => rfl | ⟨1, _⟩ => rfl
theorem rdw7 (c : Dev nD) (A : (b : Ref sig .tc) → Buf (Elt Ideal) ((c : Thread nD τ).loc b)) (t : Fin cfg0.N) :
    (((cfg0.win 7).blk t).view.read (Elt Ideal) (A (Pipeline.arrRef spec0 7)) : Vec Ideal S128x128 .f32) = A main_arg7 :=
  Memref.read_access_unit_zero (Elt Ideal) main_arg7 (hz7 t) (fun a => by rw [congrFun (hz7 t) a]; simp) (A main_arg7)
theorem B7_whole (c : Dev nD) (t : Fin cfg0.N) : B7 m c t = V m c main_arg7 := rdw7 c (V m c) t

theorem hz8 (t : Fin cfg0.N) : (fun a => win0_8.index t a * main_v23.ty.shape.size a) = fun _ => 0 :=
  funext fun a => match a with | ⟨0, _⟩ => rfl | ⟨1, _⟩ => rfl
theorem rdw8 (c : Dev nD) (A : (b : Ref sig .tc) → Buf (Elt Ideal) ((c : Thread nD τ).loc b)) (t : Fin cfg0.N) :
    (((cfg0.win 8).blk t).view.read (Elt Ideal) (A (Pipeline.arrRef spec0 8)) : Vec Ideal S1x128 .f32) = A main_v23 :=
  Memref.read_access_unit_zero (Elt Ideal) main_v23 (hz8 t) (fun a => by rw [congrFun (hz8 t) a]; simp) (A main_v23)
theorem B8_whole (c : Dev nD) (t : Fin cfg0.N) : B8 m c t = V m c main_v23 := rdw8 c (V m c) t

theorem hz9 (t : Fin cfg0.N) : (fun a => win0_9.index t a * main_arg9.ty.shape.size a) = fun _ => 0 :=
  funext fun a => match a with | ⟨0, _⟩ => rfl | ⟨1, _⟩ => rfl
theorem rdw9 (c : Dev nD) (A : (b : Ref sig .tc) → Buf (Elt Ideal) ((c : Thread nD τ).loc b)) (t : Fin cfg0.N) :
    (((cfg0.win 9).blk t).view.read (Elt Ideal) (A (Pipeline.arrRef spec0 9)) : Vec Ideal S128x128 .f32) = A main_arg9 :=
  Memref.read_access_unit_zero (Elt Ideal) main_arg9 (hz9 t) (fun a => by rw [congrFun (hz9 t) a]; simp) (A main_arg9)
theorem B9_whole (c : Dev nD) (t : Fin cfg0.N) : B9 m c t = V m c main_arg9 := rdw9 c (V m c) t

theorem hz10 (t : Fin cfg0.N) : (fun a => win0_10.index t a * main_v24.ty.shape.size a) = fun _ => 0 :=
  funext fun a => match a with | ⟨0, _⟩ => rfl | ⟨1, _⟩ => rfl
theorem rdw10 (c : Dev nD) (A : (b : Ref sig .tc) → Buf (Elt Ideal) ((c : Thread nD τ).loc b)) (t : Fin cfg0.N) :
    (((cfg0.win 10).blk t).view.read (Elt Ideal) (A (Pipeline.arrRef spec0 10)) : Vec Ideal S1x128 .f32) = A main_v24 :=
  Memref.read_access_unit_zero (Elt Ideal) main_v24 (hz10 t) (fun a => by rw [congrFun (hz10 t) a]; simp) (A main_v24)
theorem B10_whole (c : Dev nD) (t : Fin cfg0.N) : B10 m c t = V m c main_v24 := rdw10 c (V m c) t

theorem hz11 (t : Fin cfg0.N) : (fun a => win0_11.index t a * main_v11.ty.shape.size a) = fun _ => 0 :=
  funext fun a => match a with | ⟨0, _⟩ => rfl | ⟨1, _⟩ => rfl
theorem rdw11 (c : Dev nD) (A : (b : Ref sig .tc) → Buf (Elt Ideal) ((c : Thread nD τ).loc b)) (t : Fin cfg0.N) :
    (((cfg0.win 11).blk t).view.read (Elt Ideal) (A (Pipeline.arrRef spec0 11)) : Vec Ideal S128x128 .f32) = A main_v11 :=
  Memref.read_access_unit_zero (Elt Ideal) main_v11 (hz11 t) (fun a => by rw [congrFun (hz11 t) a]; simp) (A main_v11)
theorem B11_whole (c : Dev nD) (t : Fin cfg0.N) : B11 m c t = V m c main_v11 := rdw11 c (V m c) t

theorem hz12 (t : Fin cfg0.N) : (fun a => win0_12.index t a * main_v17.ty.shape.size a) = fun _ => 0 :=
  funext fun a => match a with | ⟨0, _⟩ => rfl | ⟨1, _⟩ => rfl
theorem rdw12 (c : Dev nD) (A : (b : Ref sig .tc) → Buf (Elt Ideal) ((c : Thread nD τ).loc b)) (t : Fin cfg0.N) :
    (((cfg0.win 12).blk t).view.read (Elt Ideal) (A (Pipeline.arrRef spec0 12)) : Vec Ideal S1x128 .f32) = A main_v17 :=
  Memref.read_access_unit_zero (Elt Ideal) main_v17 (hz12 t) (fun a => by rw [congrFun (hz12 t) a]; simp) (A main_v17)
theorem B12_whole (c : Dev nD) (t : Fin cfg0.N) : B12 m c t = V m c main_v17 := rdw12 c (V m c) t

theorem hz13 (t : Fin cfg0.N) : (fun a => win0_13.index t a * main_v25.ty.shape.size a) = fun _ => 0 :=
  funext fun a => match a with | ⟨0, _⟩ => rfl | ⟨1, _⟩ => rfl
theorem rdw13 (c : Dev nD) (A : (b : Ref sig .tc) → Buf (Elt Ideal) ((c : Thread nD τ).loc b)) (t : Fin cfg0.N) :
    (((cfg0.win 13).blk t).view.read (Elt Ideal) (A (Pipeline.arrRef spec0 13)) : Vec Ideal S1x256 .f32) = A main_v25 :=
  Memref.read_access_unit_zero (Elt Ideal) main_v25 (hz13 t) (fun a => by rw [congrFun (hz13 t) a]; simp) (A main_v25)
theorem B13_whole (c : Dev nD) (t : Fin cfg0.N) : B13 m c t = V m c main_v25 := rdw13 c (V m c) t

theorem hz14 (t : Fin cfg0.N) : (fun a => win0_14.index t a * main_v26.ty.shape.size a) = fun _ => 0 :=
  funext fun a => match a with | ⟨0, _⟩ => rfl | ⟨1, _⟩ => rfl
theorem rdw14 (c : Dev nD) (A : (b : Ref sig .tc) → Buf (Elt Ideal) ((c : Thread nD τ).loc b)) (t : Fin cfg0.N) :
    (((cfg0.win 14).blk t).view.read (Elt Ideal) (A (Pipeline.arrRef spec0 14)) : Vec Ideal S1x256 .f32) = A main_v26 :=
  Memref.read_access_unit_zero (Elt Ideal) main_v26 (hz14 t) (fun a => by rw [congrFun (hz14 t) a]; simp) (A main_v26)
theorem B14_whole (c : Dev nD) (t : Fin cfg0.N) : B14 m c t = V m c main_v26 := rdw14 c (V m c) t

theorem hz15 (t : Fin cfg0.N) : (fun a => win0_15.index t a * main_arg15.ty.shape.size a) = fun _ => 0 :=
  funext fun a => match a with | ⟨0, _⟩ => rfl | ⟨1, _⟩ => rfl
theorem rdw15 (c : Dev nD) (A : (b : Ref sig .tc) → Buf (Elt Ideal) ((c : Thread nD τ).loc b)) (t : Fin cfg0.N) :
    (((cfg0.win 15).blk t).view.read (Elt Ideal) (A (Pipeline.arrRef spec0 15)) : Vec Ideal S256x128 .f32) = A main_arg15 :=
  Memref.read_access_unit_zero (Elt Ideal) main_arg15 (hz15 t) (fun a => by rw [congrFun (hz15 t) a]; simp) (A main_arg15)
theorem B15_whole (c : Dev nD) (t : Fin cfg0.N) : B15 m c t = V m c main_arg15 := rdw15 c (V m c) t

theorem hz16 (t : Fin cfg0.N) : (fun a => win0_16.index t a * main_v27.ty.shape.size a) = fun _ => 0 :=
  funext fun a => match a with | ⟨0, _⟩ => rfl | ⟨1, _⟩ => rfl
theorem rdw16 (c : Dev nD) (A : (b : Ref sig .tc) → Buf (Elt Ideal) ((c : Thread nD τ).loc b)) (t : Fin cfg0.N) :
    (((cfg0.win 16).blk t).view.read (Elt Ideal) (A (Pipeline.arrRef spec0 16)) : Vec Ideal S1x128 .f32) = A main_v27 :=
  Memref.read_access_unit_zero (Elt Ideal) main_v27 (hz16 t) (fun a => by rw [congrFun (hz16 t) a]; simp) (A main_v27)
theorem B16_whole (c : Dev nD) (t : Fin cfg0.N) : B16 m c t = V m c main_v27 := rdw16 c (V m c) t

theorem hz17 (t : Fin cfg0.N) : (fun a => win0_17.index t a * main_arg17.ty.shape.size a) = fun _ => 0 :=
  funext fun a => match a with | ⟨0, _⟩ => rfl | ⟨1, _⟩ => rfl
theorem rdw17 (c : Dev nD) (A : (b : Ref sig .tc) → Buf (Elt Ideal) ((c : Thread nD τ).loc b)) (t : Fin cfg0.N) :
    (((cfg0.win 17).blk t).view.read (Elt Ideal) (A (Pipeline.arrRef spec0 17)) : Vec Ideal S128x128 .f32) = A main_arg17 :=
  Memref.read_access_unit_zero (Elt Ideal) main_arg17 (hz17 t) (fun a => by rw [congrFun (hz17 t) a]; simp) (A main_arg17)
theorem B17_whole (c : Dev nD) (t : Fin cfg0.N) : B17 m c t = V m c main_arg17 := rdw17 c (V m c) t

theorem hz18 (t : Fin cfg0.N) : (fun a => win0_18.index t a * main_v28.ty.shape.size a) = fun _ => 0 :=
  funext fun a => match a with | ⟨0, _⟩ => rfl | ⟨1, _⟩ => rfl
theorem rdw18 (c : Dev nD) (A : (b : Ref sig .tc) → Buf (Elt Ideal) ((c : Thread nD τ).loc b)) (t : Fin cfg0.N) :
    (((cfg0.win 18).blk t).view.read (Elt Ideal) (A (Pipeline.arrRef spec0 18)) : Vec Ideal S1x128 .f32) = A main_v28 :=
  Memref.read_access_unit_zero (Elt Ideal) main_v28 (hz18 t) (fun a => by rw [congrFun (hz18 t) a]; simp) (A main_v28)
theorem B18_whole (c : Dev nD) (t : Fin cfg0.N) : B18 m c t = V m c main_v28 := rdw18 c (V m c) t

theorem hz19 (t : Fin cfg0.N) : (fun a => win0_19.index t a * main_arg19.ty.shape.size a) = fun _ => 0 :=
  funext fun a => match a with | ⟨0, _⟩ => rfl | ⟨1, _⟩ => rfl
theorem rdw19 (c : Dev nD) (A : (b : Ref sig .tc) → Buf (Elt Ideal) ((c : Thread nD τ).loc b)) (t : Fin cfg0.N) :
    (((cfg0.win 19).blk t).view.read (Elt Ideal) (A (Pipeline.arrRef spec0 19)) : Vec Ideal S128x128 .f32) = A main_arg19 :=
  Memref.read_access_unit_zero (Elt Ideal) main_arg19 (hz19 t) (fun a => by rw [congrFun (hz19 t) a]; simp) (A main_arg19)
theorem B19_whole (c : Dev nD) (t : Fin cfg0.N) : B19 m c t = V m c main_arg19 := rdw19 c (V m c) t

theorem hz20 (t : Fin cfg0.N) : (fun a => win0_20.index t a * main_v29.ty.shape.size a) = fun _ => 0 :=
  funext fun a => match a with | ⟨0, _⟩ => rfl | ⟨1, _⟩ => rfl
theorem rdw20 (c : Dev nD) (A : (b : Ref sig .tc) → Buf (Elt Ideal) ((c : Thread nD τ).loc b)) (t : Fin cfg0.N) :
    (((cfg0.win 20).blk t).view.read (Elt Ideal) (A (Pipeline.arrRef spec0 20)) : Vec Ideal S1x128 .f32) = A main_v29 :=
  Memref.read_access_unit_zero (Elt Ideal) main_v29 (hz20 t) (fun a => by rw [congrFun (hz20 t) a]; simp) (A main_v29)
theorem B20_whole (c : Dev nD) (t : Fin cfg0.N) : B20 m c t = V m c main_v29 := rdw20 c (V m c) t

theorem hz21 (t : Fin cfg0.N) : (fun a => win0_21.index t a * main_v15.ty.shape.size a) = fun _ => 0 :=
  funext fun a => match a with | ⟨0, _⟩ => rfl | ⟨1, _⟩ => rfl
theorem rdw21 (c : Dev nD) (A : (b : Ref sig .tc) → Buf (Elt Ideal) ((c : Thread nD τ).loc b)) (t : Fin cfg0.N) :
    (((cfg0.win 21).blk t).view.read (Elt Ideal) (A (Pipeline.arrRef spec0 21)) : Vec Ideal S128x128 .f32) = A main_v15 :=
  Memref.read_access_unit_zero (Elt Ideal) main_v15 (hz21 t) (fun a => by rw [congrFun (hz21 t) a]; simp) (A main_v15)
theorem B21_whole (c : Dev nD) (t : Fin cfg0.N) : B21 m c t = V m c main_v15 := rdw21 c (V m c) t

theorem hz22 (t : Fin cfg0.N) : (fun a => win0_22.index t a * main_v19.ty.shape.size a) = fun _ => 0 :=
  funext fun a => match a with | ⟨0, _⟩ => rfl | ⟨1, _⟩ => rfl
theorem rdw22 (c : Dev nD) (A : (b : Ref sig .tc) → Buf (Elt Ideal) ((c : Thread nD τ).loc b)) (t : Fin cfg0.N) :
    (((cfg0.win 22).blk t).view.read (Elt Ideal) (A (Pipeline.arrRef spec0 22)) : Vec Ideal S1x128 .f32) = A main_v19 :=
  Memref.read_access_unit_zero (Elt Ideal) main_v19 (hz22 t) (fun a => by rw [congrFun (hz22 t) a]; simp) (A main_v19)
theorem B22_whole (c : Dev nD) (t : Fin cfg0.N) : B22 m c t = V m c main_v19 := rdw22 c (V m c) t

theorem hz23 (t : Fin cfg0.N) : (fun a => win0_23.index t a * main_v30.ty.shape.size a) = fun _ => 0 :=
  funext fun a => match a with | ⟨0, _⟩ => rfl | ⟨1, _⟩ => rfl
theorem rdw23 (c : Dev nD) (A : (b : Ref sig .tc) → Buf (Elt Ideal) ((c : Thread nD τ).loc b)) (t : Fin cfg0.N) :
    (((cfg0.win 23).blk t).view.read (Elt Ideal) (A (Pipeline.arrRef spec0 23)) : Vec Ideal S1x256 .f32) = A main_v30 :=
  Memref.read_access_unit_zero (Elt Ideal) main_v30 (hz23 t) (fun a => by rw [congrFun (hz23 t) a]; simp) (A main_v30)
theorem B23_whole (c : Dev nD) (t : Fin cfg0.N) : B23 m c t = V m c main_v30 := rdw23 c (V m c) t

theorem hz24 (t : Fin cfg0.N) : (fun a => win0_24.index t a * main_v31.ty.shape.size a) = fun _ => 0 :=
  funext fun a => match a with | ⟨0, _⟩ => rfl | ⟨1, _⟩ => rfl
theorem rdw24 (c : Dev nD) (A : (b : Ref sig .tc) → Buf (Elt Ideal) ((c : Thread nD τ).loc b)) (t : Fin cfg0.N) :
    (((cfg0.win 24).blk t).view.read (Elt Ideal) (A (Pipeline.arrRef spec0 24)) : Vec Ideal S1x256 .f32) = A main_v31 :=
  Memref.read_access_unit_zero (Elt Ideal) main_v31 (hz24 t) (fun a => by rw [congrFun (hz24 t) a]; simp) (A main_v31)
theorem B24_whole (c : Dev nD) (t : Fin cfg0.N) : B24 m c t = V m c main_v31 := rdw24 c (V m c) t

theorem hz25 (t : Fin cfg0.N) : (fun a => win0_25.index t a * main_arg25.ty.shape.size a) = fun _ => 0 :=
  funext fun a => match a with | ⟨0, _⟩ => rfl | ⟨1, _⟩ => rfl
theorem rdw25 (c : Dev nD) (A : (b : Ref sig .tc) → Buf (Elt Ideal) ((c : Thread nD τ).loc b)) (t : Fin cfg0.N) :
    (((cfg0.win 25).blk t).view.read (Elt Ideal) (A (Pipeline.arrRef spec0 25)) : Vec Ideal S256x256 .f32) = A main_arg25 :=
  Memref.read_access_unit_zero (Elt Ideal) main_arg25 (hz25 t) (fun a => by rw [congrFun (hz25 t) a]; simp) (A main_arg25)
theorem B25_whole (c : Dev nD) (t : Fin cfg0.N) : B25 m c t = V m c main_arg25 := rdw25 c (V m c) t

theorem hz26 (t : Fin cfg0.N) : (fun a => win0_26.index t a * main_v32.ty.shape.size a) = fun _ => 0 :=
  funext fun a => match a with | ⟨0, _⟩ => rfl | ⟨1, _⟩ => rfl
theorem rdw26 (c : Dev nD) (A : (b : Ref sig .tc) → Buf (Elt Ideal) ((c : Thread nD τ).loc b)) (t : Fin cfg0.N) :
    (((cfg0.win 26).blk t).view.read (Elt Ideal) (A (Pipeline.arrRef spec0 26)) : Vec Ideal S1x256 .f32) = A main_v32 :=
  Memref.read_access_unit_zero (Elt Ideal) main_v32 (hz26 t) (fun a => by rw [congrFun (hz26 t) a]; simp) (A main_v32)
theorem B26_whole (c : Dev nD) (t : Fin cfg0.N) : B26 m c t = V m c main_v32 := rdw26 c (V m c) t

/-! ## The two streamed windows: block t is rows 4000 t … 4000 t + 3999 -/

theorem idx0 : ∀ t : Fin cfg0.N, win0_0.index t (0 : Fin 2) = t.val ∧ win0_0.index t (1 : Fin 2) = 0 :=
  (by decide +kernel : ∀ t : Fin grid0.N, _)

theorem rd0 (c : Dev nD) (A : (b : Ref sig .tc) → Buf (Elt Ideal) ((c : Thread nD τ).loc b)) (t : Fin cfg0.N) (p : Fin 4000) (q : Fin 128)
    (h : 4000 * t.val + p.val < 100000) :
    (((cfg0.win 0).blk t).view.read (Elt Ideal) (A (Pipeline.arrRef spec0 0)) : Vec Ideal S4000x128 .f32) (ix2 p q)
      = (A main_arg0 : S100000x128.Idx → EReal) (ix2 ⟨4000 * t.val + p.val, h⟩ q) := by
  obtain ⟨e0, e1⟩ := idx0 t
  rw [View.read_apply]
  show (A main_arg0 : S100000x128.Idx → EReal) (((cfg0.win 0).blk t).view.emb (ix2 p q)) = _
  congr 1
  funext a
  apply Fin.ext
  match a with
  | ⟨0, _⟩ => show win0_0.index t 0 * 4000 + 1 * p.val = 4000 * t.val + p.val; rw [e0]; omega
  | ⟨1, _⟩ => show win0_0.index t 1 * 128 + 1 * q.val = q.val; rw [e1]; omega

theorem B0_eq (c : Dev nD) (t : Fin cfg0.N) : matOf (B0 m c t) = Cert.Spec.blockOf (argsK m c).xv (Fin.cast N_0 t) := by
  funext p q
  have ht : t.val < 25 := lt_of_lt_of_eq t.isLt N_0
  show B0 m c t (ix2 p q) = ((m ((c : Thread nD τ).loc main_arg0)) : S100000x128.Idx → EReal) (ix2 ⟨4000 * t.val + p.val, by omega⟩ q)
  refine (rd0 c (V m c) t p q (by omega)).trans ?_
  rw [V_main_arg0]

theorem idx1 : ∀ t : Fin cfg0.N, win0_1.index t (0 : Fin 2) = t.val ∧ win0_1.index t (1 : Fin 2) = 0 :=
  (by decide +kernel : ∀ t : Fin grid0.N, _)

theorem rd1 (c : Dev nD) (A : (b : Ref sig .tc) → Buf (Elt Ideal) ((c : Thread nD τ).loc b)) (t : Fin cfg0.N) (p : Fin 4000) (q : Fin 128)
    (h : 4000 * t.val + p.val < 100000) :
    (((cfg0.win 1).blk t).view.read (Elt Ideal) (A (Pipeline.arrRef spec0 1)) : Vec Ideal S4000x128 .f32) (ix2 p q)
      = (A main_arg1 : S100000x128.Idx → EReal) (ix2 ⟨4000 * t.val + p.val, h⟩ q) := by
  obtain ⟨e0, e1⟩ := idx1 t
  rw [View.read_apply]
  show (A main_arg1 : S100000x128.Idx → EReal) (((cfg0.win 1).blk t).view.emb (ix2 p q)) = _
  congr 1
  funext a
  apply Fin.ext
  match a with
  | ⟨0, _⟩ => show win0_1.index t 0 * 4000 + 1 * p.val = 4000 * t.val + p.val; rw [e0]; omega
  | ⟨1, _⟩ => show win0_1.index t 1 * 128 + 1 * q.val = q.val; rw [e1]; omega

theorem B1_eq (c : Dev nD) (t : Fin cfg0.N) : matOf (B1 m c t) = Cert.Spec.blockOf (argsK m c).xs (Fin.cast N_0 t) := by
  funext p q
  have ht : t.val < 25 := lt_of_lt_of_eq t.isLt N_0
  show B1 m c t (ix2 p q) = ((m ((c : Thread nD τ).loc main_arg1)) : S100000x128.Idx → EReal) (ix2 ⟨4000 * t.val + p.val, by omega⟩ q)
  refine (rd1 c (V m c) t p q (by omega)).trans ?_
  rw [V_main_arg1]

/-! ## What the host operations leave in the buffers the other windows stage -/

/-- `main_v20` is argument 3 as one row -/
theorem V_v20 (c : Dev nD) : (V m c main_v20 : S1x256.Idx → EReal) = shapeCast S1x256 ((m ((c : Thread nD τ).loc main_arg3)) : S256.Idx → EReal) shapeCasts_S256_S1x256 := by
  refine (after_at hostWrites _ 37 _ rfl (by decide)).trans ?_
  rw [StableHlo.reshape_result, after_keep (hostWrites.take 37) _ (by decide : main_arg3 ∉ hostRefs.take 37)]
  rfl

/-- `main_v21` is argument 4 as one row -/
theorem V_v21 (c : Dev nD) : (V m c main_v21 : S1x256.Idx → EReal) = shapeCast S1x256 ((m ((c : Thread nD τ).loc main_arg4)) : S256.Idx → EReal) shapeCasts_S256_S1x256 := by
  refine (after_at hostWrites _ 38 _ rfl (by decide)).trans ?_
  rw [StableHlo.reshape_result, after_keep (hostWrites.take 38) _ (by decide : main_arg4 ∉ hostRefs.take 38)]
  rfl

/-- `main_v22` is argument 6 as one row -/
theorem V_v22 (c : Dev nD) : (V m c main_v22 : S1x128.Idx → EReal) = shapeCast S1x128 ((m ((c : Thread nD τ).loc main_arg6)) : S128.Idx → EReal) shapeCasts_S128_S1x128 := by
  refine (after_at hostWrites _ 39 _ rfl (by decide)).trans ?_
  rw [StableHlo.reshape_result, after_keep (hostWrites.take 39) _ (by decide : main_arg6 ∉ hostRefs.take 39)]
  rfl

/-- `main_v23` is argument 8 as one row -/
theorem V_v23 (c : Dev nD) : (V m c main_v23 : S1x128.Idx → EReal) = shapeCast S1x128 ((m ((c : Thread nD τ).loc main_arg8)) : S128.Idx → EReal) shapeCasts_S128_S1x128 := by
  refine (after_at hostWrites _ 40 _ rfl (by decide)).trans ?_
  rw [StableHlo.reshape_result, after_keep (hostWrites.take 40) _ (by decide : main_arg8 ∉ hostRefs.take 40)]
  rfl

/-- `main_v24` is argument 10 as one row -/
theorem V_v24 (c : Dev nD) : (V m c main_v24 : S1x128.Idx → EReal) = shapeCast S1x128 ((m ((c : Thread nD τ).loc main_arg10)) : S128.Idx → EReal) shapeCasts_S128_S1x128 := by
  refine (after_at hostWrites _ 41 _ rfl (by decide)).trans ?_
  rw [StableHlo.reshape_result, after_keep (hostWrites.take 41) _ (by decide : main_arg10 ∉ hostRefs.take 41)]
  rfl

/-- `main_v25` is argument 13 as one row -/
theorem V_v25 (c : Dev nD) : (V m c main_v25 : S1x256.Idx → EReal) = shapeCast S1x256 ((m ((c : Thread nD τ).loc main_arg13)) : S256.Idx → EReal) shapeCasts_S256_S1x256 := by
  refine (after_at hostWrites _ 42 _ rfl (by decide)).trans ?_
  rw [StableHlo.reshape_result, after_keep (hostWrites.take 42) _ (by decide : main_arg13 ∉ hostRefs.take 42)]
  rfl

/-- `main_v26` is argument 14 as one row -/
theorem V_v26 (c : Dev nD) : (V m c main_v26 : S1x256.Idx → EReal) = shapeCast S1x256 ((m ((c : Thread nD τ).loc main_arg14)) : S256.Idx → EReal) shapeCasts_S256_S1x256 := by
  refine (after_at hostWrites _ 43 _ rfl (by decide)).trans ?_
  rw [StableHlo.reshape_result, after_keep (hostWrites.take 43) _ (by decide : main_arg14 ∉ hostRefs.take 43)]
  rfl

/-- `main_v27` is argument 16 as one row -/
theorem V_v27 (c : Dev nD) : (V m c main_v27 : S1x128.Idx → EReal) = shapeCast S1x128 ((m ((c : Thread nD τ).loc main_arg16)) : S128.Idx → EReal) shapeCasts_S128_S1x128 := by
  refine (after_at hostWrites _ 44 _ rfl (by decide)).trans ?_
  rw [StableHlo.reshape_result, after_keep (hostWrites.take 44) _ (by decide : main_arg16 ∉ hostRefs.take 44)]
  rfl

/-- `main_v28` is argument 18 as one row -/
theorem V_v28 (c : Dev nD) : (V m c main_v28 : S1x128.Idx → EReal) = shapeCast S1x128 ((m ((c : Thread nD τ).loc main_arg18)) : S128.Idx → EReal) shapeCasts_S128_S1x128 := by
  refine (after_at hostWrites _ 45 _ rfl (by decide)).trans ?_
  rw [StableHlo.reshape_result, after_keep (hostWrites.take 45) _ (by decide : main_arg18 ∉ hostRefs.take 45)]
  rfl

/-- `main_v29` is argument 20 as one row -/
theorem V_v29 (c : Dev nD) : (V m c main_v29 : S1x128.Idx → EReal) = shapeCast S1x128 ((m ((c : Thread nD τ).loc main_arg20)) : S128.Idx → EReal) shapeCasts_S128_S1x128 := by
  refine (after_at hostWrites _ 46 _ rfl (by decide)).trans ?_
  rw [StableHlo.reshape_result, after_keep (hostWrites.take 46) _ (by decide : main_arg20 ∉ hostRefs.take 46)]
  rfl

/-- `main_v30` is argument 23 as one row -/
theorem V_v30 (c : Dev nD) : (V m c main_v30 : S1x256.Idx → EReal) = shapeCast S1x256 ((m ((c : Thread nD τ).loc main_arg23)) : S256.Idx → EReal) shapeCasts_S256_S1x256 := by
  refine (after_at hostWrites _ 47 _ rfl (by decide)).trans ?_
  rw [StableHlo.reshape_result, after_keep (hostWrites.take 47) _ (by decide : main_arg23 ∉ hostRefs.take 47)]
  rfl

/-- `main_v31` is argument 24 as one row -/
theorem V_v31 (c : Dev nD) : (V m c main_v31 : S1x256.Idx → EReal) = shapeCast S1x256 ((m ((c : Thread nD τ).loc main_arg24)) : S256.Idx → EReal) shapeCasts_S256_S1x256 := by
  refine (after_at hostWrites _ 48 _ rfl (by decide)).trans ?_
  rw [StableHlo.reshape_result, after_keep (hostWrites.take 48) _ (by decide : main_arg24 ∉ hostRefs.take 48)]
  rfl

/-- `main_v32` is argument 26 as one row -/
theorem V_v32 (c : Dev nD) : (V m c main_v32 : S1x256.Idx → EReal) = shapeCast S1x256 ((m ((c : Thread nD τ).loc main_arg26)) : S256.Idx → EReal) shapeCasts_S256_S1x256 := by
  refine (after_at hostWrites _ 49 _ rfl (by decide)).trans ?_
  rw [StableHlo.reshape_result, after_keep (hostWrites.take 49) _ (by decide : main_arg26 ∉ hostRefs.take 49)]
  rfl

/-- `main_v17` is the sum of arguments 8 and 12 as one row -/
theorem V_v17 (c : Dev nD) : (V m c main_v17 : S1x128.Idx → EReal)
    = shapeCast S1x128 (addf (F := Ideal) (s := S128) (φ := .f32) (m ((c : Thread nD τ).loc main_arg8)) (m ((c : Thread nD τ).loc main_arg12))) shapeCasts_S128_S1x128 := by
  refine (after_at hostWrites _ 34 _ rfl (by decide)).trans ?_
  rw [StableHlo.reshape_result, after_at (hostWrites.take 34) _ 33 _ rfl (by decide), StableHlo.binary_result,
    after_keep ((hostWrites.take 34).take 33) _ (by decide : main_arg8 ∉ (hostRefs.take 34).take 33),
    after_keep ((hostWrites.take 34).take 33) _ (by decide : main_arg12 ∉ (hostRefs.take 34).take 33)]
  rfl

/-- `main_v19` is the sum of arguments 18 and 22 as one row -/
theorem V_v19 (c : Dev nD) : (V m c main_v19 : S1x128.Idx → EReal)
    = shapeCast S1x128 (addf (F := Ideal) (s := S128) (φ := .f32) (m ((c : Thread nD τ).loc main_arg18)) (m ((c : Thread nD τ).loc main_arg22))) shapeCasts_S128_S1x128 := by
  refine (after_at hostWrites _ 36 _ rfl (by decide)).trans ?_
  rw [StableHlo.reshape_result, after_at (hostWrites.take 36) _ 35 _ rfl (by decide), StableHlo.binary_result,
    after_keep ((hostWrites.take 36).take 35) _ (by decide : main_arg18 ∉ (hostRefs.take 36).take 35),
    after_keep ((hostWrites.take 36).take 35) _ (by decide : main_arg22 ∉ (hostRefs.take 36).take 35)]
  rfl

/-! ## Each window's block is its argument of the specification -/

theorem B2_eq (c : Dev nD) (t : Fin cfg0.N) : rowOf (B2 m c t) = (argsK m c).g := by
  rw [B2_whole, V_main_arg2]; rfl

theorem B3_eq (c : Dev nD) (t : Fin cfg0.N) : rowOf (B3 m c t) = (argsK m c).ln_g2v_s := by
  funext k
  show B3 m c t (ix2 0 k) = _
  rw [B3_whole, V_v20]
  exact shapeCast_a_1a_apply _ _ 0 k

theorem B4_eq (c : Dev nD) (t : Fin cfg0.N) : rowOf (B4 m c t) = (argsK m c).ln_g2v_b := by
  funext k
  show B4 m c t (ix2 0 k) = _
  rw [B4_whole, V_v21]
  exact shapeCast_a_1a_apply _ _ 0 k

theorem B5_eq (c : Dev nD) (t : Fin cfg0.N) : matOf (B5 m c t) = (argsK m c).W_g2v := by
  rw [B5_whole, V_main_arg5]; rfl

theorem B6_eq (c : Dev nD) (t : Fin cfg0.N) : rowOf (B6 m c t) = (argsK m c).b_g2v := by
  funext k
  show B6 m c t (ix2 0 k) = _
  rw [B6_whole, V_v22]
  exact shapeCast_a_1a_apply _ _ 0 k

theorem B7_eq (c : Dev nD) (t : Fin cfg0.N) : matOf (B7 m c t) = (argsK m c).Wl_v := by
  rw [B7_whole, V_main_arg7]; rfl

theorem B8_eq (c : Dev nD) (t : Fin cfg0.N) : rowOf (B8 m c t) = (argsK m c).bl_v := by
  funext k
  show B8 m c t (ix2 0 k) = _
  rw [B8_whole, V_v23]
  exact shapeCast_a_1a_apply _ _ 0 k

theorem B9_eq (c : Dev nD) (t : Fin cfg0.N) : matOf (B9 m c t) = (argsK m c).Wr_v := by
  rw [B9_whole, V_main_arg9]; rfl

theorem B10_eq (c : Dev nD) (t : Fin cfg0.N) : rowOf (B10 m c t) = (argsK m c).br_v := by
  funext k
  show B10 m c t (ix2 0 k) = _
  rw [B10_whole, V_v24]
  exact shapeCast_a_1a_apply _ _ 0 k

theorem B12_eq (c : Dev nD) (t : Fin cfg0.N) : rowOf (B12 m c t) = fun k => (argsK m c).bl_v k + (argsK m c).bias_v k := by
  funext k
  show B12 m c t (ix2 0 k) = _
  rw [B12_whole, V_v17]
  exact shapeCast_a_1a_apply _ _ 0 k

theorem B13_eq (c : Dev nD) (t : Fin cfg0.N) : rowOf (B13 m c t) = (argsK m c).ln_g2s_s := by
  funext k
  show B13 m c t (ix2 0 k) = _
  rw [B13_whole, V_v25]
  exact shapeCast_a_1a_apply _ _ 0 k

theorem B14_eq (c : Dev nD) (t : Fin cfg0.N) : rowOf (B14 m c t) = (argsK m c).ln_g2s_b := by
  funext k
  show B14 m c t (ix2 0 k) = _
  rw [B14_whole, V_v26]
  exact shapeCast_a_1a_apply _ _ 0 k

theorem B15_eq (c : Dev nD) (t : Fin cfg0.N) : matOf (B15 m c t) = (argsK m c).W_g2s := by
  rw [B15_whole, V_main_arg15]; rfl

theorem B16_eq (c : Dev nD) (t : Fin cfg0.N) : rowOf (B16 m c t) = (argsK m c).b_g2s := by
  funext k
  show B16 m c t (ix2 0 k) = _
  rw [B16_whole, V_v27]
  exact shapeCast_a_1a_apply _ _ 0 k

theorem B17_eq (c : Dev nD) (t : Fin cfg0.N) : matOf (B17 m c t) = (argsK m c).Wl_s := by
  rw [B17_whole, V_main_arg17]; rfl

theorem B18_eq (c : Dev nD) (t : Fin cfg0.N) : rowOf (B18 m c t) = (argsK m c).bl_s := by
  funext k
  show B18 m c t (ix2 0 k) = _
  rw [B18_whole, V_v28]
  exact shapeCast_a_1a_apply _ _ 0 k

theorem B19_eq (c : Dev nD) (t : Fin cfg0.N) : matOf (B19 m c t) = (argsK m c).Wr_s := by
  rw [B19_whole, V_main_arg19]; rfl

theorem B20_eq (c : Dev nD) (t : Fin cfg0.N) : rowOf (B20 m c t) = (argsK m c).br_s := by
  funext k
  show B20 m c t (ix2 0 k) = _
  rw [B20_whole, V_v29]
  exact shapeCast_a_1a_apply _ _ 0 k

theorem B22_eq (c : Dev nD) (t : Fin cfg0.N) : rowOf (B22 m c t) = fun k => (argsK m c).bl_s k + (argsK m c).bias_s k := by
  funext k
  show B22 m c t (ix2 0 k) = _
  rw [B22_whole, V_v19]
  exact shapeCast_a_1a_apply _ _ 0 k

theorem B23_eq (c : Dev nD) (t : Fin cfg0.N) : rowOf (B23 m c t) = (argsK m c).ln_pre_s := by
  funext k
  show B23 m c t (ix2 0 k) = _
  rw [B23_whole, V_v30]
  exact shapeCast_a_1a_apply _ _ 0 k

theorem B24_eq (c : Dev nD) (t : Fin cfg0.N) : rowOf (B24 m c t) = (argsK m c).ln_pre_b := by
  funext k
  show B24 m c t (ix2 0 k) = _
  rw [B24_whole, V_v31]
  exact shapeCast_a_1a_apply _ _ 0 k

theorem B25_eq (c : Dev nD) (t : Fin cfg0.N) : matOf (B25 m c t) = (argsK m c).W_mlp := by
  rw [B25_whole, V_main_arg25]; rfl

theorem B26_eq (c : Dev nD) (t : Fin cfg0.N) : rowOf (B26 m c t) = (argsK m c).b_mlp := by
  funext k
  show B26 m c t (ix2 0 k) = _
  rw [B26_whole, V_v32]
  exact shapeCast_a_1a_apply _ _ 0 k

/-! ## The two logit matrices -/

theorem B11_eq (c : Dev nD) (t : Fin cfg0.N) : matOf (B11 m c t) = Cert.Spec.aeOf (argsK m c).att_v := by
  rw [B11_whole]; exact ae_v m c

theorem B21_eq (c : Dev nD) (t : Fin cfg0.N) : matOf (B21 m c t) = Cert.Spec.aeOf (argsK m c).att_s := by
  rw [B21_whole]; exact ae_s m c

end Cert.KernelIdeal.Hand

end
-- ==== Proof.KPoint.lean ====
/-
  What the eight carried vectors hold after each grid point, as equations between the frame's per-point contents and the
  body's pure functions: after the first point the offsets just computed and the first block folded into the reset
  state; after every later point the next block folded into what the point before left, the offsets unchanged; and the
  output row the last point stores, from the final state.
-/
import proofs.«146274_g33088428049086_cont_sun_c4_530_10_alg».proof.Proof.KPieces
import proofs.«146274_g33088428049086_cont_sun_c4_530_10_alg».proof.Proof.KHost

set_option maxRecDepth 16384

noncomputable section

namespace Cert.KernelIdeal.Hand

open Cert.KernelIdeal Cert.KernelIdeal.Gen Cert.KernelIdeal.GenP Idealize.ShloMosaic Idealize.ShloMosaic.TcCoe Idealize.SL.Sem

variable (m : (ℓ : Loc nD τ sig) → Buf (Elt Ideal) ℓ)

/-- view stream, running maximum, after point `n` -/
abbrev sMV (c : Dev nD) (n : ℕ) (hn : n < cfg0.N) : Vec Ideal S1x128 .f32 := (outsAt0 m c n hn).2.1
/-- view stream, normaliser, after point `n` -/
abbrev sSV (c : Dev nD) (n : ℕ) (hn : n < cfg0.N) : Vec Ideal S1x128 .f32 := (outsAt0 m c n hn).2.2.1
/-- view stream, weighted feature sum, after point `n` -/
abbrev sWV (c : Dev nD) (n : ℕ) (hn : n < cfg0.N) : Vec Ideal S1x128 .f32 := (outsAt0 m c n hn).2.2.2.1
/-- view stream, attention-input offset, after point `n` -/
abbrev sXV (c : Dev nD) (n : ℕ) (hn : n < cfg0.N) : Vec Ideal S1x128 .f32 := (outsAt0 m c n hn).2.2.2.2.1
/-- scenepoint stream, running maximum, after point `n` -/
abbrev sMS (c : Dev nD) (n : ℕ) (hn : n < cfg0.N) : Vec Ideal S1x128 .f32 := (outsAt0 m c n hn).2.2.2.2.2.1
/-- scenepoint stream, normaliser, after point `n` -/
abbrev sSS (c : Dev nD) (n : ℕ) (hn : n < cfg0.N) : Vec Ideal S1x128 .f32 := (outsAt0 m c n hn).2.2.2.2.2.2.1
/-- scenepoint stream, weighted feature sum, after point `n` -/
abbrev sWS (c : Dev nD) (n : ℕ) (hn : n < cfg0.N) : Vec Ideal S1x128 .f32 := (outsAt0 m c n hn).2.2.2.2.2.2.2.1
/-- scenepoint stream, attention-input offset, after point `n` -/
abbrev sXS (c : Dev nD) (n : ℕ) (hn : n < cfg0.N) : Vec Ideal S1x128 .f32 := (outsAt0 m c n hn).2.2.2.2.2.2.2.2

/-! ## After the first point -/

theorem first_sMV (c : Dev nD) (h : 0 < cfg0.N) :
    sMV m c 0 h = stepMV (B0 m c (⟨0, h⟩ : Fin cfg0.N)) (B7 m c (⟨0, h⟩ : Fin cfg0.N)) (B11 m c (⟨0, h⟩ : Fin cfg0.N)) (initXrV (B2 m c (⟨0, h⟩ : Fin cfg0.N)) (B3 m c (⟨0, h⟩ : Fin cfg0.N)) (B4 m c (⟨0, h⟩ : Fin cfg0.N)) (B5 m c (⟨0, h⟩ : Fin cfg0.N)) (B6 m c (⟨0, h⟩ : Fin cfg0.N)) (B8 m c (⟨0, h⟩ : Fin cfg0.N)) (B9 m c (⟨0, h⟩ : Fin cfg0.N)) (B10 m c (⟨0, h⟩ : Fin cfg0.N))) (initMV (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.1 = _
  rw [outsAt0_A m c (⟨0, h⟩ : Fin cfg0.N) h0 h1]; dsimp only
  exact pieceA0 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sSV (c : Dev nD) (h : 0 < cfg0.N) :
    sSV m c 0 h = stepSV (B0 m c (⟨0, h⟩ : Fin cfg0.N)) (B7 m c (⟨0, h⟩ : Fin cfg0.N)) (B11 m c (⟨0, h⟩ : Fin cfg0.N)) (initXrV (B2 m c (⟨0, h⟩ : Fin cfg0.N)) (B3 m c (⟨0, h⟩ : Fin cfg0.N)) (B4 m c (⟨0, h⟩ : Fin cfg0.N)) (B5 m c (⟨0, h⟩ : Fin cfg0.N)) (B6 m c (⟨0, h⟩ : Fin cfg0.N)) (B8 m c (⟨0, h⟩ : Fin cfg0.N)) (B9 m c (⟨0, h⟩ : Fin cfg0.N)) (B10 m c (⟨0, h⟩ : Fin cfg0.N))) (initMV (F := Ideal)) (initSV (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.1 = _
  rw [outsAt0_A m c (⟨0, h⟩ : Fin cfg0.N) h0 h1]; dsimp only
  exact pieceA1 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sWV (c : Dev nD) (h : 0 < cfg0.N) :
    sWV m c 0 h = stepWV (B0 m c (⟨0, h⟩ : Fin cfg0.N)) (B7 m c (⟨0, h⟩ : Fin cfg0.N)) (B11 m c (⟨0, h⟩ : Fin cfg0.N)) (initXrV (B2 m c (⟨0, h⟩ : Fin cfg0.N)) (B3 m c (⟨0, h⟩ : Fin cfg0.N)) (B4 m c (⟨0, h⟩ : Fin cfg0.N)) (B5 m c (⟨0, h⟩ : Fin cfg0.N)) (B6 m c (⟨0, h⟩ : Fin cfg0.N)) (B8 m c (⟨0, h⟩ : Fin cfg0.N)) (B9 m c (⟨0, h⟩ : Fin cfg0.N)) (B10 m c (⟨0, h⟩ : Fin cfg0.N))) (initMV (F := Ideal)) (initWV (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.1 = _
  rw [outsAt0_A m c (⟨0, h⟩ : Fin cfg0.N) h0 h1]; dsimp only
  exact pieceA2 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sXV (c : Dev nD) (h : 0 < cfg0.N) :
    sXV m c 0 h = initXrV (B2 m c (⟨0, h⟩ : Fin cfg0.N)) (B3 m c (⟨0, h⟩ : Fin cfg0.N)) (B4 m c (⟨0, h⟩ : Fin cfg0.N)) (B5 m c (⟨0, h⟩ : Fin cfg0.N)) (B6 m c (⟨0, h⟩ : Fin cfg0.N)) (B8 m c (⟨0, h⟩ : Fin cfg0.N)) (B9 m c (⟨0, h⟩ : Fin cfg0.N)) (B10 m c (⟨0, h⟩ : Fin cfg0.N)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.2.1 = _
  rw [outsAt0_A m c (⟨0, h⟩ : Fin cfg0.N) h0 h1]; dsimp only
  exact pieceA3 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sMS (c : Dev nD) (h : 0 < cfg0.N) :
    sMS m c 0 h = stepMS (B1 m c (⟨0, h⟩ : Fin cfg0.N)) (B17 m c (⟨0, h⟩ : Fin cfg0.N)) (B21 m c (⟨0, h⟩ : Fin cfg0.N)) (initXrS (B2 m c (⟨0, h⟩ : Fin cfg0.N)) (B13 m c (⟨0, h⟩ : Fin cfg0.N)) (B14 m c (⟨0, h⟩ : Fin cfg0.N)) (B15 m c (⟨0, h⟩ : Fin cfg0.N)) (B16 m c (⟨0, h⟩ : Fin cfg0.N)) (B18 m c (⟨0, h⟩ : Fin cfg0.N)) (B19 m c (⟨0, h⟩ : Fin cfg0.N)) (B20 m c (⟨0, h⟩ : Fin cfg0.N))) (initMS (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.2.2.1 = _
  rw [outsAt0_A m c (⟨0, h⟩ : Fin cfg0.N) h0 h1]; dsimp only
  exact pieceA4 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sSS (c : Dev nD) (h : 0 < cfg0.N) :
    sSS m c 0 h = stepSS (B1 m c (⟨0, h⟩ : Fin cfg0.N)) (B17 m c (⟨0, h⟩ : Fin cfg0.N)) (B21 m c (⟨0, h⟩ : Fin cfg0.N)) (initXrS (B2 m c (⟨0, h⟩ : Fin cfg0.N)) (B13 m c (⟨0, h⟩ : Fin cfg0.N)) (B14 m c (⟨0, h⟩ : Fin cfg0.N)) (B15 m c (⟨0, h⟩ : Fin cfg0.N)) (B16 m c (⟨0, h⟩ : Fin cfg0.N)) (B18 m c (⟨0, h⟩ : Fin cfg0.N)) (B19 m c (⟨0, h⟩ : Fin cfg0.N)) (B20 m c (⟨0, h⟩ : Fin cfg0.N))) (initMS (F := Ideal)) (initSS (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.2.2.2.1 = _
  rw [outsAt0_A m c (⟨0, h⟩ : Fin cfg0.N) h0 h1]; dsimp only
  exact pieceA5 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sWS (c : Dev nD) (h : 0 < cfg0.N) :
    sWS m c 0 h = stepWS (B1 m c (⟨0, h⟩ : Fin cfg0.N)) (B17 m c (⟨0, h⟩ : Fin cfg0.N)) (B21 m c (⟨0, h⟩ : Fin cfg0.N)) (initXrS (B2 m c (⟨0, h⟩ : Fin cfg0.N)) (B13 m c (⟨0, h⟩ : Fin cfg0.N)) (B14 m c (⟨0, h⟩ : Fin cfg0.N)) (B15 m c (⟨0, h⟩ : Fin cfg0.N)) (B16 m c (⟨0, h⟩ : Fin cfg0.N)) (B18 m c (⟨0, h⟩ : Fin cfg0.N)) (B19 m c (⟨0, h⟩ : Fin cfg0.N)) (B20 m c (⟨0, h⟩ : Fin cfg0.N))) (initMS (F := Ideal)) (initWS (F := Ideal)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.2.2.2.2.1 = _
  rw [outsAt0_A m c (⟨0, h⟩ : Fin cfg0.N) h0 h1]; dsimp only
  exact pieceA6 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

theorem first_sXS (c : Dev nD) (h : 0 < cfg0.N) :
    sXS m c 0 h = initXrS (B2 m c (⟨0, h⟩ : Fin cfg0.N)) (B13 m c (⟨0, h⟩ : Fin cfg0.N)) (B14 m c (⟨0, h⟩ : Fin cfg0.N)) (B15 m c (⟨0, h⟩ : Fin cfg0.N)) (B16 m c (⟨0, h⟩ : Fin cfg0.N)) (B18 m c (⟨0, h⟩ : Fin cfg0.N)) (B19 m c (⟨0, h⟩ : Fin cfg0.N)) (B20 m c (⟨0, h⟩ : Fin cfg0.N)) := by
  have h0 : (⟨0, h⟩ : Fin cfg0.N).val % 25 = 0 := rfl
  have h1 : ¬(⟨0, h⟩ : Fin cfg0.N).val % 25 = 24 := by show ¬(0 : ℕ) % 25 = 24; decide
  show (outsAt0 m c (⟨0, h⟩ : Fin cfg0.N).val (⟨0, h⟩ : Fin cfg0.N).isLt).2.2.2.2.2.2.2.2 = _
  rw [outsAt0_A m c (⟨0, h⟩ : Fin cfg0.N) h0 h1]; dsimp only
  exact pieceA7 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) (ms0_24 (⟨0, h⟩ : Fin cfg0.N)) (hs0_24 (⟨0, h⟩ : Fin cfg0.N)) (ms0_25 (⟨0, h⟩ : Fin cfg0.N)) (hs0_25 (⟨0, h⟩ : Fin cfg0.N)) (ms0_26 (⟨0, h⟩ : Fin cfg0.N)) (hs0_26 (⟨0, h⟩ : Fin cfg0.N)) (ms0_27 (⟨0, h⟩ : Fin cfg0.N)) (hs0_27 (⟨0, h⟩ : Fin cfg0.N)) (ms0_28 (⟨0, h⟩ : Fin cfg0.N)) (hs0_28 (⟨0, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)) (iblk m c 21 (⟨0, h⟩ : Fin cfg0.N)) (iblk m c 22 (⟨0, h⟩ : Fin cfg0.N)) (iblk m c 23 (⟨0, h⟩ : Fin cfg0.N)) (iblk m c 24 (⟨0, h⟩ : Fin cfg0.N)) (iblk m c 25 (⟨0, h⟩ : Fin cfg0.N)) (iblk m c 26 (⟨0, h⟩ : Fin cfg0.N)) (iblk m c 27 (⟨0, h⟩ : Fin cfg0.N)) ((hcond0_0 (⟨0, h⟩ : Fin cfg0.N)).mpr h0) (fun hh => h1 ((hcond0_1 (⟨0, h⟩ : Fin cfg0.N)).mp hh))

/-! ## After a later point -/

theorem next_sMV (c : Dev nD) (n : ℕ) (h : n + 1 < cfg0.N) :
    sMV m c (n + 1) h = stepMV (B0 m c (⟨n + 1, h⟩ : Fin cfg0.N)) (B7 m c (⟨n + 1, h⟩ : Fin cfg0.N)) (B11 m c (⟨n + 1, h⟩ : Fin cfg0.N)) (sXV m c n (Nat.lt_of_succ_lt h)) (sMV m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.1 = _
  by_cases h1 : (⟨n + 1, h⟩ : Fin cfg0.N).val % 25 = 24
  · rw [outsAt0_C m c (⟨n + 1, h⟩ : Fin cfg0.N) h0 h1]; dsimp only
    exact pieceC0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sSV (c : Dev nD) (n : ℕ) (h : n + 1 < cfg0.N) :
    sSV m c (n + 1) h = stepSV (B0 m c (⟨n + 1, h⟩ : Fin cfg0.N)) (B7 m c (⟨n + 1, h⟩ : Fin cfg0.N)) (B11 m c (⟨n + 1, h⟩ : Fin cfg0.N)) (sXV m c n (Nat.lt_of_succ_lt h)) (sMV m c n (Nat.lt_of_succ_lt h)) (sSV m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.1 = _
  by_cases h1 : (⟨n + 1, h⟩ : Fin cfg0.N).val % 25 = 24
  · rw [outsAt0_C m c (⟨n + 1, h⟩ : Fin cfg0.N) h0 h1]; dsimp only
    exact pieceC1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sWV (c : Dev nD) (n : ℕ) (h : n + 1 < cfg0.N) :
    sWV m c (n + 1) h = stepWV (B0 m c (⟨n + 1, h⟩ : Fin cfg0.N)) (B7 m c (⟨n + 1, h⟩ : Fin cfg0.N)) (B11 m c (⟨n + 1, h⟩ : Fin cfg0.N)) (sXV m c n (Nat.lt_of_succ_lt h)) (sMV m c n (Nat.lt_of_succ_lt h)) (sWV m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.1 = _
  by_cases h1 : (⟨n + 1, h⟩ : Fin cfg0.N).val % 25 = 24
  · rw [outsAt0_C m c (⟨n + 1, h⟩ : Fin cfg0.N) h0 h1]; dsimp only
    exact pieceC2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sXV (c : Dev nD) (n : ℕ) (h : n + 1 < cfg0.N) :
    sXV m c (n + 1) h = sXV m c n (Nat.lt_of_succ_lt h) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.2.1 = _
  by_cases h1 : (⟨n + 1, h⟩ : Fin cfg0.N).val % 25 = 24
  · rw [outsAt0_C m c (⟨n + 1, h⟩ : Fin cfg0.N) h0 h1]; dsimp only
    exact pieceC3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sMS (c : Dev nD) (n : ℕ) (h : n + 1 < cfg0.N) :
    sMS m c (n + 1) h = stepMS (B1 m c (⟨n + 1, h⟩ : Fin cfg0.N)) (B17 m c (⟨n + 1, h⟩ : Fin cfg0.N)) (B21 m c (⟨n + 1, h⟩ : Fin cfg0.N)) (sXS m c n (Nat.lt_of_succ_lt h)) (sMS m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.2.2.1 = _
  by_cases h1 : (⟨n + 1, h⟩ : Fin cfg0.N).val % 25 = 24
  · rw [outsAt0_C m c (⟨n + 1, h⟩ : Fin cfg0.N) h0 h1]; dsimp only
    exact pieceC4 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB4 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sSS (c : Dev nD) (n : ℕ) (h : n + 1 < cfg0.N) :
    sSS m c (n + 1) h = stepSS (B1 m c (⟨n + 1, h⟩ : Fin cfg0.N)) (B17 m c (⟨n + 1, h⟩ : Fin cfg0.N)) (B21 m c (⟨n + 1, h⟩ : Fin cfg0.N)) (sXS m c n (Nat.lt_of_succ_lt h)) (sMS m c n (Nat.lt_of_succ_lt h)) (sSS m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.2.2.2.1 = _
  by_cases h1 : (⟨n + 1, h⟩ : Fin cfg0.N).val % 25 = 24
  · rw [outsAt0_C m c (⟨n + 1, h⟩ : Fin cfg0.N) h0 h1]; dsimp only
    exact pieceC5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sWS (c : Dev nD) (n : ℕ) (h : n + 1 < cfg0.N) :
    sWS m c (n + 1) h = stepWS (B1 m c (⟨n + 1, h⟩ : Fin cfg0.N)) (B17 m c (⟨n + 1, h⟩ : Fin cfg0.N)) (B21 m c (⟨n + 1, h⟩ : Fin cfg0.N)) (sXS m c n (Nat.lt_of_succ_lt h)) (sMS m c n (Nat.lt_of_succ_lt h)) (sWS m c n (Nat.lt_of_succ_lt h)) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.2.2.2.2.1 = _
  by_cases h1 : (⟨n + 1, h⟩ : Fin cfg0.N).val % 25 = 24
  · rw [outsAt0_C m c (⟨n + 1, h⟩ : Fin cfg0.N) h0 h1]; dsimp only
    exact pieceC6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

theorem next_sXS (c : Dev nD) (n : ℕ) (h : n + 1 < cfg0.N) :
    sXS m c (n + 1) h = sXS m c n (Nat.lt_of_succ_lt h) := by
  have hN : n + 1 < 25 := lt_of_lt_of_eq h N_0
  have h0 : ¬(⟨n + 1, h⟩ : Fin cfg0.N).val % 25 = 0 := by show ¬(n + 1) % 25 = 0; omega
  show (outsAt0 m c (⟨n + 1, h⟩ : Fin cfg0.N).val (⟨n + 1, h⟩ : Fin cfg0.N).isLt).2.2.2.2.2.2.2.2 = _
  by_cases h1 : (⟨n + 1, h⟩ : Fin cfg0.N).val % 25 = 24
  · rw [outsAt0_C m c (⟨n + 1, h⟩ : Fin cfg0.N) h0 h1]; dsimp only
    exact pieceC7 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)
  · rw [outsAt0_B m c (⟨n + 1, h⟩ : Fin cfg0.N) h0 h1]; dsimp only
    exact pieceB7 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) (fun hh => h1 ((hcond0_1 (⟨n + 1, h⟩ : Fin cfg0.N)).mp hh))

/-! ## The last point's output row -/

/-- the output row a last point stores, from what the point before left -/
theorem last_out_aux (c : Dev nD) (n : ℕ) (h : n + 1 < cfg0.N) (h24 : (n + 1) % 25 = 24) :
    (outsAt0 m c (n + 1) h).1
      = finOut (stepWV (B0 m c (⟨n + 1, h⟩ : Fin cfg0.N)) (B7 m c (⟨n + 1, h⟩ : Fin cfg0.N)) (B11 m c (⟨n + 1, h⟩ : Fin cfg0.N)) (sXV m c n (Nat.lt_of_succ_lt h)) (sMV m c n (Nat.lt_of_succ_lt h)) (sWV m c n (Nat.lt_of_succ_lt h))) (stepSV (B0 m c (⟨n + 1, h⟩ : Fin cfg0.N)) (B7 m c (⟨n + 1, h⟩ : Fin cfg0.N)) (B11 m c (⟨n + 1, h⟩ : Fin cfg0.N)) (sXV m c n (Nat.lt_of_succ_lt h)) (sMV m c n (Nat.lt_of_succ_lt h)) (sSV m c n (Nat.lt_of_succ_lt h))) (B12 m c (⟨n + 1, h⟩ : Fin cfg0.N)) (stepWS (B1 m c (⟨n + 1, h⟩ : Fin cfg0.N)) (B17 m c (⟨n + 1, h⟩ : Fin cfg0.N)) (B21 m c (⟨n + 1, h⟩ : Fin cfg0.N)) (sXS m c n (Nat.lt_of_succ_lt h)) (sMS m c n (Nat.lt_of_succ_lt h)) (sWS m c n (Nat.lt_of_succ_lt h))) (stepSS (B1 m c (⟨n + 1, h⟩ : Fin cfg0.N)) (B17 m c (⟨n + 1, h⟩ : Fin cfg0.N)) (B21 m c (⟨n + 1, h⟩ : Fin cfg0.N)) (sXS m c n (Nat.lt_of_succ_lt h)) (sMS m c n (Nat.lt_of_succ_lt h)) (sSS m c n (Nat.lt_of_succ_lt h))) (B22 m c (⟨n + 1, h⟩ : Fin cfg0.N))
          (B2 m c (⟨n + 1, h⟩ : Fin cfg0.N)) (B23 m c (⟨n + 1, h⟩ : Fin cfg0.N)) (B24 m c (⟨n + 1, h⟩ : Fin cfg0.N)) (B25 m c (⟨n + 1, h⟩ : Fin cfg0.N)) (B26 m c (⟨n + 1, h⟩ : Fin cfg0.N)) := by
  have h0 : ¬(⟨n + 1, h⟩ : Fin cfg0.N).val % 25 = 0 := by show ¬(n + 1) % 25 = 0; omega
  have h1 : (⟨n + 1, h⟩ : Fin cfg0.N).val % 25 = 24 := h24
  show (outsAt0 m c (⟨n + 1, h⟩ : Fin cfg0.N).val (⟨n + 1, h⟩ : Fin cfg0.N).isLt).1 = _
  rw [outsAt0_C m c (⟨n + 1, h⟩ : Fin cfg0.N) h0 h1]; dsimp only
  exact pieceC28 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) (ms0_24 (⟨n + 1, h⟩ : Fin cfg0.N)) (hs0_24 (⟨n + 1, h⟩ : Fin cfg0.N)) (ms0_25 (⟨n + 1, h⟩ : Fin cfg0.N)) (hs0_25 (⟨n + 1, h⟩ : Fin cfg0.N)) (ms0_26 (⟨n + 1, h⟩ : Fin cfg0.N)) (hs0_26 (⟨n + 1, h⟩ : Fin cfg0.N)) (ms0_27 (⟨n + 1, h⟩ : Fin cfg0.N)) (hs0_27 (⟨n + 1, h⟩ : Fin cfg0.N)) (ms0_28 (⟨n + 1, h⟩ : Fin cfg0.N)) (hs0_28 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (iblk m c 21 (⟨n + 1, h⟩ : Fin cfg0.N)) (iblk m c 22 (⟨n + 1, h⟩ : Fin cfg0.N)) (iblk m c 23 (⟨n + 1, h⟩ : Fin cfg0.N)) (iblk m c 24 (⟨n + 1, h⟩ : Fin cfg0.N)) (iblk m c 25 (⟨n + 1, h⟩ : Fin cfg0.N)) (iblk m c 26 (⟨n + 1, h⟩ : Fin cfg0.N)) (iblk m c 27 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2.1 (outsAt0 m c n (Nat.lt_of_succ_lt h)).2.2.2.2.2.2.2.2 (fun hh => h0 ((hcond0_0 (⟨n + 1, h⟩ : Fin cfg0.N)).mp hh)) ((hcond0_1 (⟨n + 1, h⟩ : Fin cfg0.N)).mpr h1)

/-- the output row a last point stores, from the final state -/
theorem last_out (c : Dev nD) (n : ℕ) (h : n + 1 < cfg0.N) (h24 : (n + 1) % 25 = 24) :
    (outsAt0 m c (n + 1) h).1
      = finOut (sWV m c (n + 1) h) (sSV m c (n + 1) h) (B12 m c (⟨n + 1, h⟩ : Fin cfg0.N)) (sWS m c (n + 1) h) (sSS m c (n + 1) h) (B22 m c (⟨n + 1, h⟩ : Fin cfg0.N))
          (B2 m c (⟨n + 1, h⟩ : Fin cfg0.N)) (B23 m c (⟨n + 1, h⟩ : Fin cfg0.N)) (B24 m c (⟨n + 1, h⟩ : Fin cfg0.N)) (B25 m c (⟨n + 1, h⟩ : Fin cfg0.N)) (B26 m c (⟨n + 1, h⟩ : Fin cfg0.N)) := by
  rw [last_out_aux m c n h h24, ← next_sWV m c n h, ← next_sSV m c n h, ← next_sWS m c n h, ← next_sSS m c n h]

end Cert.KernelIdeal.Hand

end
-- ==== Proof.KPayStream.lean ====
/-
  One block folded into a stream's running state, read at the extended reals and index by index, is the
  specification's step: the block's projection `Y = x · Wl`, the head-replicated logits `leakyrelu (Y + xr) · AE`, the new
  column maximum, the rescaling factor `exp (m_old - m_new)`, the new normaliser and the new weighted sum.

  The road: the product of a 4000 × 128 block with a 128 × 128 matrix into the zero accumulator is, at row p and column
  q, the sum over the 128 contracted coordinates; a column maximum (column sum) of a 4000 × 128 array kept as one row
  is, at column q, the fold of `max` from minus infinity (the sum) over the 4000 rows; one row spread over 4000 rows
  reads that row everywhere. With these each payload of the view stream is read at explicit coordinates, innermost
  first, and the three stored rows are the specification's step field by field. The scenepoint stream's payloads are the
  same operations under other names, so its three rows are the view stream's.
-/
import proofs.«146274_g33088428049086_cont_sun_c4_530_10_alg».proof.Proof.KBody
import proofs.«146274_g33088428049086_cont_sun_c4_530_10_alg».proof.Proof.KConv
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.Hand

namespace Stream

/-! ## The block product read at an index -/

/-- the left operand's row is the output's row -/
theorem dd_lhs0 (j : S4000x128.Idx) (k : dot_S4000x128_S128x128_S4000x128_1_0_0_1_n_n.contr.Idx) :
    (dot_S4000x128_S128x128_S4000x128_1_0_0_1_n_n.lhsIdx j k 0).val = (j 0).val := by
  simp [DotDims.lhsIdx, dot_S4000x128_S128x128_S4000x128_1_0_0_1_n_n]; rfl

/-- the right operand's column is the output's column -/
theorem dd_rhs1 (j : S4000x128.Idx) (k : dot_S4000x128_S128x128_S4000x128_1_0_0_1_n_n.contr.Idx) :
    (dot_S4000x128_S128x128_S4000x128_1_0_0_1_n_n.rhsIdx j k 1).val = (j 1).val := by
  simp [DotDims.rhsIdx, dot_S4000x128_S128x128_S4000x128_1_0_0_1_n_n]; rfl

/-- the left operand's column is the contracted coordinate -/
theorem dd_lhs1 (j : S4000x128.Idx) (k : dot_S4000x128_S128x128_S4000x128_1_0_0_1_n_n.contr.Idx) :
    (dot_S4000x128_S128x128_S4000x128_1_0_0_1_n_n.lhsIdx j k 1).val = (k ⟨0, by decide⟩).val :=
  dot_S4000x128_S128x128_S4000x128_1_0_0_1_n_n.lhsIdx_val_of_single (cl := 1) rfl j k

/-- the right operand's row is the contracted coordinate -/
theorem dd_rhs0 (j : S4000x128.Idx) (k : dot_S4000x128_S128x128_S4000x128_1_0_0_1_n_n.contr.Idx) :
    (dot_S4000x128_S128x128_S4000x128_1_0_0_1_n_n.rhsIdx j k 0).val = (k ⟨0, by decide⟩).val :=
  dot_S4000x128_S128x128_S4000x128_1_0_0_1_n_n.rhsIdx_val_of_single (cr := 0) rfl j k

/-- a 4000×128 by 128×128 product into the zero accumulator, read at row p and column q -/
theorem mm_apply (A : FVec Ideal S4000x128 .f32) (B : FVec Ideal S128x128 .f32) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (contrEquiv1 dot_S4000x128_S128x128_S4000x128_1_0_0_1_n_n 128 rfl rfl).symm]
  refine Finset.sum_congr rfl fun c _ => ?_
  have c2 := contrEquiv1_symm_val dot_S4000x128_S128x128_S4000x128_1_0_0_1_n_n 128 rfl rfl c
  have l2 : dot_S4000x128_S128x128_S4000x128_1_0_0_1_n_n.lhsIdx (ix2 p q)
      ((contrEquiv1 dot_S4000x128_S128x128_S4000x128_1_0_0_1_n_n 128 rfl rfl).symm c) = ix2 p c := by
    funext ax; apply Fin.ext
    match ax with
    | ⟨0, _⟩ => exact dd_lhs0 _ _
    | ⟨1, _⟩ => exact (dd_lhs1 _ _).trans c2
  have r2 : dot_S4000x128_S128x128_S4000x128_1_0_0_1_n_n.rhsIdx (ix2 p q)
      ((contrEquiv1 dot_S4000x128_S128x128_S4000x128_1_0_0_1_n_n 128 rfl rfl).symm c) = ix2 c q := by
    funext ax; apply Fin.ext
    match ax with
    | ⟨0, _⟩ => exact (dd_rhs0 _ _).trans c2
    | ⟨1, _⟩ => exact dd_rhs1 _ _
  rw [l2, r2]

/-! ## Column reductions and the row broadcast read at an index -/

/-- the index a column reduction reads: row n of column q -/
theorem lift_ix (n : Fin 4000) (q : Fin 128) : reduces_S4000x128_S128.lift (ix1 q) n = ix2 n q := by
  funext ax; apply Fin.ext
  match ax with
  | ⟨0, _⟩ => rfl
  | ⟨1, _⟩ => rfl

/-- the column maximum of a 4000×128 array from minus infinity, as a one-row array, read at column q -/
theorem colmax_apply (A : FVec Ideal S4000x128 .f32) (q : Fin 128) :
    shapeCast S1x128 (multiReduction .maximumf [0] S128 A 0xFF800000#32 reduces_S4000x128_S128 (.inl rfl) rfl)
        shapeCasts_S128_S1x128 (ix2 (0 : Fin 1) q)
      = (Finset.univ : Finset (Fin 4000)).fold max Spec.cbot (fun n => A (ix2 n q)) := by
  refine (shapeCast_a_1a_apply _ shapeCasts_S128_S1x128 (0 : Fin 1) q).trans ?_
  refine (Ideal.multiReduction_maximumf_single A 0xFF800000#32 reduces_S4000x128_S128 (.inl rfl) rfl (ix1 q)).trans ?_
  have e : (A ∘ reduces_S4000x128_S128.lift (ix1 q)) = fun n : Fin 4000 => A (ix2 n q) :=
    funext fun n => congrArg A (lift_ix n q)
  rw [e]; rfl

/-- the column sum of a 4000×128 array, as a one-row array, read at column q -/
theorem colsum_apply (A : FVec Ideal S4000x128 .f32) (q : Fin 128) :
    shapeCast S1x128 (multiReduction .add [0] S128 A 0x00000000#32 reduces_S4000x128_S128 (.inl rfl) rfl)
        shapeCasts_S128_S1x128 (ix2 (0 : Fin 1) q)
      = ∑ n : Fin 4000, A (ix2 n q) := by
  refine (shapeCast_a_1a_apply _ shapeCasts_S128_S1x128 (0 : Fin 1) q).trans ?_
  refine (Ideal.multiReduction_add_single A 0x00000000#32 reduces_S4000x128_S128 (.inl rfl) rfl (ix1 q)).trans ?_
  exact Finset.sum_congr rfl fun n _ => congrArg A (lift_ix n q)

/-- one row spread over 4000 rows, read at (p, q) -/
theorem rows_apply (v : FVec Ideal S1x128 .f32) (p : Fin 4000) (q : Fin 128) :
    broadcastTo S4000x128 v broadcasts_S1x128_S4000x128 (ix2 p q) = v (ix2 (0 : Fin 1) q) :=
  broadcastTo_1b_ab_apply v broadcasts_S1x128_S4000x128 p q

/-! ## The view stream's payloads at explicit coordinates -/

/-- the block's projection at (p, q) -/
theorem pay24_apply (x : Vec Ideal S4000x128 .f32) (Wl : Vec Ideal S128x128 .f32) (p : Fin 4000) (q : Fin 128) :
    k0_pay24 x Wl (ix2 p q) = ∑ j : Fin 128, x (ix2 p j) * Wl (ix2 j q) := by
  unfold k0_pay24
  exact mm_apply x Wl p q

/-- the head-replicated logits at (p, q) -/
theorem pay25_apply (x : Vec Ideal S4000x128 .f32) (Wl : Vec Ideal S128x128 .f32) (xr : Vec Ideal S1x128 .f32)
    (AE : Vec Ideal S128x128 .f32) (p : Fin 4000) (q : Fin 128) :
    k0_pay25 x Wl xr AE (ix2 p q)
      = ∑ j : Fin 128, max (k0_pay24 x Wl (ix2 p j) + xr (ix2 (0 : Fin 1) j))
          (Spec.cslope * (k0_pay24 x Wl (ix2 p j) + xr (ix2 (0 : Fin 1) j))) * AE (ix2 j q) := by
  unfold k0_pay25
  refine (mm_apply _ _ p q).trans ?_
  refine Finset.sum_congr rfl fun j _ => ?_
  rw [shapeCast_self]
  simp only [maximumf_apply, mulf_apply, addf_apply, broadcast_apply, rows_apply]
  rfl

/-- the new running maximum at column q -/
theorem pay26_apply (x : Vec Ideal S4000x128 .f32) (Wl : Vec Ideal S128x128 .f32) (xr : Vec Ideal S1x128 .f32)
    (AE : Vec Ideal S128x128 .f32) (m : Vec Ideal S1x128 .f32) (q : Fin 128) :
    k0_pay26 x Wl xr AE m (ix2 (0 : Fin 1) q)
      = max (m (ix2 (0 : Fin 1) q))
          ((Finset.univ : Finset (Fin 4000)).fold max Spec.cbot (fun n => k0_pay25 x Wl xr AE (ix2 n q))) := by
  unfold k0_pay26
  exact congrArg (max (m (ix2 (0 : Fin 1) q))) (colmax_apply _ q)

/-- the rescaling factor at column q -/
theorem pay27_apply (x : Vec Ideal S4000x128 .f32) (Wl : Vec Ideal S128x128 .f32) (xr : Vec Ideal S1x128 .f32)
    (AE : Vec Ideal S128x128 .f32) (m : Vec Ideal S1x128 .f32) (q : Fin 128) :
    k0_pay27 x Wl xr AE m (ix2 (0 : Fin 1) q)
      = Ideal.exp (m (ix2 (0 : Fin 1) q) - k0_pay26 x Wl xr AE m (ix2 (0 : Fin 1) q)) := rfl

/-- the shifted exponentials at (p, q) -/
theorem pay28_apply (x : Vec Ideal S4000x128 .f32) (Wl : Vec Ideal S128x128 .f32) (xr : Vec Ideal S1x128 .f32)
    (AE : Vec Ideal S128x128 .f32) (m : Vec Ideal S1x128 .f32) (p : Fin 4000) (q : Fin 128) :
    k0_pay28 x Wl xr AE m (ix2 p q)
      = Ideal.exp (k0_pay25 x Wl xr AE (ix2 p q) - k0_pay26 x Wl xr AE m (ix2 (0 : Fin 1) q)) := by
  unfold k0_pay28
  exact congrArg (fun t => Ideal.exp (k0_pay25 x Wl xr AE (ix2 p q) - t)) (rows_apply _ p q)

/-- the new normaliser at column q -/
theorem pay29_apply (x : Vec Ideal S4000x128 .f32) (Wl : Vec Ideal S128x128 .f32) (xr : Vec Ideal S1x128 .f32)
    (AE : Vec Ideal S128x128 .f32) (m s : Vec Ideal S1x128 .f32) (q : Fin 128) :
    k0_pay29 x Wl xr AE m s (ix2 (0 : Fin 1) q)
      = s (ix2 (0 : Fin 1) q) * k0_pay27 x Wl xr AE m (ix2 (0 : Fin 1) q)
          + ∑ n : Fin 4000, k0_pay28 x Wl xr AE m (ix2 n q) := by
  unfold k0_pay29
  refine (congrFun (shapeCast_self _ shapeCasts_S1x128_S1x128) _).trans ?_
  exact congrArg (s (ix2 (0 : Fin 1) q) * k0_pay27 x Wl xr AE m (ix2 (0 : Fin 1) q) + ·) (colsum_apply _ q)

/-- the rescaled old weighted sum at column q -/
theorem pay30_apply (x : Vec Ideal S4000x128 .f32) (Wl : Vec Ideal S128x128 .f32) (xr : Vec Ideal S1x128 .f32)
    (AE : Vec Ideal S128x128 .f32) (m w : Vec Ideal S1x128 .f32) (q : Fin 128) :
    k0_pay30 x Wl xr AE m w (ix2 (0 : Fin 1) q)
      = w (ix2 (0 : Fin 1) q) * k0_pay27 x Wl xr AE m (ix2 (0 : Fin 1) q) := rfl

/-- the new weighted sum at column q -/
theorem pay31_apply (y e : FVec Ideal S4000x128 .f32) (r : FVec Ideal S1x128 .f32) (q : Fin 128) :
    k0_pay31 y e r (ix2 (0 : Fin 1) q) = r (ix2 (0 : Fin 1) q) + ∑ n : Fin 4000, e (ix2 n q) * y (ix2 n q) := by
  unfold k0_pay31
  refine (congrFun (shapeCast_self _ shapeCasts_S1x128_S1x128) _).trans ?_
  exact congrArg (r (ix2 (0 : Fin 1) q) + ·) (colsum_apply _ q)

/-- the stored maximum is the maximum -/
theorem pay32_eq (v : FVec Ideal S1x128 .f32) : k0_pay32 v = v := by
  unfold k0_pay32
  exact shapeCast_self v shapeCasts_S1x128_S1x128

/-! ## The view stream against the specification -/

/-- the projection is the specification's -/
theorem pay24_eq (x : Vec Ideal S4000x128 .f32) (Wl : Vec Ideal S128x128 .f32) (p : Fin 4000) (q : Fin 128) :
    k0_pay24 x Wl (ix2 p q) = Spec.ymat (matOf x) (matOf Wl) p q := pay24_apply x Wl p q

/-- the logits are the specification's -/
theorem pay25_eq (x : Vec Ideal S4000x128 .f32) (Wl : Vec Ideal S128x128 .f32) (xr : Vec Ideal S1x128 .f32)
    (AE : Vec Ideal S128x128 .f32) (p : Fin 4000) (q : Fin 128) :
    k0_pay25 x Wl xr AE (ix2 p q) = Spec.lbK (matOf x) (matOf Wl) (rowOf xr) (matOf AE) p q := by
  rw [pay25_apply]
  refine Finset.sum_congr rfl fun j _ => ?_
  rw [pay24_eq]; rfl

/-- the new maximum is the specification's -/
theorem pay26_eq (x : Vec Ideal S4000x128 .f32) (Wl : Vec Ideal S128x128 .f32) (xr : Vec Ideal S1x128 .f32)
    (AE : Vec Ideal S128x128 .f32) (m s w : Vec Ideal S1x128 .f32) (q : Fin 128) :
    k0_pay26 x Wl xr AE m (ix2 (0 : Fin 1) q)
      = (Spec.step (matOf x) (matOf Wl) (rowOf xr) (matOf AE) ⟨rowOf m, rowOf s, rowOf w⟩).m q := by
  rw [pay26_apply]
  simp only [pay25_eq]
  rfl

/-! ## The scenepoint stream: the same operations under other names -/

theorem stepMS_eq (x : Vec Ideal S4000x128 .f32) (Wl AE : Vec Ideal S128x128 .f32) (xr m : Vec Ideal S1x128 .f32) :
    stepMS x Wl AE xr m = stepMV x Wl AE xr m := rfl

theorem stepSS_eq (x : Vec Ideal S4000x128 .f32) (Wl AE : Vec Ideal S128x128 .f32) (xr m s : Vec Ideal S1x128 .f32) :
    stepSS x Wl AE xr m s = stepSV x Wl AE xr m s := rfl

theorem stepWS_eq (x : Vec Ideal S4000x128 .f32) (Wl AE : Vec Ideal S128x128 .f32) (xr m w : Vec Ideal S1x128 .f32) :
    stepWS x Wl AE xr m w = stepWV x Wl AE xr m w := rfl

end Stream

open Stream

/-- the view stream's step -/
theorem stepV_eq (x : Vec Ideal S4000x128 .f32) (Wl AE : Vec Ideal S128x128 .f32) (xr m s w : Vec Ideal S1x128 .f32) :
    rowOf (stepMV x Wl AE xr m) = (Spec.step (matOf x) (matOf Wl) (rowOf xr) (matOf AE) ⟨rowOf m, rowOf s, rowOf w⟩).m
    ∧ rowOf (stepSV x Wl AE xr m s) = (Spec.step (matOf x) (matOf Wl) (rowOf xr) (matOf AE) ⟨rowOf m, rowOf s, rowOf w⟩).s
    ∧ rowOf (stepWV x Wl AE xr m w) = (Spec.step (matOf x) (matOf Wl) (rowOf xr) (matOf AE) ⟨rowOf m, rowOf s, rowOf w⟩).w := by
  refine ⟨funext fun k => ?_, funext fun k => ?_, funext fun k => ?_⟩
  · show k0_pay32 (k0_pay26 x Wl xr AE m) (ix2 (0 : Fin 1) k) = _
    rw [pay32_eq]
    exact pay26_eq x Wl xr AE m s w k
  · show k0_pay29 x Wl xr AE m s (ix2 (0 : Fin 1) k) = _
    rw [pay29_apply, pay27_apply]
    simp only [pay28_apply, pay25_eq, pay26_eq x Wl xr AE m s w]
    rfl
  · show k0_pay31 (k0_pay24 x Wl) (k0_pay28 x Wl xr AE m) (k0_pay30 x Wl xr AE m w) (ix2 (0 : Fin 1) k) = _
    rw [pay31_apply, pay30_apply, pay27_apply]
    simp only [pay28_apply, pay24_eq, pay25_eq, pay26_eq x Wl xr AE m s w]
    rfl

/-- the scenepoint stream's step -/
theorem stepS_eq (x : Vec Ideal S4000x128 .f32) (Wl AE : Vec Ideal S128x128 .f32) (xr m s w : Vec Ideal S1x128 .f32) :
    rowOf (stepMS x Wl AE xr m) = (Spec.step (matOf x) (matOf Wl) (rowOf xr) (matOf AE) ⟨rowOf m, rowOf s, rowOf w⟩).m
    ∧ rowOf (stepSS x Wl AE xr m s) = (Spec.step (matOf x) (matOf Wl) (rowOf xr) (matOf AE) ⟨rowOf m, rowOf s, rowOf w⟩).s
    ∧ rowOf (stepWS x Wl AE xr m w) = (Spec.step (matOf x) (matOf Wl) (rowOf xr) (matOf AE) ⟨rowOf m, rowOf s, rowOf w⟩).w := by
  rw [stepMS_eq, stepSS_eq, stepWS_eq]
  exact stepV_eq x Wl AE xr m s w

end Cert.KernelIdeal.Hand

end
-- ==== Proof.KPayEnds.lean ====
/-
  The first point's offsets and reset values, and the last point's output row, read at the extended reals and index by
  index: LayerNorm, ReLU and the linear layers as the specification writes them; the reset values minus infinity and
  zero; the output row the specification's epilogue of the two normalised aggregations.
-/
import proofs.«146274_g33088428049086_cont_sun_c4_530_10_alg».proof.Proof.KBody
import proofs.«146274_g33088428049086_cont_sun_c4_530_10_alg».proof.Proof.KConv
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.Hand

/-! ## The LayerNorm chain -/

/-- the lane sum of a one-row array -/
theorem laneSum_apply (v : FVec Ideal S1x256 .f32) :
    multiReduction (F := Ideal) .add [1] S1 v 0x00000000#32 reduces_S1x256_S1 (.inl rfl) rfl (ix1 (0 : Fin 1))
      = ∑ k : Fin 256, v (ix2 0 k) := by
  refine (Ideal.multiReduction_add_single v _ reduces_S1x256_S1 _ _ _).trans ?_
  refine Finset.sum_congr rfl fun k _ => congrArg v ?_
  funext a
  match a with
  | ⟨0, _⟩ => rfl
  | ⟨1, _⟩ => rfl

/-- a 1×1 array spread over a 1×256 row reads its one entry everywhere -/
theorem bc11_apply (v : FVec Ideal S1x1 .f32) (q : Fin 256) :
    broadcastTo S1x256 v broadcasts_S1x1_S1x256 (ix2 0 q) = v (ix2 0 0) := by
  refine broadcastTo_apply v broadcasts_S1x1_S1x256 (ix2 0 q) (ix2 0 0) fun ax => ?_
  match ax with
  | ⟨0, _⟩ => rfl
  | ⟨1, _⟩ => rfl

/-- the mean, as the body prints it: lane sum, kept as a 1×1 array, divided by the word for 256 -/
def meanV (x : FVec Ideal S1x256 .f32) : FVec Ideal S1x1 .f32 :=
  divf (shapeCast S1x1 (multiReduction (F := Ideal) .add [1] S1 x 0x00000000#32 reduces_S1x256_S1 (.inl rfl) rfl) shapeCasts_S1_S1x1)
    (broadcast S1x1 (Scalar.ofBits .f32 0x43800000#32))

theorem meanV_apply (x : FVec Ideal S1x256 .f32) : meanV x (ix2 0 0) = Spec.mean (rowOf x) := by
  unfold meanV Spec.mean Spec.c256
  show Ideal.div _ _ = Ideal.div _ _
  congr 1
  exact (shapeCast_a_1a_apply _ shapeCasts_S1_S1x1 0 0).trans (laneSum_apply x)

/-- the deviation from the mean -/
def devV (x : FVec Ideal S1x256 .f32) : FVec Ideal S1x256 .f32 :=
  subf x (broadcastTo S1x256 (meanV x) broadcasts_S1x1_S1x256)

theorem devV_apply (x : FVec Ideal S1x256 .f32) (q : Fin 256) :
    devV x (ix2 0 q) = rowOf x q - Spec.mean (rowOf x) := by
  show x (ix2 0 q) - broadcastTo S1x256 (meanV x) broadcasts_S1x1_S1x256 (ix2 0 q) = _
  rw [bc11_apply, meanV_apply]
  rfl

/-- the reciprocal standard deviation: rsqrt (variance + ε), a 1×1 array -/
def rstdV (x : FVec Ideal S1x256 .f32) : FVec Ideal S1x1 .f32 :=
  rsqrt (addf (meanV (mulf (devV x) (devV x))) (broadcast S1x1 (Scalar.ofBits .f32 0x3727C5AC#32)))

theorem rstdV_apply (x : FVec Ideal S1x256 .f32) :
    rstdV x (ix2 0 0)
      = Ideal.rsqrt (Spec.mean (fun i => (rowOf x i - Spec.mean (rowOf x)) * (rowOf x i - Spec.mean (rowOf x))) + Spec.ceps) := by
  show Ideal.rsqrt (meanV (mulf (devV x) (devV x)) (ix2 0 0) + _) = _
  rw [meanV_apply]
  congr 2
  congr 1
  funext i
  show devV x (ix2 0 i) * devV x (ix2 0 i) = _
  rw [devV_apply]

/-- LayerNorm, as the body prints it -/
def lnV (x s b : FVec Ideal S1x256 .f32) : FVec Ideal S1x256 .f32 :=
  addf (mulf (mulf (devV x) (broadcastTo S1x256 (rstdV x) broadcasts_S1x1_S1x256)) s) b

theorem lnV_apply (x s b : FVec Ideal S1x256 .f32) (q : Fin 256) :
    lnV x s b (ix2 0 q) = Spec.lnorm (rowOf x) (rowOf s) (rowOf b) q := by
  show devV x (ix2 0 q) * broadcastTo S1x256 (rstdV x) broadcasts_S1x1_S1x256 (ix2 0 q) * s (ix2 0 q) + b (ix2 0 q) = _
  rw [bc11_apply, devV_apply, rstdV_apply]
  rfl

/-! ## A row times a matrix -/

/-- a one-row array times a matrix into the zero accumulator, read at a column: the sum over the row's entries -/
theorem mmRow_apply {K N : ℕ} (d : DotDims ⟨2, ![1, K]⟩ ⟨2, ![K, N]⟩ ⟨2, ![1, N]⟩)
    (hr : d.contr.rank = 1) (hs : d.contr.size ⟨0, by omega⟩ = K)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (lhs : FVec Ideal ⟨2, ![1, K]⟩ .f32) (rhs : FVec Ideal ⟨2, ![K, N]⟩ .f32) (q : Fin N) :
    FloatOps.matmul d none lhs rhs (constant ⟨2, ![1, N]⟩ .f32 0x00000000#32) (ix2 0 q)
      = ∑ k : Fin K, lhs (ix2 0 k) * rhs (ix2 k q) := by
  rw [Ideal.matmul_constant_zero_apply, ← Equiv.sum_comp (contrEquiv1 d K hr hs).symm]
  refine Finset.sum_congr rfl fun k _ => ?_
  have e1 : d.lhsIdx (ix2 0 q) ((contrEquiv1 d K hr hs).symm k) = ix2 0 k := by
    funext a
    match a with
    | ⟨0, _⟩ => exact Subsingleton.elim (α := Fin 1) _ _
    | ⟨1, _⟩ => exact Fin.ext ((hl1 _ _).trans (contrEquiv1_symm_val d K hr hs k))
  have e2 : d.rhsIdx (ix2 0 q) ((contrEquiv1 d K hr hs).symm k) = ix2 k q := by
    funext a
    match a with
    | ⟨0, _⟩ => exact Fin.ext ((hr0 _ _).trans (contrEquiv1_symm_val d K hr hs k))
    | ⟨1, _⟩ => exact Fin.ext (hr1 _ _)
  rw [e1, e2]

theorem mm256x128_apply (lhs : FVec Ideal S1x256 .f32) (rhs : FVec Ideal S256x128 .f32) (q : Fin 128) :
    matmul dot_S1x256_S256x128_S1x128_1_0_0_1_n_n none lhs rhs (constant S1x128 .f32 0x00000000#32) (ix2 0 q)
      = ∑ k : Fin 256, lhs (ix2 0 k) * rhs (ix2 k q) :=
  mmRow_apply dot_S1x256_S256x128_S1x128_1_0_0_1_n_n rfl rfl
    (fun j k => dot_S1x256_S256x128_S1x128_1_0_0_1_n_n.lhsIdx_val_of_single rfl j k)
    (fun j k => dot_S1x256_S256x128_S1x128_1_0_0_1_n_n.rhsIdx_val_of_single rfl j k)
    (fun _ _ => rfl) lhs rhs q

theorem mm128x128_apply (lhs : FVec Ideal S1x128 .f32) (rhs : FVec Ideal S128x128 .f32) (q : Fin 128) :
    matmul dot_S1x128_S128x128_S1x128_1_0_0_1_n_n none lhs rhs (constant S1x128 .f32 0x00000000#32) (ix2 0 q)
      = ∑ k : Fin 128, lhs (ix2 0 k) * rhs (ix2 k q) :=
  mmRow_apply dot_S1x128_S128x128_S1x128_1_0_0_1_n_n rfl rfl
    (fun j k => dot_S1x128_S128x128_S1x128_1_0_0_1_n_n.lhsIdx_val_of_single rfl j k)
    (fun j k => dot_S1x128_S128x128_S1x128_1_0_0_1_n_n.rhsIdx_val_of_single rfl j k)
    (fun _ _ => rfl) lhs rhs q

theorem mm256x256_apply (lhs : FVec Ideal S1x256 .f32) (rhs : FVec Ideal S256x256 .f32) (q : Fin 256) :
    matmul dot_S1x256_S256x256_S1x256_1_0_0_1_n_n none lhs rhs (constant S1x256 .f32 0x00000000#32) (ix2 0 q)
      = ∑ k : Fin 256, lhs (ix2 0 k) * rhs (ix2 k q) :=
  mmRow_apply dot_S1x256_S256x256_S1x256_1_0_0_1_n_n rfl rfl
    (fun j k => dot_S1x256_S256x256_S1x256_1_0_0_1_n_n.lhsIdx_val_of_single rfl j k)
    (fun j k => dot_S1x256_S256x256_S1x256_1_0_0_1_n_n.rhsIdx_val_of_single rfl j k)
    (fun _ _ => rfl) lhs rhs q

/-! ## ReLU, and the projected global feature -/

/-- ReLU as the body prints it: the maximum with a row of the zero word -/
def reluV (x : FVec Ideal S1x256 .f32) : FVec Ideal S1x256 .f32 :=
  maximumf x (broadcast S1x256 (Scalar.ofBits .f32 0x00000000#32))

theorem reluV_apply (x : FVec Ideal S1x256 .f32) (q : Fin 256) : reluV x (ix2 0 q) = Spec.relu (x (ix2 0 q)) := by
  show max (x (ix2 0 q)) (Ideal.ofBits .f32 0x00000000#32) = max (x (ix2 0 q)) 0
  rw [Ideal.ofBits_zero_f32]

/-- relu (LayerNorm g) · Wg + bg, as the body prints it -/
def gprojV (g lns lnb : FVec Ideal S1x256 .f32) (Wg : FVec Ideal S256x128 .f32) (bg : FVec Ideal S1x128 .f32) :
    FVec Ideal S1x128 .f32 :=
  addf (matmul dot_S1x256_S256x128_S1x128_1_0_0_1_n_n none (reluV (lnV g lns lnb)) Wg (constant S1x128 .f32 0x00000000#32)) bg

theorem gprojV_apply (g lns lnb : FVec Ideal S1x256 .f32) (Wg : FVec Ideal S256x128 .f32) (bg : FVec Ideal S1x128 .f32)
    (k : Fin 128) :
    gprojV g lns lnb Wg bg (ix2 0 k) = Spec.gproj (rowOf g) (rowOf lns) (rowOf lnb) (matOf Wg) (rowOf bg) k := by
  show matmul dot_S1x256_S256x128_S1x128_1_0_0_1_n_n none (reluV (lnV g lns lnb)) Wg (constant S1x128 .f32 0x00000000#32) (ix2 0 k)
      + bg (ix2 0 k) = _
  rw [mm256x128_apply]
  unfold Spec.gproj Spec.lin
  congr 1
  refine Finset.sum_congr rfl fun j _ => ?_
  rw [reluV_apply, lnV_apply]
  rfl

/-- bl + x · Wr + br, as the body prints it -/
def xrV (bl x : FVec Ideal S1x128 .f32) (Wr : FVec Ideal S128x128 .f32) (br : FVec Ideal S1x128 .f32) : FVec Ideal S1x128 .f32 :=
  addf (addf bl (matmul dot_S1x128_S128x128_S1x128_1_0_0_1_n_n none x Wr (constant S1x128 .f32 0x00000000#32))) br

theorem xrV_apply (bl x : FVec Ideal S1x128 .f32) (Wr : FVec Ideal S128x128 .f32) (br : FVec Ideal S1x128 .f32) (k : Fin 128) :
    xrV bl x Wr br (ix2 0 k) = Spec.xrK (rowOf bl) (rowOf x) (matOf Wr) (rowOf br) k := by
  show bl (ix2 0 k) + matmul dot_S1x128_S128x128_S1x128_1_0_0_1_n_n none x Wr (constant S1x128 .f32 0x00000000#32) (ix2 0 k)
      + br (ix2 0 k) = _
  rw [mm128x128_apply]
  rfl

/-! ## The two offsets -/

theorem pay7_eq (bl : FVec Ideal S1x128 .f32) (g lns lnb : FVec Ideal S1x256 .f32) (Wg : FVec Ideal S256x128 .f32)
    (bg : FVec Ideal S1x128 .f32) (Wr : FVec Ideal S128x128 .f32) (br : FVec Ideal S1x128 .f32) :
    k0_pay7 (k0_pay5 bl) (k0_pay6 g lns lnb Wg bg Wr) br = xrV bl (gprojV g lns lnb Wg bg) Wr br := by
  unfold k0_pay7 k0_pay5 k0_pay6
  simp only [shapeCast_self]
  rfl

theorem pay9_eq (bl : FVec Ideal S1x128 .f32) (g lns lnb : FVec Ideal S1x256 .f32) (Wg : FVec Ideal S256x128 .f32)
    (bg : FVec Ideal S1x128 .f32) (Wr : FVec Ideal S128x128 .f32) (br : FVec Ideal S1x128 .f32) :
    k0_pay9 (k0_pay8 g lns lnb Wg bg) bl Wr br = xrV bl (gprojV g lns lnb Wg bg) Wr br := by
  unfold k0_pay9 k0_pay8
  simp only [shapeCast_self]
  rfl

theorem initXrV_eq (g lns lnb : Vec Ideal S1x256 .f32) (Wg : Vec Ideal S256x128 .f32) (bg bl : Vec Ideal S1x128 .f32)
    (Wr : Vec Ideal S128x128 .f32) (br : Vec Ideal S1x128 .f32) :
    rowOf (initXrV g lns lnb Wg bg bl Wr br)
      = Spec.xrK (rowOf bl) (Spec.gproj (rowOf g) (rowOf lns) (rowOf lnb) (matOf Wg) (rowOf bg)) (matOf Wr) (rowOf br) := by
  unfold initXrV
  rw [pay7_eq]
  funext k
  show xrV bl (gprojV g lns lnb Wg bg) Wr br (ix2 0 k) = _
  rw [xrV_apply]
  congr 2
  funext j
  exact gprojV_apply g lns lnb Wg bg j

theorem initXrS_eq (g lns lnb : Vec Ideal S1x256 .f32) (Wg : Vec Ideal S256x128 .f32) (bg bl : Vec Ideal S1x128 .f32)
    (Wr : Vec Ideal S128x128 .f32) (br : Vec Ideal S1x128 .f32) :
    rowOf (initXrS g lns lnb Wg bg bl Wr br)
      = Spec.xrK (rowOf bl) (Spec.gproj (rowOf g) (rowOf lns) (rowOf lnb) (matOf Wg) (rowOf bg)) (matOf Wr) (rowOf br) := by
  unfold initXrS
  rw [pay9_eq]
  funext k
  show xrV bl (gprojV g lns lnb Wg bg) Wr br (ix2 0 k) = _
  rw [xrV_apply]
  congr 2
  funext j
  exact gprojV_apply g lns lnb Wg bg j

/-! ## The reset values: a row of the word for minus infinity, and rows of the zero word -/

theorem initMV_eq : rowOf (initMV (F := Ideal)) = Spec.St.init.m := by funext k; rfl
theorem initMS_eq : rowOf (initMS (F := Ideal)) = Spec.St.init.m := by funext k; rfl
theorem initSV_eq : rowOf (initSV (F := Ideal)) = Spec.St.init.s := by
  funext k; show Ideal.ofBits .f32 0x00000000#32 = 0; exact Ideal.ofBits_zero_f32
theorem initSS_eq : rowOf (initSS (F := Ideal)) = Spec.St.init.s := by
  funext k; show Ideal.ofBits .f32 0x00000000#32 = 0; exact Ideal.ofBits_zero_f32
theorem initWV_eq : rowOf (initWV (F := Ideal)) = Spec.St.init.w := by
  funext k; show Ideal.ofBits .f32 0x00000000#32 = 0; exact Ideal.ofBits_zero_f32
theorem initWS_eq : rowOf (initWS (F := Ideal)) = Spec.St.init.w := by
  funext k; show Ideal.ofBits .f32 0x00000000#32 = 0; exact Ideal.ofBits_zero_f32

/-! ## The output row -/

/-- two 1×128 rows side by side, read at a column of the 1×256 row -/
theorem cat_apply (a b : FVec Ideal S1x128 .f32) (q : Fin 256) :
    concatenate S1x256 1 [⟨S1x128, a⟩, ⟨S1x128, b⟩] concatenates_S1x128_S1x128_S1x256_d1 (ix2 0 q)
      = Spec.cat (rowOf a) (rowOf b) q := by
  unfold Spec.cat
  split
  · next h =>
    refine concatenate_pair_apply_left _ a b concatenates_S1x128_S1x128_S1x256_d1 (ix2 0 q) rfl (ix2 0 ⟨q.val, h⟩) fun ax => ?_
    match ax with
    | ⟨0, _⟩ => rfl
    | ⟨1, _⟩ => rfl
  · next h =>
    refine concatenate_pair_apply_right _ a b concatenates_S1x128_S1x128_S1x256_d1 (ix2 0 q) rfl rfl
      (ix2 0 ⟨q.val - 128, by omega⟩) (fun ax hne => ?_) ?_
    · match ax, hne with
      | ⟨0, _⟩, _ => rfl
      | ⟨1, _⟩, hne => exact absurd rfl hne
    · show q.val - 128 + 128 = q.val
      omega

/-- the epilogue's input: the global feature plus the two normalised aggregations side by side -/
theorem pay18_apply (wv sv bbv ws ss bbs : FVec Ideal S1x128 .f32) (g : FVec Ideal S1x256 .f32) (q : Fin 256) :
    k0_pay18 (F := Ideal) wv sv bbv ws ss bbs g (ix2 0 q)
      = rowOf g q + Spec.cat (fun k => Ideal.div (rowOf wv k) (rowOf sv k) + rowOf bbv k)
          (fun k => Ideal.div (rowOf ws k) (rowOf ss k) + rowOf bbs k) q := by
  unfold k0_pay18
  rw [shapeCast_self bbv, shapeCast_self bbs]
  show g (ix2 0 q) + concatenate S1x256 1 [⟨S1x128, addf (divf wv sv) bbv⟩, ⟨S1x128, addf (divf ws ss) bbs⟩]
      concatenates_S1x128_S1x128_S1x256_d1 (ix2 0 q) = _
  rw [cat_apply]
  rfl

/-- relu (LayerNorm x) · W + b on the 256-wide row, as the body prints it -/
def mlpV (x lns lnb : FVec Ideal S1x256 .f32) (W : FVec Ideal S256x256 .f32) (b : FVec Ideal S1x256 .f32) :
    FVec Ideal S1x256 .f32 :=
  addf (matmul dot_S1x256_S256x256_S1x256_1_0_0_1_n_n none (reluV (lnV x lns lnb)) W (constant S1x256 .f32 0x00000000#32)) b

theorem mlpV_apply (x lns lnb : FVec Ideal S1x256 .f32) (W : FVec Ideal S256x256 .f32) (b : FVec Ideal S1x256 .f32)
    (q : Fin 256) :
    mlpV x lns lnb W b (ix2 0 q)
      = Spec.lin (fun i => Spec.relu (Spec.lnorm (rowOf x) (rowOf lns) (rowOf lnb) i)) (matOf W) (rowOf b) q := by
  show matmul dot_S1x256_S256x256_S1x256_1_0_0_1_n_n none (reluV (lnV x lns lnb)) W (constant S1x256 .f32 0x00000000#32) (ix2 0 q)
      + b (ix2 0 q) = _
  rw [mm256x256_apply]
  unfold Spec.lin
  congr 1
  refine Finset.sum_congr rfl fun j _ => ?_
  rw [reluV_apply, lnV_apply]
  rfl

theorem finOut_unfold (wv sv bbv ws ss bbs : FVec Ideal S1x128 .f32) (g lns lnb : FVec Ideal S1x256 .f32)
    (W : FVec Ideal S256x256 .f32) (b : FVec Ideal S1x256 .f32) :
    finOut wv sv bbv ws ss bbs g lns lnb W b
      = addf (k0_pay18 wv sv bbv ws ss bbs g) (mlpV (k0_pay18 wv sv bbv ws ss bbs g) lns lnb W b) := by
  unfold finOut k0_pay4 k0_pay19 k0_pay20 k0_pay22 k0_pay23 k0_pay21
  simp only [shapeCast_self]
  rfl

theorem finOut_eq (wv sv bbv ws ss bbs : Vec Ideal S1x128 .f32) (g lns lnb : Vec Ideal S1x256 .f32)
    (W : Vec Ideal S256x256 .f32) (b : Vec Ideal S1x256 .f32) :
    rowOf (finOut wv sv bbv ws ss bbs g lns lnb W b)
      = Spec.epi (rowOf g) (fun k => Ideal.div (rowOf wv k) (rowOf sv k) + rowOf bbv k)
          (fun k => Ideal.div (rowOf ws k) (rowOf ss k) + rowOf bbs k) (rowOf lns) (rowOf lnb) (matOf W) (rowOf b) := by
  rw [finOut_unfold]
  have hX : rowOf (k0_pay18 wv sv bbv ws ss bbs g)
      = fun i' => rowOf g i' + Spec.cat (fun k => Ideal.div (rowOf wv k) (rowOf sv k) + rowOf bbv k)
          (fun k => Ideal.div (rowOf ws k) (rowOf ss k) + rowOf bbs k) i' :=
    funext fun i' => pay18_apply wv sv bbv ws ss bbs g i'
  funext j
  show k0_pay18 wv sv bbv ws ss bbs g (ix2 0 j) + mlpV (k0_pay18 wv sv bbv ws ss bbs g) lns lnb W b (ix2 0 j) = _
  rw [mlpV_apply, pay18_apply, hX]
  rfl

end Cert.KernelIdeal.Hand

end
-- ==== Proof.KInv.lean ====
/-
  The streamed state after every grid point is the specification's: by induction on the point, the eight carried vectors
  after point `n` are the running maximum, normaliser and weighted sum of the specification's state after `n + 1` blocks
  (per stream) and the two attention-input offsets; and the row the last point stores is the specification's streamed
  result.
-/
import proofs.«146274_g33088428049086_cont_sun_c4_530_10_alg».proof.Proof.KPoint
import proofs.«146274_g33088428049086_cont_sun_c4_530_10_alg».proof.Proof.KPayStream
import proofs.«146274_g33088428049086_cont_sun_c4_530_10_alg».proof.Proof.KPayEnds

noncomputable section

namespace Cert.KernelIdeal.Hand

open Cert.KernelIdeal Cert.KernelIdeal.Gen Cert.KernelIdeal.GenP Idealize.ShloMosaic Idealize.ShloMosaic.TcCoe Idealize.SL.Sem Cert.Hand

variable (m : (ℓ : Loc nD τ sig) → Buf (Elt Ideal) ℓ)

/-- the view stream's attention-input offset, from the arguments -/
def offV (c : Dev nD) : Fin 128 → EReal :=
  Spec.xrK (argsK m c).bl_v (Spec.gproj (argsK m c).g (argsK m c).ln_g2v_s (argsK m c).ln_g2v_b (argsK m c).W_g2v (argsK m c).b_g2v)
    (argsK m c).Wr_v (argsK m c).br_v

/-- the scenepoint stream's attention-input offset, from the arguments -/
def offS (c : Dev nD) : Fin 128 → EReal :=
  Spec.xrK (argsK m c).bl_s (Spec.gproj (argsK m c).g (argsK m c).ln_g2s_s (argsK m c).ln_g2s_b (argsK m c).W_g2s (argsK m c).b_g2s)
    (argsK m c).Wr_s (argsK m c).br_s

/-- the view stream's state after `n` blocks -/
def onV (c : Dev nD) (n : ℕ) (h : n ≤ 25) : Spec.St :=
  Spec.online (argsK m c).xv (argsK m c).Wl_v (offV m c) (Spec.aeOf (argsK m c).att_v) n h

/-- the scenepoint stream's state after `n` blocks -/
def onS (c : Dev nD) (n : ℕ) (h : n ≤ 25) : Spec.St :=
  Spec.online (argsK m c).xs (argsK m c).Wl_s (offS m c) (Spec.aeOf (argsK m c).att_s) n h

theorem succ_le_of_lt_N {n : ℕ} (hn : n < cfg0.N) : n + 1 ≤ 25 := by
  have := lt_of_lt_of_eq hn N_0; omega

/-- the state after one more block is the step applied to that block (view stream) -/
theorem onV_succ (c : Dev nD) (t : Fin cfg0.N) (h : t.val + 1 ≤ 25) :
    onV m c (t.val + 1) h
      = Spec.step (Spec.blockOf (argsK m c).xv (Fin.cast N_0 t)) (argsK m c).Wl_v (offV m c) (Spec.aeOf (argsK m c).att_v)
          (onV m c t.val (Nat.le_of_succ_le h)) := rfl

/-- the state after one more block is the step applied to that block (scenepoint stream) -/
theorem onS_succ (c : Dev nD) (t : Fin cfg0.N) (h : t.val + 1 ≤ 25) :
    onS m c (t.val + 1) h
      = Spec.step (Spec.blockOf (argsK m c).xs (Fin.cast N_0 t)) (argsK m c).Wl_s (offS m c) (Spec.aeOf (argsK m c).att_s)
          (onS m c t.val (Nat.le_of_succ_le h)) := rfl

/-- one block of the view stream folded into carried vectors that read as a specification state `st` -/
theorem stepV_row (c : Dev nD) (t : Fin cfg0.N) (xr mm s w : Vec Ideal S1x128 .f32) (st : Spec.St)
    (hx : rowOf xr = offV m c) (hm : rowOf mm = st.m) (hs : rowOf s = st.s) (hw : rowOf w = st.w) :
    rowOf (stepMV (B0 m c t) (B7 m c t) (B11 m c t) xr mm)
        = (Spec.step (Spec.blockOf (argsK m c).xv (Fin.cast N_0 t)) (argsK m c).Wl_v (offV m c)
            (Spec.aeOf (argsK m c).att_v) st).m
    ∧ rowOf (stepSV (B0 m c t) (B7 m c t) (B11 m c t) xr mm s)
        = (Spec.step (Spec.blockOf (argsK m c).xv (Fin.cast N_0 t)) (argsK m c).Wl_v (offV m c)
            (Spec.aeOf (argsK m c).att_v) st).s
    ∧ rowOf (stepWV (B0 m c t) (B7 m c t) (B11 m c t) xr mm w)
        = (Spec.step (Spec.blockOf (argsK m c).xv (Fin.cast N_0 t)) (argsK m c).Wl_v (offV m c)
            (Spec.aeOf (argsK m c).att_v) st).w := by
  obtain ⟨h1, h2, h3⟩ := stepV_eq (B0 m c t) (B7 m c t) (B11 m c t) xr mm s w
  rw [h1, h2, h3, B0_eq, B7_eq, B11_eq, hx, hm, hs, hw]
  exact ⟨rfl, rfl, rfl⟩

/-- one block of the scenepoint stream folded into carried vectors that read as a specification state `st` -/
theorem stepS_row (c : Dev nD) (t : Fin cfg0.N) (xr mm s w : Vec Ideal S1x128 .f32) (st : Spec.St)
    (hx : rowOf xr = offS m c) (hm : rowOf mm = st.m) (hs : rowOf s = st.s) (hw : rowOf w = st.w) :
    rowOf (stepMS (B1 m c t) (B17 m c t) (B21 m c t) xr mm)
        = (Spec.step (Spec.blockOf (argsK m c).xs (Fin.cast N_0 t)) (argsK m c).Wl_s (offS m c)
            (Spec.aeOf (argsK m c).att_s) st).m
    ∧ rowOf (stepSS (B1 m c t) (B17 m c t) (B21 m c t) xr mm s)
        = (Spec.step (Spec.blockOf (argsK m c).xs (Fin.cast N_0 t)) (argsK m c).Wl_s (offS m c)
            (Spec.aeOf (argsK m c).att_s) st).s
    ∧ rowOf (stepWS (B1 m c t) (B17 m c t) (B21 m c t) xr mm w)
        = (Spec.step (Spec.blockOf (argsK m c).xs (Fin.cast N_0 t)) (argsK m c).Wl_s (offS m c)
            (Spec.aeOf (argsK m c).att_s) st).w := by
  obtain ⟨h1, h2, h3⟩ := stepS_eq (B1 m c t) (B17 m c t) (B21 m c t) xr mm s w
  rw [h1, h2, h3, B1_eq, B17_eq, B21_eq, hx, hm, hs, hw]
  exact ⟨rfl, rfl, rfl⟩

/-- the view stream's offset computed at the first point is the specification's -/
theorem initXrV_row (c : Dev nD) (t : Fin cfg0.N) :
    rowOf (initXrV (B2 m c t) (B3 m c t) (B4 m c t) (B5 m c t) (B6 m c t) (B8 m c t) (B9 m c t) (B10 m c t))
      = offV m c := by
  rw [initXrV_eq, B2_eq, B3_eq, B4_eq, B5_eq, B6_eq, B8_eq, B9_eq, B10_eq]
  rfl

/-- the scenepoint stream's offset computed at the first point is the specification's -/
theorem initXrS_row (c : Dev nD) (t : Fin cfg0.N) :
    rowOf (initXrS (B2 m c t) (B13 m c t) (B14 m c t) (B15 m c t) (B16 m c t) (B18 m c t) (B19 m c t) (B20 m c t))
      = offS m c := by
  rw [initXrS_eq, B2_eq, B13_eq, B14_eq, B15_eq, B16_eq, B18_eq, B19_eq, B20_eq]
  rfl

/-- after point `n` the carried vectors are the specification's state after `n + 1` blocks -/
theorem inv (c : Dev nD) (n : ℕ) (hn : n < cfg0.N) :
    rowOf (sMV m c n hn) = (onV m c (n + 1) (succ_le_of_lt_N hn)).m
    ∧ rowOf (sSV m c n hn) = (onV m c (n + 1) (succ_le_of_lt_N hn)).s
    ∧ rowOf (sWV m c n hn) = (onV m c (n + 1) (succ_le_of_lt_N hn)).w
    ∧ rowOf (sXV m c n hn) = offV m c
    ∧ rowOf (sMS m c n hn) = (onS m c (n + 1) (succ_le_of_lt_N hn)).m
    ∧ rowOf (sSS m c n hn) = (onS m c (n + 1) (succ_le_of_lt_N hn)).s
    ∧ rowOf (sWS m c n hn) = (onS m c (n + 1) (succ_le_of_lt_N hn)).w
    ∧ rowOf (sXS m c n hn) = offS m c := by
  induction n with
  | zero =>
    have hxV := initXrV_row m c (⟨0, hn⟩ : Fin cfg0.N)
    have hxS := initXrS_row m c (⟨0, hn⟩ : Fin cfg0.N)
    obtain ⟨v1, v2, v3⟩ := stepV_row m c (⟨0, hn⟩ : Fin cfg0.N) _ (initMV (F := Ideal)) (initSV (F := Ideal)) (initWV (F := Ideal)) Spec.St.init hxV
      initMV_eq initSV_eq initWV_eq
    obtain ⟨s1, s2, s3⟩ := stepS_row m c (⟨0, hn⟩ : Fin cfg0.N) _ (initMS (F := Ideal)) (initSS (F := Ideal)) (initWS (F := Ideal)) Spec.St.init hxS
      initMS_eq initSS_eq initWS_eq
    rw [first_sMV, first_sSV, first_sWV, first_sXV, first_sMS, first_sSS, first_sWS, first_sXS]
    exact ⟨v1, v2, v3, hxV, s1, s2, s3, hxS⟩
  | succ n ih =>
    obtain ⟨i1, i2, i3, i4, i5, i6, i7, i8⟩ := ih (Nat.lt_of_succ_lt hn)
    obtain ⟨v1, v2, v3⟩ := stepV_row m c (⟨n + 1, hn⟩ : Fin cfg0.N) _ _ _ _ _ i4 i1 i2 i3
    obtain ⟨s1, s2, s3⟩ := stepS_row m c (⟨n + 1, hn⟩ : Fin cfg0.N) _ _ _ _ _ i8 i5 i6 i7
    rw [next_sMV, next_sSV, next_sWV, next_sXV, next_sMS, next_sSS, next_sWS, next_sXS]
    exact ⟨v1, v2, v3, i4, s1, s2, s3, i8⟩

/-- the row a last point stores is the specification's streamed result; stated for a variable point `n + 1 = 24`, so that
    the point stays a variable while the frame's contents are being rewritten -/
theorem out_row_gen (c : Dev nD) (n : ℕ) (h : n + 1 < cfg0.N) (h24 : n + 1 = 24) :
    rowOf ((outsAt0 m c (n + 1) h).1) = Spec.outK (argsK m c) := by
  obtain ⟨-, i2, i3, -, -, i6, i7, -⟩ := inv m c (n + 1) h
  rw [last_out m c n h (by omega), finOut_eq, i2, i3, i6, i7, B2_eq, B12_eq, B22_eq, B23_eq, B24_eq, B25_eq, B26_eq]
  clear i2 i3 i6 i7
  obtain rfl : n = 23 := by omega
  rfl

/-- the row the last point stores is the specification's streamed result -/
theorem out_row (c : Dev nD) (h : 23 + 1 < cfg0.N) :
    rowOf ((outsAt0 m c (23 + 1) h).1) = Spec.outK (argsK m c) :=
  out_row_gen m c 23 h rfl

end Cert.KernelIdeal.Hand

end
-- ==== Proof.KFinal.lean ====
/-
  The kernel's result array after the run. Only the last grid point writes the output window back, and its block is the
  whole 1 × 256 array, so the array after the run is the row that point stored: the specification's streamed result.
  With it the kernel's run is stated with its result named by the specification.
-/
import proofs.«146274_g33088428049086_cont_sun_c4_530_10_alg».proof.Proof.GenP.KernelIdeal.Value
import proofs.«146274_g33088428049086_cont_sun_c4_530_10_alg».proof.Proof.KInv

noncomputable section

namespace Cert.KernelIdeal.Hand

open Cert.KernelIdeal Cert.KernelIdeal.Gen Cert.KernelIdeal.GenP Idealize.ShloMosaic Idealize.ShloMosaic.TcCoe Idealize.SL.Sem Cert.Hand
open Idealize.ShloMosaic.Pipeline (Dat)

/-! The auxiliary statements live in their own namespace. -/
namespace Final

/-- the output window is written back at the last of the 25 points and at no other -/
theorem flush28_iff (t : Fin cfg0.N) : (cfg0.win 28).flush t = true ↔ t.val = 24 := by
  have hN : cfg0.N = 25 := N_0
  have ht : t.val < cfg0.N := t.isLt
  rw [flush0_28 t]
  omega

/-- the output window's block index is zero on both axes at every point -/
theorem index28 (t : Fin cfg0.N) (a : Fin 2) : win0_28.index t a = 0 := by
  match a with
  | ⟨0, _⟩ => rfl
  | ⟨1, _⟩ => rfl

/-- the last point, as a point of the grid -/
def tLast : Fin cfg0.N := ⟨23 + 1, by rw [show cfg0.N = 25 from N_0]; decide⟩

/-- every index of the 1 × 256 array lies in any point's block: the block is the whole array -/
theorem mem_blk28 (t : Fin cfg0.N) (i : S1x256.Idx) : i ∈ ((cfg0.win 28).blk t).view.set := by
  show i ∈ ((View.whole main_v34).slice (win0_28.rect t)).set
  rw [View.set_slice_whole, Rect.mem_set_unit]
  intro a
  have h0 : (i 0 : ℕ) < 1 := (i 0).isLt
  have h1 : (i 1 : ℕ) < 256 := (i 1).isLt
  match a with
  | ⟨0, _⟩ =>
    show win0_28.index t 0 * 1 ≤ (i 0 : ℕ) ∧ (i 0 : ℕ) < win0_28.index t 0 * 1 + 1
    rw [Final.index28 t 0]; omega
  | ⟨1, _⟩ =>
    show win0_28.index t 1 * 256 ≤ (i 1 : ℕ) ∧ (i 1 : ℕ) < win0_28.index t 1 * 256 + 256
    rw [Final.index28 t 1]; omega

/-- the block of an array that depends on the column only, read back, is what the write-back of that array writes -/
theorem cut28_eq_read (t : Fin cfg0.N) (out : Fin 256 → EReal) :
    (cfg0.win 28).cut (grid0.coords t) (fun i : S1x256.Idx => out (i 1))
      = ((cfg0.win 28).blk t).view.read (Elt Ideal) (fun i : S1x256.Idx => out (i 1)) := by
  funext j
  rw [View.read_apply]
  show out ⟨(j 1).val, _⟩ = out ((win0_28.rect t).emb j 1)
  refine congrArg out (Fin.ext ?_)
  show (j 1).val = win0_28.index t 1 * 256 + 1 * (j 1).val
  rw [Final.index28 t 1]; omega

/-- a one-row array is its row read by the column -/
theorem eq_of_rowOf (v : S1x256.Idx → EReal) (out : Fin 256 → EReal) (h : rowOf v = out) :
    v = fun i : S1x256.Idx => out (i 1) := by
  funext i
  have h0 : (i 0 : ℕ) < 1 := (i 0).isLt
  have hi : i = Idealize.ShloMosaic.ValueIdx.ix2 (n0 := 1) (n1 := 256) 0 (i 1) := by
    funext a
    match a with
    | ⟨0, _⟩ => exact Fin.ext (by show (i 0 : ℕ) = 0; omega)
    | ⟨1, _⟩ => rfl
  rw [← h]
  exact congrArg v hi

section Core

variable {Ix : Type} [DecidableEq Ix] {Name : Type} [DecidableEq Name] {U : Type} [Idealize.SL.RA.URA U] {Lvl : Type}

/-- the array after the run, from what each point writes back and the row the last point stores -/
theorem final28_of {c : Dev nD} (dat : Dat τ (Elt Ideal) Ix Name U Lvl cfg0 c)
    (outs : (n : ℕ) → n < cfg0.N → Vec Ideal S1x256 .f32) (out : Fin 256 → EReal)
    (hfl : ∀ t : Fin cfg0.N, dat.flushed 28 t = (cfg0.win 28).cut (grid0.coords t) (outs t.val t.isLt))
    (hrow : ∀ (n : ℕ) (h : n + 1 < cfg0.N), n + 1 = 24 → rowOf (outs (n + 1) h) = out) :
    dat.arrAt 28 cfg0.N = (fun i : S1x256.Idx => out (i 1)) := by
  refine dat.arrAt_eq_of_cover 28 _ (fun t hf => ?_)
    (fun i => ⟨Final.tLast, (Final.flush28_iff Final.tLast).mpr rfl, Final.mem_blk28 Final.tLast i⟩)
  have h24 : t.val = 24 := (Final.flush28_iff t).mp hf
  obtain ⟨tv, ht⟩ := t
  cases tv with
  | zero =>
    have h0 : (0 : ℕ) = 24 := h24
    omega
  | succ n =>
    have hX : outs (n + 1) ht = (fun i : S1x256.Idx => out (i 1)) :=
      Final.eq_of_rowOf _ out (hrow n ht h24)
    rw [hfl]
    show (cfg0.win 28).cut (grid0.coords ⟨n + 1, ht⟩) (outs (n + 1) ht) = _
    rw [hX]
    exact Final.cut28_eq_read ⟨n + 1, ht⟩ out

end Core

end Final

variable (m : (ℓ : Loc nD τ sig) → Buf (Elt Ideal) ℓ) (ρ : Dev nD → PrngReg)

/-- the output array after the run is the specification's streamed result, read by its column -/
theorem final28 (c : Dev nD) :
    (dats m 0 c).arrAt 28 cfg0.N = fun i => Spec.outK (argsK m c) (i 1) :=
  Final.final28_of (dats m 0 c) (fun n h => (outsAt0 m c n h).1) (Spec.outK (argsK m c))
    (fun t => Cert.KernelIdeal.ValueP.flushed28 m c t) (fun n h h24 => out_row_gen m c n h h24)

/-- the kernel's run, its result named -/
theorem run : θ_run (defs (F := Ideal)) (onTc (τ := τ) (main (F := Ideal))) ⟨m, fun _ => 0, ρ⟩ fun r => ∀ c : Dev nD,
      r.2.mem ((c : Thread nD τ).loc main_v34) = (fun i => Spec.outK (argsK m c) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final28 m c), (h c).2⟩)
    (Cert.KernelIdeal.ValueP.run_blocks m ρ)

end Cert.KernelIdeal.Hand

end
-- ==== Proof.RefRun.lean ====
/-
  The reference program's @main as one straight line of its 239 host operations, and its run.

  @main is given as three consecutive windows, and calls six outlined functions (a variance twice over, a
  rectifier, a leaky rectifier, and the two selects they call); a call executes the callee's body on the
  operands, so here every callee's operations stand at the call site, over that call's own buffers. In order:
  the mean of the global feature and its variance (23 operations of the callee), the normalisation, scale and
  shift, the rectifier (3), the linear layer; the source projection with its bias, split into 8 heads of 16
  channels; the target projection added to it, the leaky rectifier (7), the product with the attention vector
  summed over the 16 channels; the column maximum over the 100000 rows, the exponentials, their sum, the
  quotient, the weighted sum of the biased projection and the output bias — all of that once for each of the two
  source streams — then the two results side by side added to the global feature, and the same
  normalise / rectify / linear chain once more with the skip connection.

  The run: from any memory with zero counters every weakly fair execution of @main terminates, and each buffer
  ends at the fold of the operations' results, in order, over the launch contents.
-/
import proofs.«146274_g33088428049086_cont_sun_c4_530_10_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 239 operations, in order: its own 147 and, at each of the 8 calls, the callee's over that call's
    buffers (the two variance functions 23 each, nested select included; the rectifier 3; the leaky rectifier 7). -/
abbrev ops : List (HloOp τ sig (Elt F)) :=
  [ nullary main_cst (constant S_ .f32 0x00000000#32),
    binary main_arg2 main_cst main_v0 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v0 main_v1 (broadcastInDim S1x1 ![0] bcast_S1_S1x1_0 : (⟨S1, .f32⟩ : BufTy).Contents (Elt F) → (⟨S1x1, .f32⟩ : BufTy).Contents (Elt F)),
    nullary main_cst_0 (constant S_ .f32 0x43800000#32),
    unary main_cst_0 main_v2 (broadcastInDim S1x1 ![] bcast_S_S1x1 : (⟨S_, .f32⟩ : BufTy).Contents (Elt F) → (⟨S1x1, .f32⟩ : BufTy).Contents (Elt F)),
    binary main_v1 main_v2 main_v3 (Host.divf : (⟨S1x1, .f32⟩ : BufTy).Contents (Elt F) → (⟨S1x1, .f32⟩ : BufTy).Contents (Elt F) → (⟨S1x1, .f32⟩ : BufTy).Contents (Elt F)),
    nullary main_c (constantI S_ 32 0#32),
    TRef.nullary main_call0.cst (constant S_ .f32 0x00000000#32),
    TRef.binary (.of main_arg2) main_call0.cst main_call0.v0 (fun x v => Host.reduceAdd x v reducesTo_S1x256_S1_d1 h_S_),
    TRef.unary main_call0.v0 main_call0.v1 (broadcastInDim S1x1 ![0] bcast_S1_S1x1_0),
    TRef.nullary main_call0.cst_0 (constant S_ .f32 0x43800000#32),
    TRef.unary main_call0.cst_0 main_call0.v2 (broadcastInDim S1x1 ![] bcast_S_S1x1),
    TRef.binary main_call0.v1 main_call0.v2 main_call0.v3 Host.divf,
    TRef.unary main_call0.v3 main_call0.v4 (broadcastInDim S1x256 ![0, 1] bcast_S1x1_S1x256_0_1),
    TRef.binary (.of main_arg2) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256_S1_d1 h_S_),
    TRef.unary main_call0.v9 main_call0.v10 (broadcastInDim S1x1 ![0] bcast_S1_S1x1_0),
    TRef.unary main_call0.v8 main_call0.v11 (broadcastInDim S1x1 ![] bcast_S_S1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1 ![] bcast_S_S1x1),
    TRef.ternary main_call0.v13 main_call0.v12 main_call0.call0.v1 main_call0.call0.v2 (fun p a b => select (broadcastInDim S1x1 ![] bcast_S_S1x1 p) a b),
    unary main_v3 main_v5 (broadcastInDim S1x256 ![0, 1] bcast_S1x1_S1x256_0_1 : (⟨S1x1, .f32⟩ : BufTy).Contents (Elt F) → (⟨S1x256, .f32⟩ : BufTy).Contents (Elt F)),
    binary main_arg2 main_v5 main_v6 (subf : (⟨S1x256, .f32⟩ : BufTy).Contents (Elt F) → (⟨S1x256, .f32⟩ : BufTy).Contents (Elt F) → (⟨S1x256, .f32⟩ : BufTy).Contents (Elt F)),
    nullary main_cst_1 (constant S_ .f32 0x3727C5AC#32),
    unary main_cst_1 main_v7 (broadcastInDim S1x1 ![] bcast_S_S1x1 : (⟨S_, .f32⟩ : BufTy).Contents (Elt F) → (⟨S1x1, .f32⟩ : BufTy).Contents (Elt F)),
    binary main_v4 main_v7 main_v8 (addf : (⟨S1x1, .f32⟩ : BufTy).Contents (Elt F) → (⟨S1x1, .f32⟩ : BufTy).Contents (Elt F) → (⟨S1x1, .f32⟩ : BufTy).Contents (Elt F)),
    unary main_v8 main_v9 (Host.rsqrt : (⟨S1x1, .f32⟩ : BufTy).Contents (Elt F) → (⟨S1x1, .f32⟩ : BufTy).Contents (Elt F)),
    unary main_v9 main_v10 (broadcastInDim S1x256 ![0, 1] bcast_S1x1_S1x256_0_1 : (⟨S1x1, .f32⟩ : BufTy).Contents (Elt F) → (⟨S1x256, .f32⟩ : BufTy).Contents (Elt F)),
    binary main_v6 main_v10 main_v11 (mulf : (⟨S1x256, .f32⟩ : BufTy).Contents (Elt F) → (⟨S1x256, .f32⟩ : BufTy).Contents (Elt F) → (⟨S1x256, .f32⟩ : BufTy).Contents (Elt F)),
    unary main_arg3 main_v12 (broadcastInDim S1x256 ![1] bcast_S256_S1x256_1 : (⟨S256, .f32⟩ : BufTy).Contents (Elt F) → (⟨S1x256, .f32⟩ : BufTy).Contents (Elt F)),
    binary main_v11 main_v12 main_v13 (mulf : (⟨S1x256, .f32⟩ : BufTy).Contents (Elt F) → (⟨S1x256, .f32⟩ : BufTy).Contents (Elt F) → (⟨S1x256, .f32⟩ : BufTy).Contents (Elt F)),
    unary main_arg4 main_v14 (broadcastInDim S1x256 ![1] bcast_S256_S1x256_1 : (⟨S256, .f32⟩ : BufTy).Contents (Elt F) → (⟨S1x256, .f32⟩ : BufTy).Contents (Elt F)),
    binary main_v13 main_v14 main_v15 (addf : (⟨S1x256, .f32⟩ : BufTy).Contents (Elt F) → (⟨S1x256, .f32⟩ : BufTy).Contents (Elt F) → (⟨S1x256, .f32⟩ : BufTy).Contents (Elt F)),
    TRef.nullary main_call1.cst (constant S_ .f32 0x00000000#32),
    TRef.unary main_call1.cst main_call1.v0 (broadcastInDim S1x256 ![] bcast_S_S1x256),
    TRef.binary (.of main_v15) main_call1.v0 main_call1.v1 maximumf,
    binary main_v16 main_arg5 main_v17 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    binary main_v17 main_v18 main_v19 (addf : (⟨S1x128, .f32⟩ : BufTy).Contents (Elt F) → (⟨S1x128, .f32⟩ : BufTy).Contents (Elt F) → (⟨S1x128, .f32⟩ : BufTy).Contents (Elt F)),
    binary main_arg0 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    reshape main_v23 main_v24 rfl shapeCasts_S100000x128_S100000x8x16,
    binary main_v19 main_arg9 main_v25 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    binary main_v25 main_v26 main_v27 (addf : (⟨S1x128, .f32⟩ : BufTy).Contents (Elt F) → (⟨S1x128, .f32⟩ : BufTy).Contents (Elt F) → (⟨S1x128, .f32⟩ : BufTy).Contents (Elt F)),
    reshape main_v27 main_v28 rfl shapeCasts_S1x128_S1x8x16,
    unary main_v28 main_v29 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v24 main_v29 main_v30 (addf : (⟨S100000x8x16, .f32⟩ : BufTy).Contents (Elt F) → (⟨S100000x8x16, .f32⟩ : BufTy).Contents (Elt F) → (⟨S100000x8x16, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S100000x8x16 ![] bcast_S_S100000x8x16),
    TRef.binary (.of main_v30) main_call2.v0 main_call2.v1 (cmpf .oge),
    TRef.unary (.of main_cst_2) main_call2.v2 id,
    TRef.unary main_call2.v2 main_call2.v3 (broadcastInDim S100000x8x16 ![] bcast_S_S100000x8x16),
    TRef.binary main_call2.v3 (.of main_v30) main_call2.v4 mulf,
    TRef.ternary main_call2.v1 (.of main_v30) main_call2.v4 main_call2.call0.v0 select,
    unary main_arg11 main_v32 (broadcastInDim S1x8x16 ![1, 2] bcast_S8x16_S1x8x16_1_2 : (⟨S8x16, .f32⟩ : BufTy).Contents (Elt F) → (⟨S1x8x16, .f32⟩ : BufTy).Contents (Elt F)),
    unary main_v32 main_v33 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v31 main_v33 main_v34 (mulf : (⟨S100000x8x16, .f32⟩ : BufTy).Contents (Elt F) → (⟨S100000x8x16, .f32⟩ : BufTy).Contents (Elt F) → (⟨S100000x8x16, .f32⟩ : BufTy).Contents (Elt F)),
    nullary main_cst_3 (constant S_ .f32 0x00000000#32),
    binary main_v34 main_cst_3 main_v35 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_4 (constant S_ .f32 0xFF800000#32),
    binary main_v35 main_cst_4 main_v36 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_5 (constant S_ .f32 0xFF800000#32),
    unary main_cst_5 main_v37 (broadcastInDim S8 ![] bcast_S_S8 : (⟨S_, .f32⟩ : BufTy).Contents (Elt F) → (⟨S8, .f32⟩ : BufTy).Contents (Elt F)),
    binary main_v37 main_v36 main_v38 (maximumf : (⟨S8, .f32⟩ : BufTy).Contents (Elt F) → (⟨S8, .f32⟩ : BufTy).Contents (Elt F) → (⟨S8, .f32⟩ : BufTy).Contents (Elt F)),
    unary main_v38 main_v39 (broadcastInDim S1x8 ![1] bcast_S8_S1x8_1 : (⟨S8, .f32⟩ : BufTy).Contents (Elt F) → (⟨S1x8, .f32⟩ : BufTy).Contents (Elt F)),
    unary main_v39 main_v40 (broadcastInDim S100000x8 ![0, 1] bcast_S1x8_S100000x8_0_1 : (⟨S1x8, .f32⟩ : BufTy).Contents (Elt F) → (⟨S100000x8, .f32⟩ : BufTy).Contents (Elt F)),
    binary main_v35 main_v40 main_v41 (subf : (⟨S100000x8, .f32⟩ : BufTy).Contents (Elt F) → (⟨S100000x8, .f32⟩ : BufTy).Contents (Elt F) → (⟨S100000x8, .f32⟩ : BufTy).Contents (Elt F)),
    unary main_v41 main_v42 (Host.exp : (⟨S100000x8, .f32⟩ : BufTy).Contents (Elt F) → (⟨S100000x8, .f32⟩ : BufTy).Contents (Elt F)),
    nullary main_cst_6 (constant S_ .f32 0x00000000#32),
    binary main_v42 main_cst_6 main_v43 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v43 main_v44 (broadcastInDim S1x8 ![1] bcast_S8_S1x8_1 : (⟨S8, .f32⟩ : BufTy).Contents (Elt F) → (⟨S1x8, .f32⟩ : BufTy).Contents (Elt F)),
    unary main_v44 main_v45 (broadcastInDim S100000x8 ![0, 1] bcast_S1x8_S100000x8_0_1 : (⟨S1x8, .f32⟩ : BufTy).Contents (Elt F) → (⟨S100000x8, .f32⟩ : BufTy).Contents (Elt F)),
    binary main_v42 main_v45 main_v46 (Host.divf : (⟨S100000x8, .f32⟩ : BufTy).Contents (Elt F) → (⟨S100000x8, .f32⟩ : BufTy).Contents (Elt F) → (⟨S100000x8, .f32⟩ : BufTy).Contents (Elt F)),
    unary main_v46 main_v47 (broadcastInDim S100000x8x1 ![0, 1] bcast_S100000x8_S100000x8x1_0_1 : (⟨S100000x8, .f32⟩ : BufTy).Contents (Elt F) → (⟨S100000x8x1, .f32⟩ : BufTy).Contents (Elt F)),
    unary main_v47 main_v48 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v48 main_v24 main_v49 (mulf : (⟨S100000x8x16, .f32⟩ : BufTy).Contents (Elt F) → (⟨S100000x8x16, .f32⟩ : BufTy).Contents (Elt F) → (⟨S100000x8x16, .f32⟩ : BufTy).Contents (Elt F)),
    nullary main_cst_7 (constant S_ .f32 0x00000000#32),
    binary main_v49 main_cst_7 main_v50 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v50 main_v51 rfl shapeCasts_S8x16_S1x128,
    unary main_arg12 main_v52 (broadcastInDim S1x128 ![1] bcast_S128_S1x128_1 : (⟨S128, .f32⟩ : BufTy).Contents (Elt F) → (⟨S1x128, .f32⟩ : BufTy).Contents (Elt F)),
    binary main_v51 main_v52 main_v53 (addf : (⟨S1x128, .f32⟩ : BufTy).Contents (Elt F) → (⟨S1x128, .f32⟩ : BufTy).Contents (Elt F) → (⟨S1x128, .f32⟩ : BufTy).Contents (Elt F)),
    nullary main_cst_8 (constant S_ .f32 0x00000000#32),
    binary main_arg2 main_cst_8 main_v54 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v54 main_v55 (broadcastInDim S1x1 ![0] bcast_S1_S1x1_0 : (⟨S1, .f32⟩ : BufTy).Contents (Elt F) → (⟨S1x1, .f32⟩ : BufTy).Contents (Elt F)),
    nullary main_cst_9 (constant S_ .f32 0x43800000#32),
    unary main_cst_9 main_v56 (broadcastInDim S1x1 ![] bcast_S_S1x1 : (⟨S_, .f32⟩ : BufTy).Contents (Elt F) → (⟨S1x1, .f32⟩ : BufTy).Contents (Elt F)),
    binary main_v55 main_v56 main_v57 (Host.divf : (⟨S1x1, .f32⟩ : BufTy).Contents (Elt F) → (⟨S1x1, .f32⟩ : BufTy).Contents (Elt F) → (⟨S1x1, .f32⟩ : BufTy).Contents (Elt F)),
    nullary main_c_10 (constantI S_ 32 0#32),
    TRef.nullary main_call3.cst (constant S_ .f32 0x00000000#32),
    TRef.binary (.of main_arg2) main_call3.cst main_call3.v0 (fun x v => Host.reduceAdd x v reducesTo_S1x256_S1_d1 h_S_),
    TRef.unary main_call3.v0 main_call3.v1 (broadcastInDim S1x1 ![0] bcast_S1_S1x1_0),
    TRef.nullary main_call3.cst_0 (constant S_ .f32 0x43800000#32),
    TRef.unary main_call3.cst_0 main_call3.v2 (broadcastInDim S1x1 ![] bcast_S_S1x1),
    TRef.binary main_call3.v1 main_call3.v2 main_call3.v3 Host.divf,
    TRef.unary main_call3.v3 main_call3.v4 (broadcastInDim S1x256 ![0, 1] bcast_S1x1_S1x256_0_1),
    TRef.binary (.of main_arg2) main_call3.v4 main_call3.v5 subf,
    TRef.binary main_call3.v5 main_call3.v5 main_call3.v6 mulf,
    TRef.unary (.of main_c_10) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1x256_S1_d1 h_S_),
    TRef.unary main_call3.v9 main_call3.v10 (broadcastInDim S1x1 ![0] bcast_S1_S1x1_0),
    TRef.unary main_call3.v8 main_call3.v11 (broadcastInDim S1x1 ![] bcast_S_S1x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x1 ![] bcast_S_S1x1),
    TRef.ternary main_call3.v13 main_call3.v12 main_call3.call0.v1 main_call3.call0.v2 (fun p a b => select (broadcastInDim S1x1 ![] bcast_S_S1x1 p) a b),
    unary main_v57 main_v59 (broadcastInDim S1x256 ![0, 1] bcast_S1x1_S1x256_0_1 : (⟨S1x1, .f32⟩ : BufTy).Contents (Elt F) → (⟨S1x256, .f32⟩ : BufTy).Contents (Elt F)),
    binary main_arg2 main_v59 main_v60 (subf : (⟨S1x256, .f32⟩ : BufTy).Contents (Elt F) → (⟨S1x256, .f32⟩ : BufTy).Contents (Elt F) → (⟨S1x256, .f32⟩ : BufTy).Contents (Elt F)),
    nullary main_cst_11 (constant S_ .f32 0x3727C5AC#32),
    unary main_cst_11 main_v61 (broadcastInDim S1x1 ![] bcast_S_S1x1 : (⟨S_, .f32⟩ : BufTy).Contents (Elt F) → (⟨S1x1, .f32⟩ : BufTy).Contents (Elt F)),
    binary main_v58 main_v61 main_v62 (addf : (⟨S1x1, .f32⟩ : BufTy).Contents (Elt F) → (⟨S1x1, .f32⟩ : BufTy).Contents (Elt F) → (⟨S1x1, .f32⟩ : BufTy).Contents (Elt F)),
    unary main_v62 main_v63 (Host.rsqrt : (⟨S1x1, .f32⟩ : BufTy).Contents (Elt F) → (⟨S1x1, .f32⟩ : BufTy).Contents (Elt F)),
    unary main_v63 main_v64 (broadcastInDim S1x256 ![0, 1] bcast_S1x1_S1x256_0_1 : (⟨S1x1, .f32⟩ : BufTy).Contents (Elt F) → (⟨S1x256, .f32⟩ : BufTy).Contents (Elt F)),
    binary main_v60 main_v64 main_v65 (mulf : (⟨S1x256, .f32⟩ : BufTy).Contents (Elt F) → (⟨S1x256, .f32⟩ : BufTy).Contents (Elt F) → (⟨S1x256, .f32⟩ : BufTy).Contents (Elt F)),
    unary main_arg13 main_v66 (broadcastInDim S1x256 ![1] bcast_S256_S1x256_1 : (⟨S256, .f32⟩ : BufTy).Contents (Elt F) → (⟨S1x256, .f32⟩ : BufTy).Contents (Elt F)),
    binary main_v65 main_v66 main_v67 (mulf : (⟨S1x256, .f32⟩ : BufTy).Contents (Elt F) → (⟨S1x256, .f32⟩ : BufTy).Contents (Elt F) → (⟨S1x256, .f32⟩ : BufTy).Contents (Elt F)),
    unary main_arg14 main_v68 (broadcastInDim S1x256 ![1] bcast_S256_S1x256_1 : (⟨S256, .f32⟩ : BufTy).Contents (Elt F) → (⟨S1x256, .f32⟩ : BufTy).Contents (Elt F)),
    binary main_v67 main_v68 main_v69 (addf : (⟨S1x256, .f32⟩ : BufTy).Contents (Elt F) → (⟨S1x256, .f32⟩ : BufTy).Contents (Elt F) → (⟨S1x256, .f32⟩ : BufTy).Contents (Elt F)),
    TRef.nullary main_call4.cst (constant S_ .f32 0x00000000#32),
    TRef.unary main_call4.cst main_call4.v0 (broadcastInDim S1x256 ![] bcast_S_S1x256),
    TRef.binary (.of main_v69) main_call4.v0 main_call4.v1 maximumf,
    binary main_v70 main_arg15 main_v71 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg16 main_v72 (broadcastInDim S1x128 ![1] bcast_S128_S1x128_1 : (⟨S128, .f32⟩ : BufTy).Contents (Elt F) → (⟨S1x128, .f32⟩ : BufTy).Contents (Elt F)),
    binary main_v71 main_v72 main_v73 (addf : (⟨S1x128, .f32⟩ : BufTy).Contents (Elt F) → (⟨S1x128, .f32⟩ : BufTy).Contents (Elt F) → (⟨S1x128, .f32⟩ : BufTy).Contents (Elt F)),
    binary main_arg1 main_arg17 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    reshape main_v77 main_v78 rfl shapeCasts_S100000x128_S100000x8x16,
    binary main_v73 main_arg19 main_v79 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v80 (broadcastInDim S1x128 ![1] bcast_S128_S1x128_1 : (⟨S128, .f32⟩ : BufTy).Contents (Elt F) → (⟨S1x128, .f32⟩ : BufTy).Contents (Elt F)),
    binary main_v79 main_v80 main_v81 (addf : (⟨S1x128, .f32⟩ : BufTy).Contents (Elt F) → (⟨S1x128, .f32⟩ : BufTy).Contents (Elt F) → (⟨S1x128, .f32⟩ : BufTy).Contents (Elt F)),
    reshape main_v81 main_v82 rfl shapeCasts_S1x128_S1x8x16,
    unary main_v82 main_v83 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v78 main_v83 main_v84 (addf : (⟨S100000x8x16, .f32⟩ : BufTy).Contents (Elt F) → (⟨S100000x8x16, .f32⟩ : BufTy).Contents (Elt F) → (⟨S100000x8x16, .f32⟩ : BufTy).Contents (Elt F)),
    nullary main_cst_12 (constant S_ .f32 0x3E4CCCCD#32),
    TRef.nullary main_call5.cst (constant S_ .f32 0x00000000#32),
    TRef.unary main_call5.cst main_call5.v0 (broadcastInDim S100000x8x16 ![] bcast_S_S100000x8x16),
    TRef.binary (.of main_v84) main_call5.v0 main_call5.v1 (cmpf .oge),
    TRef.unary (.of main_cst_12) main_call5.v2 id,
    TRef.unary main_call5.v2 main_call5.v3 (broadcastInDim S100000x8x16 ![] bcast_S_S100000x8x16),
    TRef.binary main_call5.v3 (.of main_v84) main_call5.v4 mulf,
    TRef.ternary main_call5.v1 (.of main_v84) main_call5.v4 main_call5.call0.v0 select,
    unary main_arg21 main_v86 (broadcastInDim S1x8x16 ![1, 2] bcast_S8x16_S1x8x16_1_2 : (⟨S8x16, .f32⟩ : BufTy).Contents (Elt F) → (⟨S1x8x16, .f32⟩ : BufTy).Contents (Elt F)),
    unary main_v86 main_v87 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v85 main_v87 main_v88 (mulf : (⟨S100000x8x16, .f32⟩ : BufTy).Contents (Elt F) → (⟨S100000x8x16, .f32⟩ : BufTy).Contents (Elt F) → (⟨S100000x8x16, .f32⟩ : BufTy).Contents (Elt F)),
    nullary main_cst_13 (constant S_ .f32 0x00000000#32),
    binary main_v88 main_cst_13 main_v89 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_14 (constant S_ .f32 0xFF800000#32),
    binary main_v89 main_cst_14 main_v90 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_15 (constant S_ .f32 0xFF800000#32),
    unary main_cst_15 main_v91 (broadcastInDim S8 ![] bcast_S_S8 : (⟨S_, .f32⟩ : BufTy).Contents (Elt F) → (⟨S8, .f32⟩ : BufTy).Contents (Elt F)),
    binary main_v91 main_v90 main_v92 (maximumf : (⟨S8, .f32⟩ : BufTy).Contents (Elt F) → (⟨S8, .f32⟩ : BufTy).Contents (Elt F) → (⟨S8, .f32⟩ : BufTy).Contents (Elt F)),
    unary main_v92 main_v93 (broadcastInDim S1x8 ![1] bcast_S8_S1x8_1 : (⟨S8, .f32⟩ : BufTy).Contents (Elt F) → (⟨S1x8, .f32⟩ : BufTy).Contents (Elt F)),
    unary main_v93 main_v94 (broadcastInDim S100000x8 ![0, 1] bcast_S1x8_S100000x8_0_1 : (⟨S1x8, .f32⟩ : BufTy).Contents (Elt F) → (⟨S100000x8, .f32⟩ : BufTy).Contents (Elt F)),
    binary main_v89 main_v94 main_v95 (subf : (⟨S100000x8, .f32⟩ : BufTy).Contents (Elt F) → (⟨S100000x8, .f32⟩ : BufTy).Contents (Elt F) → (⟨S100000x8, .f32⟩ : BufTy).Contents (Elt F)),
    unary main_v95 main_v96 (Host.exp : (⟨S100000x8, .f32⟩ : BufTy).Contents (Elt F) → (⟨S100000x8, .f32⟩ : BufTy).Contents (Elt F)),
    nullary main_cst_16 (constant S_ .f32 0x00000000#32),
    binary main_v96 main_cst_16 main_v97 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v97 main_v98 (broadcastInDim S1x8 ![1] bcast_S8_S1x8_1 : (⟨S8, .f32⟩ : BufTy).Contents (Elt F) → (⟨S1x8, .f32⟩ : BufTy).Contents (Elt F)),
    unary main_v98 main_v99 (broadcastInDim S100000x8 ![0, 1] bcast_S1x8_S100000x8_0_1 : (⟨S1x8, .f32⟩ : BufTy).Contents (Elt F) → (⟨S100000x8, .f32⟩ : BufTy).Contents (Elt F)),
    binary main_v96 main_v99 main_v100 (Host.divf : (⟨S100000x8, .f32⟩ : BufTy).Contents (Elt F) → (⟨S100000x8, .f32⟩ : BufTy).Contents (Elt F) → (⟨S100000x8, .f32⟩ : BufTy).Contents (Elt F)),
    unary main_v100 main_v101 (broadcastInDim S100000x8x1 ![0, 1] bcast_S100000x8_S100000x8x1_0_1 : (⟨S100000x8, .f32⟩ : BufTy).Contents (Elt F) → (⟨S100000x8x1, .f32⟩ : BufTy).Contents (Elt F)),
    unary main_v101 main_v102 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v102 main_v78 main_v103 (mulf : (⟨S100000x8x16, .f32⟩ : BufTy).Contents (Elt F) → (⟨S100000x8x16, .f32⟩ : BufTy).Contents (Elt F) → (⟨S100000x8x16, .f32⟩ : BufTy).Contents (Elt F)),
    nullary main_cst_17 (constant S_ .f32 0x00000000#32),
    binary main_v103 main_cst_17 main_v104 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v104 main_v105 rfl shapeCasts_S8x16_S1x128,
    unary main_arg22 main_v106 (broadcastInDim S1x128 ![1] bcast_S128_S1x128_1 : (⟨S128, .f32⟩ : BufTy).Contents (Elt F) → (⟨S1x128, .f32⟩ : BufTy).Contents (Elt F)),
    binary main_v105 main_v106 main_v107 (addf : (⟨S1x128, .f32⟩ : BufTy).Contents (Elt F) → (⟨S1x128, .f32⟩ : BufTy).Contents (Elt F) → (⟨S1x128, .f32⟩ : BufTy).Contents (Elt F)),
    binary main_v53 main_v107 main_v108 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    binary main_arg2 main_v108 main_v109 (addf : (⟨S1x256, .f32⟩ : BufTy).Contents (Elt F) → (⟨S1x256, .f32⟩ : BufTy).Contents (Elt F) → (⟨S1x256, .f32⟩ : BufTy).Contents (Elt F)),
    nullary main_cst_18 (constant S_ .f32 0x00000000#32),
    binary main_v109 main_cst_18 main_v110 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v110 main_v111 (broadcastInDim S1x1 ![0] bcast_S1_S1x1_0 : (⟨S1, .f32⟩ : BufTy).Contents (Elt F) → (⟨S1x1, .f32⟩ : BufTy).Contents (Elt F)),
    nullary main_cst_19 (constant S_ .f32 0x43800000#32),
    unary main_cst_19 main_v112 (broadcastInDim S1x1 ![] bcast_S_S1x1 : (⟨S_, .f32⟩ : BufTy).Contents (Elt F) → (⟨S1x1, .f32⟩ : BufTy).Contents (Elt F)),
    binary main_v111 main_v112 main_v113 (Host.divf : (⟨S1x1, .f32⟩ : BufTy).Contents (Elt F) → (⟨S1x1, .f32⟩ : BufTy).Contents (Elt F) → (⟨S1x1, .f32⟩ : BufTy).Contents (Elt F)),
    nullary main_c_20 (constantI S_ 32 0#32),
    TRef.nullary main_call6.cst (constant S_ .f32 0x00000000#32),
    TRef.binary (.of main_v109) main_call6.cst main_call6.v0 (fun x v => Host.reduceAdd x v reducesTo_S1x256_S1_d1 h_S_),
    TRef.unary main_call6.v0 main_call6.v1 (broadcastInDim S1x1 ![0] bcast_S1_S1x1_0),
    TRef.nullary main_call6.cst_0 (constant S_ .f32 0x43800000#32),
    TRef.unary main_call6.cst_0 main_call6.v2 (broadcastInDim S1x1 ![] bcast_S_S1x1),
    TRef.binary main_call6.v1 main_call6.v2 main_call6.v3 Host.divf,
    TRef.unary main_call6.v3 main_call6.v4 (broadcastInDim S1x256 ![0, 1] bcast_S1x1_S1x256_0_1),
    TRef.binary (.of main_v109) main_call6.v4 main_call6.v5 subf,
    TRef.binary main_call6.v5 main_call6.v5 main_call6.v6 mulf,
    TRef.unary (.of main_c_20) main_call6.v7 (sitofp .f32),
    TRef.nullary main_call6.cst_1 (constant S_ .f32 0x43800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S1x256_S1_d1 h_S_),
    TRef.unary main_call6.v9 main_call6.v10 (broadcastInDim S1x1 ![0] bcast_S1_S1x1_0),
    TRef.unary main_call6.v8 main_call6.v11 (broadcastInDim S1x1 ![] bcast_S_S1x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x1 ![] bcast_S_S1x1),
    TRef.ternary main_call6.v13 main_call6.v12 main_call6.call0.v1 main_call6.call0.v2 (fun p a b => select (broadcastInDim S1x1 ![] bcast_S_S1x1 p) a b),
    unary main_v113 main_v115 (broadcastInDim S1x256 ![0, 1] bcast_S1x1_S1x256_0_1 : (⟨S1x1, .f32⟩ : BufTy).Contents (Elt F) → (⟨S1x256, .f32⟩ : BufTy).Contents (Elt F)),
    binary main_v109 main_v115 main_v116 (subf : (⟨S1x256, .f32⟩ : BufTy).Contents (Elt F) → (⟨S1x256, .f32⟩ : BufTy).Contents (Elt F) → (⟨S1x256, .f32⟩ : BufTy).Contents (Elt F)),
    nullary main_cst_21 (constant S_ .f32 0x3727C5AC#32),
    unary main_cst_21 main_v117 (broadcastInDim S1x1 ![] bcast_S_S1x1 : (⟨S_, .f32⟩ : BufTy).Contents (Elt F) → (⟨S1x1, .f32⟩ : BufTy).Contents (Elt F)),
    binary main_v114 main_v117 main_v118 (addf : (⟨S1x1, .f32⟩ : BufTy).Contents (Elt F) → (⟨S1x1, .f32⟩ : BufTy).Contents (Elt F) → (⟨S1x1, .f32⟩ : BufTy).Contents (Elt F)),
    unary main_v118 main_v119 (Host.rsqrt : (⟨S1x1, .f32⟩ : BufTy).Contents (Elt F) → (⟨S1x1, .f32⟩ : BufTy).Contents (Elt F)),
    unary main_v119 main_v120 (broadcastInDim S1x256 ![0, 1] bcast_S1x1_S1x256_0_1 : (⟨S1x1, .f32⟩ : BufTy).Contents (Elt F) → (⟨S1x256, .f32⟩ : BufTy).Contents (Elt F)),
    binary main_v116 main_v120 main_v121 (mulf : (⟨S1x256, .f32⟩ : BufTy).Contents (Elt F) → (⟨S1x256, .f32⟩ : BufTy).Contents (Elt F) → (⟨S1x256, .f32⟩ : BufTy).Contents (Elt F)),
    unary main_arg23 main_v122 (broadcastInDim S1x256 ![1] bcast_S256_S1x256_1 : (⟨S256, .f32⟩ : BufTy).Contents (Elt F) → (⟨S1x256, .f32⟩ : BufTy).Contents (Elt F)),
    binary main_v121 main_v122 main_v123 (mulf : (⟨S1x256, .f32⟩ : BufTy).Contents (Elt F) → (⟨S1x256, .f32⟩ : BufTy).Contents (Elt F) → (⟨S1x256, .f32⟩ : BufTy).Contents (Elt F)),
    unary main_arg24 main_v124 (broadcastInDim S1x256 ![1] bcast_S256_S1x256_1 : (⟨S256, .f32⟩ : BufTy).Contents (Elt F) → (⟨S1x256, .f32⟩ : BufTy).Contents (Elt F)),
    binary main_v123 main_v124 main_v125 (addf : (⟨S1x256, .f32⟩ : BufTy).Contents (Elt F) → (⟨S1x256, .f32⟩ : BufTy).Contents (Elt F) → (⟨S1x256, .f32⟩ : BufTy).Contents (Elt F)),
    TRef.nullary main_call7.cst (constant S_ .f32 0x00000000#32),
    TRef.unary main_call7.cst main_call7.v0 (broadcastInDim S1x256 ![] bcast_S_S1x256),
    TRef.binary (.of main_v125) main_call7.v0 main_call7.v1 maximumf,
    binary main_v126 main_arg25 main_v127 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg26 main_v128 (broadcastInDim S1x256 ![1] bcast_S256_S1x256_1 : (⟨S256, .f32⟩ : BufTy).Contents (Elt F) → (⟨S1x256, .f32⟩ : BufTy).Contents (Elt F)),
    binary main_v127 main_v128 main_v129 (addf : (⟨S1x256, .f32⟩ : BufTy).Contents (Elt F) → (⟨S1x256, .f32⟩ : BufTy).Contents (Elt F) → (⟨S1x256, .f32⟩ : BufTy).Contents (Elt F)),
    binary main_v109 main_v129 main_v130 (addf : (⟨S1x256, .f32⟩ : BufTy).Contents (Elt F) → (⟨S1x256, .f32⟩ : BufTy).Contents (Elt F) → (⟨S1x256, .f32⟩ : BufTy).Contents (Elt F)) ]

-- both sides are the same chain of steps once sequencing is computed through: one unfolding per statement
set_option maxRecDepth 16384 in
/-- @main is that straight line: the three windows and the callees' definitions unfolded at their calls, both
    sides compute to one and the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., binary_bufs_sub .., unary_bufs_sub .., binary_bufs_sub ..,
    nullary_bufs_sub .., unary_bufs_sub .., binary_bufs_sub .., binary_bufs_sub .., unary_bufs_sub .., binary_bufs_sub ..,
    binary_bufs_sub .., unary_bufs_sub .., unary_bufs_sub .., binary_bufs_sub .., reshape_bufs_sub .., binary_bufs_sub ..,
    unary_bufs_sub .., binary_bufs_sub .., reshape_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., binary_bufs_sub .., nullary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., unary_bufs_sub .., binary_bufs_sub .., nullary_bufs_sub ..,
    binary_bufs_sub .., reshape_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub .., unary_bufs_sub .., binary_bufs_sub .., nullary_bufs_sub .., unary_bufs_sub ..,
    binary_bufs_sub .., binary_bufs_sub .., unary_bufs_sub .., binary_bufs_sub .., binary_bufs_sub .., unary_bufs_sub ..,
    unary_bufs_sub .., binary_bufs_sub .., reshape_bufs_sub .., binary_bufs_sub .., unary_bufs_sub .., binary_bufs_sub ..,
    reshape_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., unary_bufs_sub .., binary_bufs_sub .., nullary_bufs_sub .., binary_bufs_sub .., reshape_bufs_sub ..,
    unary_bufs_sub .., binary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub .., unary_bufs_sub .., binary_bufs_sub .., nullary_bufs_sub .., unary_bufs_sub ..,
    binary_bufs_sub .., binary_bufs_sub .., unary_bufs_sub .., binary_bufs_sub .., binary_bufs_sub ..⟩

/-- Every operation determines its results: none of them leaves a buffer's contents open. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl⟩

/-- On the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.RefAgg.lean ====
/-
  One source stream's attention aggregation, as the whole program computes it, read as the specification's whole form.

  The stream: rows `X` (100000 of 128 lanes) are projected, `Y = X · Wl + bl`, and read as 8 heads of 16 channels
  (lane `16 h + c` is channel `c` of head `h`). With the target projection `xr` added on every row, the leaky ReLU
  `z ↦ if 0 ≤ z then z else slope · z` and the attention vector `att`, the logit of row `n` in head `h` is
  `l n h = ∑ c, leakyrelu (Y n h c + xr h c) · att h c`. Per head, `M h = max (-∞) (max over n of l n h)`,
  `e n h = exp (l n h - M h)`, `α n h = e n h / ∑ n', e n' h`. The result on lane `k` is
  `(∑ n, α n (k / 16) · Y n (k / 16) (k % 16)) + bias k`.

  First the layout operations of these shapes (broadcasts, the three reshapes), the sums over one axis from a zero
  initial value, the maximum over the rows and the matrix product are each read at an index given by its coordinates.
  Then the aggregation is written as one term, `refAgg`, with the sub-terms that occur more than once named
  (`refY`, `refLogits`, `refMax`, `refExp`, `refAlpha`), each is read at an index, and the readings are the
  specification's `ymat + bl`, `lgR`, `mxR`, `alphaR` and `aggR`.
-/
import proofs.«146274_g33088428049086_cont_sun_c4_530_10_alg».proof.ReferenceIdeal
import proofs.«146274_g33088428049086_cont_sun_c4_530_10_alg».proof.Proof.Spec
import Idealize.ShloMosaic.Lib.IdealHost
import Idealize.ShloMosaic.Lib.Pipeline.Value
import Idealize.ShloMosaic.Lib.StackMember

noncomputable section

namespace Cert.ReferenceIdeal.Hand

open Idealize.ShloMosaic Idealize.ShloMosaic.ValueIdx
open Cert.ReferenceIdeal Cert.ReferenceIdeal.Facts₀
open scoped BigOperators

/-! ## Layout operations of these shapes, read at an index -/

section Layout
variable {α : Type}

/-- a 128-vector laid as one row: entry (0, k) is entry k -/
theorem bc_vec_row (h : S128.BroadcastsInDim S1x128 ![1]) (x : S128.Idx → α) (p : Fin 1) (k : Fin 128) :
    broadcastInDim S1x128 ![1] h x (ix2 p k) = x (ix1 k) :=
  broadcastInDim_apply _ h x _ (ix1 k) (fun a => match a with | ⟨0, _⟩ => rfl)

/-- one row laid along 100000 rows: entry (n, k) is entry (0, k) -/
theorem bc_row_rows (h : S1x128.BroadcastsInDim S100000x128 ![0, 1]) (x : S1x128.Idx → α) (n : Fin 100000) (k : Fin 128) :
    broadcastInDim S100000x128 ![0, 1] h x (ix2 n k) = x (ix2 (0 : Fin 1) k) :=
  broadcastInDim_apply _ h x _ (ix2 (0 : Fin 1) k) (fun a => match a with | ⟨0, _⟩ => rfl | ⟨1, _⟩ => rfl)

/-- rows of 128 lanes read as 8 heads of 16 channels: entry (n, h, c) is lane 16 h + c of row n -/
theorem cast_rows_heads (h : S100000x128.ShapeCasts S100000x8x16) (x : S100000x128.Idx → α) (n : Fin 100000) (hh : Fin 8)
    (c : Fin 16) :
    shapeCast S100000x8x16 x h (ix3 n hh c) = x (ix2 n (⟨16 * hh.val + c.val, by omega⟩ : Fin 128)) :=
  shapeCast_apply x h _ _ (by
    rw [Shape.rowMajor_val_two, Shape.rowMajor_val_three]
    show n.val * 128 + (16 * hh.val + c.val) = (n.val * 8 + hh.val) * 16 + c.val
    omega)

/-- one row of 128 lanes read as 8 heads of 16 channels -/
theorem cast_row_heads (h : S1x128.ShapeCasts S1x8x16) (x : S1x128.Idx → α) (p : Fin 1) (hh : Fin 8) (c : Fin 16) :
    shapeCast S1x8x16 x h (ix3 p hh c) = x (ix2 (0 : Fin 1) (⟨16 * hh.val + c.val, by omega⟩ : Fin 128)) :=
  shapeCast_apply x h _ _ (by
    rw [Shape.rowMajor_val_two, Shape.rowMajor_val_three]
    have hp : p.val = 0 := by omega
    show 0 * 128 + (16 * hh.val + c.val) = (p.val * 8 + hh.val) * 16 + c.val
    omega)

/-- one [1, 8, 16] block laid along 100000 rows -/
theorem bc_block_rows (h : S1x8x16.BroadcastsInDim S100000x8x16 ![0, 1, 2]) (x : S1x8x16.Idx → α) (n : Fin 100000)
    (hh : Fin 8) (c : Fin 16) :
    broadcastInDim S100000x8x16 ![0, 1, 2] h x (ix3 n hh c) = x (ix3 (0 : Fin 1) hh c) :=
  broadcastInDim_apply _ h x _ (ix3 (0 : Fin 1) hh c)
    (fun a => match a with | ⟨0, _⟩ => rfl | ⟨1, _⟩ => rfl | ⟨2, _⟩ => rfl)

/-- an [8, 16] array given a leading unit axis -/
theorem bc_att_block (h : S8x16.BroadcastsInDim S1x8x16 ![1, 2]) (x : S8x16.Idx → α) (p : Fin 1) (hh : Fin 8) (c : Fin 16) :
    broadcastInDim S1x8x16 ![1, 2] h x (ix3 p hh c) = x (ix2 hh c) :=
  broadcastInDim_apply _ h x _ (ix2 hh c) (fun a => match a with | ⟨0, _⟩ => rfl | ⟨1, _⟩ => rfl)

/-- an 8-vector laid as one row -/
theorem bc_heads_row (h : S8.BroadcastsInDim S1x8 ![1]) (x : S8.Idx → α) (p : Fin 1) (hh : Fin 8) :
    broadcastInDim S1x8 ![1] h x (ix2 p hh) = x (ix1 hh) :=
  broadcastInDim_apply _ h x _ (ix1 hh) (fun a => match a with | ⟨0, _⟩ => rfl)

/-- one row of 8 laid along 100000 rows -/
theorem bc_headrow_rows (h : S1x8.BroadcastsInDim S100000x8 ![0, 1]) (x : S1x8.Idx → α) (n : Fin 100000) (hh : Fin 8) :
    broadcastInDim S100000x8 ![0, 1] h x (ix2 n hh) = x (ix2 (0 : Fin 1) hh) :=
  broadcastInDim_apply _ h x _ (ix2 (0 : Fin 1) hh) (fun a => match a with | ⟨0, _⟩ => rfl | ⟨1, _⟩ => rfl)

/-- a [100000, 8] array given a trailing unit axis -/
theorem bc_unit_last (h : S100000x8.BroadcastsInDim S100000x8x1 ![0, 1]) (x : S100000x8.Idx → α) (n : Fin 100000) (hh : Fin 8)
    (q : Fin 1) :
    broadcastInDim S100000x8x1 ![0, 1] h x (ix3 n hh q) = x (ix2 n hh) :=
  broadcastInDim_apply _ h x _ (ix2 n hh) (fun a => match a with | ⟨0, _⟩ => rfl | ⟨1, _⟩ => rfl)

/-- the trailing unit axis laid along 16 channels -/
theorem bc_channels (h : S100000x8x1.BroadcastsInDim S100000x8x16 ![0, 1, 2]) (x : S100000x8x1.Idx → α) (n : Fin 100000)
    (hh : Fin 8) (c : Fin 16) :
    broadcastInDim S100000x8x16 ![0, 1, 2] h x (ix3 n hh c) = x (ix3 n hh (0 : Fin 1)) :=
  broadcastInDim_apply _ h x _ (ix3 n hh (0 : Fin 1))
    (fun a => match a with | ⟨0, _⟩ => rfl | ⟨1, _⟩ => rfl | ⟨2, _⟩ => rfl)

/-- 8 heads of 16 channels read as one row of 128 lanes: lane k is channel k % 16 of head k / 16 -/
theorem cast_heads_row (h : S8x16.ShapeCasts S1x128) (x : S8x16.Idx → α) (p : Fin 1) (k : Fin 128) :
    shapeCast S1x128 x h (ix2 p k) = x (ix2 (⟨k.val / 16, by omega⟩ : Fin 8) (⟨k.val % 16, by omega⟩ : Fin 16)) :=
  shapeCast_apply x h _ _ (by
    rw [Shape.rowMajor_val_two, Shape.rowMajor_val_two]
    have hp : p.val = 0 := by omega
    show k.val / 16 * 16 + k.val % 16 = p.val * 128 + k.val
    omega)

end Layout

/-! ## A choice on a decided comparison -/

theorem select_ofBool {α : Type} (P : Prop) [Decidable P] (a b : α) :
    Scalar.select (BitVec.ofBool (decide P)) a b = if P then a else b := by
  by_cases hP : P
  · rw [if_pos hP, decide_eq_true hP]; exact select_one a b
  · rw [if_neg hP, decide_eq_false hP]; exact select_zero a b

/-! ## The sums and the maximum over one axis, read at an index -/

/-- a sum over one axis from a zero initial value -/
theorem reduceAdd_zero_single {s t : Shape} {a : Fin s.rank} (x : FVec Ideal s .f32) (h' : s.ReducesTo [a] t)
    (h : s.Reduces [a] t) (hu : 0 < S_.numel) (j : t.Idx) :
    Host.reduceAdd x (constant (F := Ideal) S_ .f32 0x00000000#32) h' hu j = ∑ k : Fin (s.size a), x (h.lift j k) := by
  rw [hostReduceAdd_apply, Ideal.hostReduceAdd_single h' h, constant_apply, Ideal.ofBits_zero_f32, zero_add]

theorem lift_channel (h : S100000x8x16.Reduces [2] S100000x8) (n : Fin 100000) (hh : Fin 8) (c : Fin (S100000x8x16.size 2)) :
    h.lift (ix2 n hh) c = ix3 n hh (⟨c.val, c.isLt⟩ : Fin 16) := by
  funext ax; apply Fin.ext
  fin_cases ax <;> rfl

theorem lift_row2 (h : S100000x8.Reduces [0] S8) (hh : Fin 8) (n : Fin (S100000x8.size 0)) :
    h.lift (ix1 hh) n = ix2 (⟨n.val, n.isLt⟩ : Fin 100000) hh := by
  funext ax; apply Fin.ext
  fin_cases ax <;> rfl

theorem lift_row3 (h : S100000x8x16.Reduces [0] S8x16) (hh : Fin 8) (c : Fin 16) (n : Fin (S100000x8x16.size 0)) :
    h.lift (ix2 hh c) n = ix3 (⟨n.val, n.isLt⟩ : Fin 100000) hh c := by
  funext ax; apply Fin.ext
  fin_cases ax <;> rfl

/-- the sum over the 16 channels -/
theorem sum_channels_apply (x : FVec Ideal S100000x8x16 .f32) (h' : S100000x8x16.ReducesTo [2] S100000x8) (hu : 0 < S_.numel)
    (n : Fin 100000) (hh : Fin 8) :
    Host.reduceAdd x (constant (F := Ideal) S_ .f32 0x00000000#32) h' hu (ix2 n hh) = ∑ c : Fin 16, x (ix3 n hh c) := by
  have h : S100000x8x16.Reduces [2] S100000x8 := by decide
  rw [reduceAdd_zero_single x h' h hu]
  exact Finset.sum_congr rfl (fun c _ => congrArg x (lift_channel h n hh c))

/-- the sum over the 100000 rows of a [100000, 8] array -/
theorem sum_rows2_apply (x : FVec Ideal S100000x8 .f32) (h' : S100000x8.ReducesTo [0] S8) (hu : 0 < S_.numel) (hh : Fin 8) :
    Host.reduceAdd x (constant (F := Ideal) S_ .f32 0x00000000#32) h' hu (ix1 hh) = ∑ n : Fin 100000, x (ix2 n hh) := by
  have h : S100000x8.Reduces [0] S8 := by decide
  rw [reduceAdd_zero_single x h' h hu]
  exact Finset.sum_congr rfl (fun n _ => congrArg x (lift_row2 h hh n))

/-- the sum over the 100000 rows of a [100000, 8, 16] array -/
theorem sum_rows3_apply (x : FVec Ideal S100000x8x16 .f32) (h' : S100000x8x16.ReducesTo [0] S8x16) (hu : 0 < S_.numel)
    (hh : Fin 8) (c : Fin 16) :
    Host.reduceAdd x (constant (F := Ideal) S_ .f32 0x00000000#32) h' hu (ix2 hh c) = ∑ n : Fin 100000, x (ix3 n hh c) := by
  have h : S100000x8x16.Reduces [0] S8x16 := by decide
  rw [reduceAdd_zero_single x h' h hu]
  exact Finset.sum_congr rfl (fun n _ => congrArg x (lift_row3 h hh c n))

/-- the maximum over the 100000 rows, from the word 0xFF800000 -/
theorem max_rows_apply (x : FVec Ideal S100000x8 .f32) (h' : S100000x8.ReducesTo [0] S8) (hu : 0 < S_.numel) (hh : Fin 8) :
    Host.reduce FloatOps.maximumf x (constant (F := Ideal) S_ .f32 0xFF800000#32) h' hu (ix1 hh)
      = (Finset.univ : Finset (Fin 100000)).fold max (Ideal.ofBits .f32 0xFF800000#32) (fun n => x (ix2 n hh)) := by
  have h : S100000x8.Reduces [0] S8 := by decide
  rw [Host.reduce_eq_fold_single FloatOps.maximumf x _ h' h hu]
  have hf : (x ∘ h.lift (ix1 hh)) = fun n : Fin 100000 => x (ix2 n hh) :=
    funext fun n => congrArg x (lift_row2 h hh n)
  exact congrArg (fun f => Finset.fold max (Ideal.ofBits .f32 0xFF800000#32) f (Finset.univ : Finset (Fin 100000))) hf

/-- the host's exponential at an index is the exponential of the element -/
theorem hostExp_apply {s : Shape} (x : FVec Ideal s .f32) (i : s.Idx) : Host.exp x i = Ideal.exp (x i) := rfl

/-- rows times a 128 x 128 matrix -/
theorem dot_rows_apply [Facts] (X : FVec Ideal S100000x128 .f32) (Wl : FVec Ideal S128x128 .f32) (n : Fin 100000) (k : Fin 128) :
    Host.dotGeneral dot_S100000x128_S128x128_S100000x128_1_0_0_1_n_n none X Wl (ix2 n k)
      = ∑ j : Fin 128, X (ix2 n j) * Wl (ix2 j k) :=
  StackMember.dotGeneral_plain_apply none X Wl n k

/-! ## One stream's aggregation, operation by operation -/

variable [Facts]

/-- the rows times the source weights, plus the source bias on every row -/
def refProj (X : FVec Ideal S100000x128 .f32) (Wl : FVec Ideal S128x128 .f32) (bl : FVec Ideal S128 .f32) :
    FVec Ideal S100000x128 .f32 :=
  addf (Host.dotGeneral dot_S100000x128_S128x128_S100000x128_1_0_0_1_n_n none X Wl)
    (broadcastInDim S100000x128 ![0, 1] bcast_S1x128_S100000x128_0_1 (broadcastInDim S1x128 ![1] bcast_S128_S1x128_1 bl))

/-- the projected rows as 8 heads of 16 channels -/
def refY (X : FVec Ideal S100000x128 .f32) (Wl : FVec Ideal S128x128 .f32) (bl : FVec Ideal S128 .f32) :
    FVec Ideal S100000x8x16 .f32 :=
  shapeCast S100000x8x16 (refProj X Wl bl) shapeCasts_S100000x128_S100000x8x16

/-- the attention input: the projected rows plus the target projection on every row -/
def refPre (X : FVec Ideal S100000x128 .f32) (Wl : FVec Ideal S128x128 .f32) (bl : FVec Ideal S128 .f32)
    (xr : FVec Ideal S1x128 .f32) : FVec Ideal S100000x8x16 .f32 :=
  addf (refY X Wl bl)
    (broadcastInDim S100000x8x16 ![0, 1, 2] bcast_S1x8x16_S100000x8x16_0_1_2
      (shapeCast S1x8x16 xr shapeCasts_S1x128_S1x8x16))

/-- the leaky ReLU as a choice on the sign -/
def refLrelu (z : FVec Ideal S100000x8x16 .f32) : FVec Ideal S100000x8x16 .f32 :=
  select
    (cmpf .oge z (broadcastInDim S100000x8x16 ![] bcast_S_S100000x8x16 (constant (F := Ideal) S_ .f32 0x00000000#32)))
    z
    (mulf (broadcastInDim S100000x8x16 ![] bcast_S_S100000x8x16 (id (constant (F := Ideal) S_ .f32 0x3E4CCCCD#32))) z)

/-- the logits per row and head -/
def refLogits (X : FVec Ideal S100000x128 .f32) (Wl : FVec Ideal S128x128 .f32) (bl : FVec Ideal S128 .f32)
    (xr : FVec Ideal S1x128 .f32) (att : FVec Ideal S8x16 .f32) : FVec Ideal S100000x8 .f32 :=
  Host.reduceAdd
    (mulf (refLrelu (refPre X Wl bl xr))
      (broadcastInDim S100000x8x16 ![0, 1, 2] bcast_S1x8x16_S100000x8x16_0_1_2
        (broadcastInDim S1x8x16 ![1, 2] bcast_S8x16_S1x8x16_1_2 att)))
    (constant (F := Ideal) S_ .f32 0x00000000#32) reducesTo_S100000x8x16_S100000x8_d2 h_S_

/-- the maximum of each head's logits over the rows -/
def refMax (X : FVec Ideal S100000x128 .f32) (Wl : FVec Ideal S128x128 .f32) (bl : FVec Ideal S128 .f32)
    (xr : FVec Ideal S1x128 .f32) (att : FVec Ideal S8x16 .f32) : FVec Ideal S8 .f32 :=
  maximumf (broadcastInDim S8 ![] bcast_S_S8 (constant (F := Ideal) S_ .f32 0xFF800000#32))
    (Host.reduce FloatOps.maximumf (refLogits X Wl bl xr att) (constant (F := Ideal) S_ .f32 0xFF800000#32)
      reducesTo_S100000x8_S8_d0 h_S_)

/-- the exponentials of the logits less their maximum -/
def refExp (X : FVec Ideal S100000x128 .f32) (Wl : FVec Ideal S128x128 .f32) (bl : FVec Ideal S128 .f32)
    (xr : FVec Ideal S1x128 .f32) (att : FVec Ideal S8x16 .f32) : FVec Ideal S100000x8 .f32 :=
  Host.exp (subf (refLogits X Wl bl xr att)
    (broadcastInDim S100000x8 ![0, 1] bcast_S1x8_S100000x8_0_1
      (broadcastInDim S1x8 ![1] bcast_S8_S1x8_1 (refMax X Wl bl xr att))))

/-- the softmax weights -/
def refAlpha (X : FVec Ideal S100000x128 .f32) (Wl : FVec Ideal S128x128 .f32) (bl : FVec Ideal S128 .f32)
    (xr : FVec Ideal S1x128 .f32) (att : FVec Ideal S8x16 .f32) : FVec Ideal S100000x8 .f32 :=
  Host.divf (refExp X Wl bl xr att)
    (broadcastInDim S100000x8 ![0, 1] bcast_S1x8_S100000x8_0_1
      (broadcastInDim S1x8 ![1] bcast_S8_S1x8_1
        (Host.reduceAdd (refExp X Wl bl xr att) (constant (F := Ideal) S_ .f32 0x00000000#32)
          reducesTo_S100000x8_S8_d0 h_S_)))

/-- the aggregation: the weighted sum of the projected rows as one row of 128 lanes, plus the output bias -/
def refAgg (X : FVec Ideal S100000x128 .f32) (Wl : FVec Ideal S128x128 .f32) (bl : FVec Ideal S128 .f32)
    (xr : FVec Ideal S1x128 .f32) (att : FVec Ideal S8x16 .f32) (bias : FVec Ideal S128 .f32) : FVec Ideal S1x128 .f32 :=
  addf
    (shapeCast S1x128
      (Host.reduceAdd
        (mulf
          (broadcastInDim S100000x8x16 ![0, 1, 2] bcast_S100000x8x1_S100000x8x16_0_1_2
            (broadcastInDim S100000x8x1 ![0, 1] bcast_S100000x8_S100000x8x1_0_1 (refAlpha X Wl bl xr att)))
          (refY X Wl bl))
        (constant (F := Ideal) S_ .f32 0x00000000#32) reducesTo_S100000x8x16_S8x16_d0 h_S_)
      shapeCasts_S8x16_S1x128)
    (broadcastInDim S1x128 ![1] bcast_S128_S1x128_1 bias)

/-! ## Each of them read at an index -/

section Read
variable (X : FVec Ideal S100000x128 .f32) (Wl : FVec Ideal S128x128 .f32) (bl : FVec Ideal S128 .f32)
  (xr : FVec Ideal S1x128 .f32) (att : FVec Ideal S8x16 .f32) (bias : FVec Ideal S128 .f32)

theorem refProj_apply (n : Fin 100000) (k : Fin 128) :
    refProj X Wl bl (ix2 n k) = (∑ j : Fin 128, X (ix2 n j) * Wl (ix2 j k)) + bl (ix1 k) := by
  unfold refProj
  rw [addf_apply, dot_rows_apply, bc_row_rows, bc_vec_row]

theorem refY_apply (n : Fin 100000) (hh : Fin 8) (c : Fin 16) :
    refY X Wl bl (ix3 n hh c) = refProj X Wl bl (ix2 n (⟨16 * hh.val + c.val, by omega⟩ : Fin 128)) := by
  unfold refY
  exact cast_rows_heads _ _ n hh c

theorem refPre_apply (n : Fin 100000) (hh : Fin 8) (c : Fin 16) :
    refPre X Wl bl xr (ix3 n hh c)
      = refY X Wl bl (ix3 n hh c) + xr (ix2 (0 : Fin 1) (⟨16 * hh.val + c.val, by omega⟩ : Fin 128)) := by
  unfold refPre
  rw [addf_apply, bc_block_rows, cast_row_heads]

theorem refLrelu_apply (z : FVec Ideal S100000x8x16 .f32) (i : S100000x8x16.Idx) :
    refLrelu z i = if 0 ≤ z i then z i else Ideal.ofBits .f32 0x3E4CCCCD#32 * z i := by
  unfold refLrelu
  rw [select_apply, cmpf_apply, mulf_apply, broadcastInDim_scalar_apply, broadcastInDim_scalar_apply]
  show Scalar.select (Ideal.cmp .oge (z i) (Ideal.ofBits .f32 0x00000000#32)) (z i)
    (Ideal.ofBits .f32 0x3E4CCCCD#32 * z i) = _
  rw [Ideal.ofBits_zero_f32]
  exact select_ofBool (0 ≤ z i) _ _

theorem refLogits_apply (n : Fin 100000) (hh : Fin 8) :
    refLogits X Wl bl xr att (ix2 n hh)
      = ∑ c : Fin 16, refLrelu (refPre X Wl bl xr) (ix3 n hh c) * att (ix2 hh c) := by
  unfold refLogits
  rw [sum_channels_apply]
  refine Finset.sum_congr rfl (fun c _ => ?_)
  rw [mulf_apply, bc_block_rows, bc_att_block]

theorem refMax_apply (hh : Fin 8) :
    refMax X Wl bl xr att (ix1 hh)
      = max (Ideal.ofBits .f32 0xFF800000#32)
          ((Finset.univ : Finset (Fin 100000)).fold max (Ideal.ofBits .f32 0xFF800000#32)
            (fun n => refLogits X Wl bl xr att (ix2 n hh))) := by
  unfold refMax
  rw [maximumf_apply, broadcastInDim_scalar_apply, constant_apply, max_rows_apply]

theorem refExp_apply (n : Fin 100000) (hh : Fin 8) :
    refExp X Wl bl xr att (ix2 n hh)
      = Ideal.exp (refLogits X Wl bl xr att (ix2 n hh) - refMax X Wl bl xr att (ix1 hh)) := by
  unfold refExp
  rw [hostExp_apply, subf_apply, bc_headrow_rows, bc_heads_row]

theorem refAlpha_apply (n : Fin 100000) (hh : Fin 8) :
    refAlpha X Wl bl xr att (ix2 n hh)
      = Ideal.div (refExp X Wl bl xr att (ix2 n hh)) (∑ n' : Fin 100000, refExp X Wl bl xr att (ix2 n' hh)) := by
  unfold refAlpha
  rw [hostDivf_apply, bc_headrow_rows, bc_heads_row, sum_rows2_apply]

theorem refAgg_apply (p : Fin 1) (k : Fin 128) :
    refAgg X Wl bl xr att bias (ix2 p k)
      = (∑ n : Fin 100000, refAlpha X Wl bl xr att (ix2 n (⟨k.val / 16, by omega⟩ : Fin 8))
            * refY X Wl bl (ix3 n (⟨k.val / 16, by omega⟩ : Fin 8) (⟨k.val % 16, by omega⟩ : Fin 16)))
          + bias (ix1 k) := by
  unfold refAgg
  rw [addf_apply, bc_vec_row, cast_heads_row, sum_rows3_apply]
  refine congrArg₂ (· + ·) (Finset.sum_congr rfl (fun n _ => ?_)) rfl
  rw [mulf_apply, bc_channels, bc_unit_last]

/-! ## … and as the specification's terms -/

theorem refY_eq (n : Fin 100000) (hh : Fin 8) (c : Fin 16) :
    refY X Wl bl (ix3 n hh c)
      = Spec.ymat (fun n j => X (ix2 n j)) (fun j k => Wl (ix2 j k)) n (Spec.lane hh c) + bl (ix1 (Spec.lane hh c)) := by
  rw [refY_apply, refProj_apply]
  rfl

theorem refLogits_eq (n : Fin 100000) (hh : Fin 8) :
    refLogits X Wl bl xr att (ix2 n hh)
      = Spec.lgR (fun n j => X (ix2 n j)) (fun j k => Wl (ix2 j k)) (fun j => bl (ix1 j)) (fun k => xr (ix2 0 k))
          (fun h c => att (ix2 h c)) n hh := by
  rw [refLogits_apply]
  unfold Spec.lgR
  refine Finset.sum_congr rfl (fun c _ => ?_)
  rw [refLrelu_apply, refPre_apply, refY_eq]
  rfl

theorem refMax_eq (hh : Fin 8) :
    refMax X Wl bl xr att (ix1 hh)
      = Spec.mxR (fun n j => X (ix2 n j)) (fun j k => Wl (ix2 j k)) (fun j => bl (ix1 j)) (fun k => xr (ix2 0 k))
          (fun h c => att (ix2 h c)) hh := by
  rw [refMax_apply]
  simp only [refLogits_eq]
  rfl

theorem refAlpha_eq (n : Fin 100000) (hh : Fin 8) :
    refAlpha X Wl bl xr att (ix2 n hh)
      = Spec.alphaR (fun n j => X (ix2 n j)) (fun j k => Wl (ix2 j k)) (fun j => bl (ix1 j)) (fun k => xr (ix2 0 k))
          (fun h c => att (ix2 h c)) n hh := by
  rw [refAlpha_apply]
  simp only [refExp_apply, refLogits_eq, refMax_eq]
  rfl

/-- One stream's aggregation, as the program computes it, is the specification's whole form. -/
theorem refAgg_eq :
    refAgg X Wl bl xr att bias
      = fun i => Cert.Spec.aggR (fun n j => X (ValueIdx.ix2 n j)) (fun j k => Wl (ValueIdx.ix2 j k))
          (fun j => bl (ValueIdx.ix1 j)) (fun k => xr (ValueIdx.ix2 0 k)) (fun h c => att (ValueIdx.ix2 h c))
          (fun k => bias (ValueIdx.ix1 k)) (i 1) := by
  funext i
  obtain ⟨p, q, rfl⟩ : ∃ (p : Fin 1) (q : Fin 128), i = ix2 p q := ⟨i 0, i 1, eq_ix2 i⟩
  rw [refAgg_apply]
  simp only [refAlpha_eq, refY_eq]
  have hl : Spec.lane (⟨q.val / 16, by omega⟩ : Fin 8) (⟨q.val % 16, by omega⟩ : Fin 16) = q :=
    Fin.ext (by simp only [Spec.lane]; omega)
  rw [hl]
  rfl

end Read

end Cert.ReferenceIdeal.Hand

end
-- ==== Proof.SpecConsts.lean ====
/-
  The four float words the specification names, as extended reals: 256; a positive epsilon; a slope strictly between
  zero and one; minus infinity.
-/
import proofs.«146274_g33088428049086_cont_sun_c4_530_10_alg».proof.Proof.Spec

noncomputable section

namespace Cert.Spec

open Idealize.ShloMosaic

/-- the word 0x43800000 is 256 -/
theorem c256_eq : c256 = ((256 : ℝ) : EReal) := by
  simp [c256, Ideal.ofBits, Ideal.ieee, -EReal.coe_mul]; norm_num

/-- the word 0x3727C5AC is a positive real -/
theorem ceps_pos : ∃ e : ℝ, 0 < e ∧ ceps = (e : EReal) := by
  simp [ceps, Ideal.ofBits, Ideal.ieee, -EReal.coe_mul]

/-- the word 0x3E4CCCCD is a real strictly between zero and one -/
theorem cslope_mem : ∃ a : ℝ, 0 < a ∧ a < 1 ∧ cslope = (a : EReal) := by
  simp [cslope, Ideal.ofBits, Ideal.ieee, -EReal.coe_mul]; norm_num

/-- the word 0xFF800000 is minus infinity -/
theorem cbot_eq : cbot = ⊥ := by
  simp [cbot, Ideal.ofBits, Ideal.ieee]

end Cert.Spec

end
-- ==== Proof.RefValue.lean ====
/-
  The reference program's prologue, target projection and epilogue as values: each stage written as the composition of
  the operations the program performs, in their order, and read at an index as the specification's formula.
-/
import proofs.«146274_g33088428049086_cont_sun_c4_530_10_alg».proof.ReferenceIdeal
import proofs.«146274_g33088428049086_cont_sun_c4_530_10_alg».proof.Proof.Spec
import proofs.«146274_g33088428049086_cont_sun_c4_530_10_alg».proof.Proof.SpecConsts
import proofs.«146274_g33088428049086_cont_sun_c4_530_10_alg».proof.Proof.RefAgg
import Idealize.ShloMosaic.Lib.IdealHost
import Idealize.ShloMosaic.Lib.Pipeline.Value

noncomputable section

namespace Cert.ReferenceIdeal.Hand

open Idealize.ShloMosaic Idealize.ShloMosaic.ValueIdx
open Cert.ReferenceIdeal

variable [Facts]
open Facts₀ Facts

/-! ## Reading a row sum -/

/-- one row of 256 reduces along its second axis to one entry -/
theorem red256 : S1x256.Reduces [1] S1 := by decide

/-- the source index over the one result entry with `k` on the reduced axis is `(0, k)` -/
theorem lift256 (j : S1.Idx) (k : Fin 256) : red256.lift j k = ix2 (0 : Fin 1) k := by
  funext c
  match c with
  | ⟨0, h0⟩ =>
    apply Fin.ext
    have hlt : (red256.lift j k ⟨0, h0⟩).val < 1 := (red256.lift j k ⟨0, h0⟩).isLt
    show (red256.lift j k ⟨0, h0⟩).val = 0
    omega
  | ⟨1, _⟩ => rfl

/-! ## The mean -/

/-- the mean of a row as the program takes it: the row sum from zero, broadcast, divided by the broadcast 256 -/
def refMean (x : FVec Ideal S1x256 .f32) : FVec Ideal S1x1 .f32 :=
  Host.divf
    (broadcastInDim S1x1 ![0] bcast_S1_S1x1_0
      (Host.reduceAdd x (constant (F := Ideal) S_ .f32 0x00000000#32) reducesTo_S1x256_S1_d1 h_S_))
    (broadcastInDim S1x1 ![] bcast_S_S1x1 (constant (F := Ideal) S_ .f32 0x43800000#32))

/-- the row sum from zero, at its one entry, is the sum of the row -/
theorem rowSum_apply (x : FVec Ideal S1x256 .f32) (j : S1.Idx) :
    Host.reduceAdd x (constant (F := Ideal) S_ .f32 0x00000000#32) reducesTo_S1x256_S1_d1 h_S_ j
      = ∑ k : Fin 256, x (ix2 0 k) := by
  rw [hostReduceAdd_apply, Ideal.hostReduceAdd_single reducesTo_S1x256_S1_d1 red256, constant_apply,
    Ideal.ofBits_zero_f32, zero_add]
  exact Finset.sum_congr rfl fun k _ => congrArg x (lift256 j k)

/-- the program's mean is the specification's -/
theorem refMean_apply (x : FVec Ideal S1x256 .f32) (i : S1x1.Idx) :
    refMean x i = Cert.Spec.mean (fun j => x (ix2 0 j)) := by
  unfold refMean Cert.Spec.mean Cert.Spec.c256
  rw [hostDivf_apply, broadcastInDim_scalar_apply, constant_apply]
  rw [broadcastInDim_apply ![0] bcast_S1_S1x1_0 _ i (ix1 (0 : Fin 1)) (by intro a; match a with | ⟨0, _⟩ => rfl)]
  rw [rowSum_apply]

/-! ## The variance -/

/-- the divisor of the variance: 256 less the degrees-of-freedom argument (the integer zero) as a float -/
def refDof : FVec Ideal S_ .f32 :=
  subf (constant (F := Ideal) S_ .f32 0x43800000#32) (sitofp .f32 (constantI S_ 32 0#32))

/-- the squared deviations from the mean -/
def refSq (x : FVec Ideal S1x256 .f32) : FVec Ideal S1x256 .f32 :=
  mulf (subf x (broadcastInDim S1x256 ![0, 1] bcast_S1x1_S1x256_0_1 (refMean x)))
    (subf x (broadcastInDim S1x256 ![0, 1] bcast_S1x1_S1x256_0_1 (refMean x)))

/-- the variance: the sum of the squared deviations over the divisor where the divisor is positive, else the
    not-a-number word -/
def refVar (x : FVec Ideal S1x256 .f32) : FVec Ideal S1x1 .f32 :=
  (fun p a b => select (broadcastInDim S1x1 ![] bcast_S_S1x1 p) a b)
    (cmpf .ogt refDof (constant (F := Ideal) S_ .f32 0x00000000#32))
    (Host.divf
      (broadcastInDim S1x1 ![0] bcast_S1_S1x1_0
        (Host.reduceAdd (refSq x) (constant (F := Ideal) S_ .f32 0x00000000#32) reducesTo_S1x256_S1_d1 h_S_))
      (broadcastInDim S1x1 ![] bcast_S_S1x1 refDof))
    (broadcastInDim S1x1 ![] bcast_S_S1x1 (id (constant (F := Ideal) S_ .f32 0x7FC00000#32)))

/-- the divisor is 256: the integer zero converts to the real zero -/
theorem refDof_apply (i : S_.Idx) : refDof i = Cert.Spec.c256 := by
  unfold refDof Cert.Spec.c256
  rw [subf_apply, constant_apply, sitofp_apply]
  show Ideal.ofBits .f32 0x43800000#32 - (((constantI S_ 32 0#32 i).toInt : ℝ) : EReal) = _
  have h0 : (constantI S_ 32 0#32 i).toInt = 0 := rfl
  rw [h0, Int.cast_zero, EReal.coe_zero, sub_zero]

/-- a one-row array broadcast over its own shape's unit row reads the one entry -/
theorem bcastRow_apply (v : FVec Ideal S1x1 .f32) (k : Fin 256) :
    broadcastInDim S1x256 ![0, 1] bcast_S1x1_S1x256_0_1 v (ix2 (0 : Fin 1) k) = v (ix2 (0 : Fin 1) (0 : Fin 1)) :=
  broadcastInDim_apply ![0, 1] bcast_S1x1_S1x256_0_1 v _ (ix2 (0 : Fin 1) (0 : Fin 1))
    (by intro a; match a with | ⟨0, _⟩ => rfl | ⟨1, _⟩ => rfl)

/-- a squared deviation at an entry -/
theorem refSq_apply (x : FVec Ideal S1x256 .f32) (k : Fin 256) :
    refSq x (ix2 0 k) = (x (ix2 0 k) - Cert.Spec.mean (fun j => x (ix2 0 j)))
      * (x (ix2 0 k) - Cert.Spec.mean (fun j => x (ix2 0 j))) := by
  unfold refSq
  rw [mulf_apply, subf_apply, bcastRow_apply, refMean_apply]

/-- the program's variance is the mean of the squared deviations: the divisor 256 is positive, so the selection takes
    the quotient -/
theorem refVar_apply (x : FVec Ideal S1x256 .f32) (i : S1x1.Idx) :
    refVar x i = Cert.Spec.mean (fun k => (x (ix2 0 k) - Cert.Spec.mean (fun j => x (ix2 0 j)))
      * (x (ix2 0 k) - Cert.Spec.mean (fun j => x (ix2 0 j)))) := by
  have hpos : (0 : EReal) < Cert.Spec.c256 := by
    rw [Cert.Spec.c256_eq]; exact EReal.coe_pos.mpr (by norm_num)
  have hc : broadcastInDim S1x1 ![] bcast_S_S1x1
      (cmpf .ogt refDof (constant (F := Ideal) S_ .f32 0x00000000#32)) i = 1#1 := by
    rw [broadcastInDim_scalar_apply, cmpf_apply, Ideal.cmpf_def, refDof_apply, constant_apply, Ideal.ofBits_zero_f32]
    show BitVec.ofBool (decide ((0 : EReal) < Cert.Spec.c256)) = 1#1
    rw [decide_eq_true hpos]; rfl
  show Scalar.select (broadcastInDim S1x1 ![] bcast_S_S1x1
      (cmpf .ogt refDof (constant (F := Ideal) S_ .f32 0x00000000#32)) i) _ _ = _
  rw [hc, select_one, hostDivf_apply, broadcastInDim_scalar_apply, refDof_apply]
  rw [broadcastInDim_apply ![0] bcast_S1_S1x1_0 _ i (ix1 (0 : Fin 1)) (by intro a; match a with | ⟨0, _⟩ => rfl)]
  rw [rowSum_apply]
  unfold Cert.Spec.mean
  exact congrArg (fun s => Ideal.div s Cert.Spec.c256) (Finset.sum_congr rfl fun k _ => refSq_apply x k)

/-! ## LayerNorm -/

/-- LayerNorm of a row: deviations from the mean, times the reciprocal root of variance plus epsilon, times the scale,
    plus the shift -/
def refLn (x : FVec Ideal S1x256 .f32) (s b : FVec Ideal S256 .f32) : FVec Ideal S1x256 .f32 :=
  addf
    (mulf
      (mulf
        (subf x (broadcastInDim S1x256 ![0, 1] bcast_S1x1_S1x256_0_1 (refMean x)))
        (broadcastInDim S1x256 ![0, 1] bcast_S1x1_S1x256_0_1
          (Host.rsqrt
            (addf (refVar x)
              (broadcastInDim S1x1 ![] bcast_S_S1x1 (constant (F := Ideal) S_ .f32 0x3727C5AC#32))))))
      (broadcastInDim S1x256 ![1] bcast_S256_S1x256_1 s))
    (broadcastInDim S1x256 ![1] bcast_S256_S1x256_1 b)

/-- a vector laid along the row reads its own entry -/
theorem bcastVec_apply (v : FVec Ideal S256 .f32) (k : Fin 256) :
    broadcastInDim S1x256 ![1] bcast_S256_S1x256_1 v (ix2 (0 : Fin 1) k) = v (ix1 k) :=
  broadcastInDim_apply ![1] bcast_S256_S1x256_1 v _ (ix1 k) (by intro a; match a with | ⟨0, _⟩ => rfl)

/-- every index of a row of 256 is `(0, k)` -/
theorem eq_row256 (i : S1x256.Idx) : ∃ k : Fin 256, i = ix2 (0 : Fin 1) k :=
  ⟨i 1, by
    funext a
    match a with
    | ⟨0, h0⟩ =>
      apply Fin.ext
      have hlt : (i ⟨0, h0⟩).val < 1 := (i ⟨0, h0⟩).isLt
      show (i ⟨0, h0⟩).val = 0
      omega
    | ⟨1, _⟩ => rfl⟩

/-- every index of a row of 128 is `(0, k)` -/
theorem eq_row128 (i : S1x128.Idx) : ∃ k : Fin 128, i = ix2 (0 : Fin 1) k :=
  ⟨i 1, by
    funext a
    match a with
    | ⟨0, h0⟩ =>
      apply Fin.ext
      have hlt : (i ⟨0, h0⟩).val < 1 := (i ⟨0, h0⟩).isLt
      show (i ⟨0, h0⟩).val = 0
      omega
    | ⟨1, _⟩ => rfl⟩

/-- the program's LayerNorm at an entry is the specification's -/
theorem refLn_apply (x : FVec Ideal S1x256 .f32) (s b : FVec Ideal S256 .f32) (k : Fin 256) :
    refLn x s b (ix2 0 k)
      = Cert.Spec.lnorm (fun j => x (ix2 0 j)) (fun j => s (ix1 j)) (fun j => b (ix1 j)) k := by
  unfold refLn Cert.Spec.lnorm Cert.Spec.ceps
  rw [addf_apply, mulf_apply, mulf_apply, subf_apply, bcastRow_apply, bcastRow_apply, bcastVec_apply, bcastVec_apply,
    refMean_apply]
  show _ * Ideal.rsqrt (addf (refVar x) _ (ix2 (0 : Fin 1) (0 : Fin 1))) * _ + _ = _
  rw [addf_apply, refVar_apply, broadcastInDim_scalar_apply, constant_apply]

/-- the program's LayerNorm is the specification's -/
theorem refLn_eq (x : FVec Ideal S1x256 .f32) (s b : FVec Ideal S256 .f32) :
    refLn x s b = fun i => Cert.Spec.lnorm (fun j => x (ix2 0 j)) (fun j => s (ix1 j)) (fun j => b (ix1 j)) (i 1) := by
  funext i
  obtain ⟨k, rfl⟩ := eq_row256 i
  exact refLn_apply x s b k

/-! ## ReLU and the projection into a stream's feature space -/

/-- the maximum with the broadcast zero -/
def refRelu (x : FVec Ideal S1x256 .f32) : FVec Ideal S1x256 .f32 :=
  maximumf x (broadcastInDim S1x256 ![] bcast_S_S1x256 (constant (F := Ideal) S_ .f32 0x00000000#32))

theorem refRelu_apply (x : FVec Ideal S1x256 .f32) (i : S1x256.Idx) : refRelu x i = Cert.Spec.relu (x i) := by
  unfold refRelu Cert.Spec.relu
  rw [maximumf_apply, broadcastInDim_scalar_apply, constant_apply, Ideal.ofBits_zero_f32]

/-- a row times a 256 x 128 matrix, plus the bias laid along the row -/
def refGProj (y : FVec Ideal S1x256 .f32) (W : FVec Ideal S256x128 .f32) (b : FVec Ideal S128 .f32) :
    FVec Ideal S1x128 .f32 :=
  addf ((fun l r => Host.dotGeneral dot_S1x256_S256x128_S1x128_1_0_0_1_n_n none l r) y W)
    (broadcastInDim S1x128 ![1] bcast_S128_S1x128_1 b)

/-- a row times a 256 x 128 matrix at an entry: the sum over the shared axis -/
theorem dot256x128_apply (l : FVec Ideal S1x256 .f32) (r : FVec Ideal S256x128 .f32) (q : Fin 128) :
    Host.dotGeneral dot_S1x256_S256x128_S1x128_1_0_0_1_n_n none l r (ix2 (0 : Fin 1) q)
      = ∑ k : Fin 256, l (ix2 0 k) * r (ix2 k q) := by
  simp only [Host.dotGeneral]
  rw [Ideal.dotGeneral_apply]
  rw [← Equiv.sum_comp (contrEquiv1 dot_S1x256_S256x128_S1x128_1_0_0_1_n_n 256 rfl rfl).symm]
  refine Finset.sum_congr rfl fun k _ => ?_
  have hl : dot_S1x256_S256x128_S1x128_1_0_0_1_n_n.lhsIdx (ix2 (0 : Fin 1) q)
      ((contrEquiv1 dot_S1x256_S256x128_S1x128_1_0_0_1_n_n 256 rfl rfl).symm k) = ix2 (0 : Fin 1) k := by
    funext a
    match a with
    | ⟨0, _⟩ => exact Fin.ext rfl
    | ⟨1, _⟩ => exact Fin.ext rfl
  have hr : dot_S1x256_S256x128_S1x128_1_0_0_1_n_n.rhsIdx (ix2 (0 : Fin 1) q)
      ((contrEquiv1 dot_S1x256_S256x128_S1x128_1_0_0_1_n_n 256 rfl rfl).symm k) = ix2 k q := by
    funext a
    match a with
    | ⟨0, _⟩ => exact Fin.ext rfl
    | ⟨1, _⟩ => exact Fin.ext rfl
  rw [hl, hr]

/-- a 128-vector laid along the row reads its own entry -/
theorem bcastVec128_apply (v : FVec Ideal S128 .f32) (k : Fin 128) :
    broadcastInDim S1x128 ![1] bcast_S128_S1x128_1 v (ix2 (0 : Fin 1) k) = v (ix1 k) :=
  broadcastInDim_apply ![1] bcast_S128_S1x128_1 v _ (ix1 k) (by intro a; match a with | ⟨0, _⟩ => rfl)

theorem refGProj_row (y : FVec Ideal S1x256 .f32) (W : FVec Ideal S256x128 .f32) (b : FVec Ideal S128 .f32)
    (q : Fin 128) :
    refGProj y W b (ix2 0 q) = Cert.Spec.lin (fun j => y (ix2 0 j)) (fun j k => W (ix2 j k)) (fun k => b (ix1 k)) q := by
  unfold refGProj Cert.Spec.lin
  rw [addf_apply, bcastVec128_apply]
  show Host.dotGeneral dot_S1x256_S256x128_S1x128_1_0_0_1_n_n none y W (ix2 (0 : Fin 1) q) + _ = _
  rw [dot256x128_apply]

/-! ## The target projection of an aggregation -/

/-- a row of 128 times a 128 x 128 matrix, plus the bias laid along the row -/
def refXr (xv : FVec Ideal S1x128 .f32) (Wr : FVec Ideal S128x128 .f32) (br : FVec Ideal S128 .f32) :
    FVec Ideal S1x128 .f32 :=
  addf ((fun l r => Host.dotGeneral dot_S1x128_S128x128_S1x128_1_0_0_1_n_n none l r) xv Wr)
    (broadcastInDim S1x128 ![1] bcast_S128_S1x128_1 br)

/-- a row times a 128 x 128 matrix at an entry: the sum over the shared axis -/
theorem dot128x128_apply (l : FVec Ideal S1x128 .f32) (r : FVec Ideal S128x128 .f32) (q : Fin 128) :
    Host.dotGeneral dot_S1x128_S128x128_S1x128_1_0_0_1_n_n none l r (ix2 (0 : Fin 1) q)
      = ∑ k : Fin 128, l (ix2 0 k) * r (ix2 k q) := by
  simp only [Host.dotGeneral]
  rw [Ideal.dotGeneral_apply]
  rw [← Equiv.sum_comp (contrEquiv1 dot_S1x128_S128x128_S1x128_1_0_0_1_n_n 128 rfl rfl).symm]
  refine Finset.sum_congr rfl fun k _ => ?_
  have hl : dot_S1x128_S128x128_S1x128_1_0_0_1_n_n.lhsIdx (ix2 (0 : Fin 1) q)
      ((contrEquiv1 dot_S1x128_S128x128_S1x128_1_0_0_1_n_n 128 rfl rfl).symm k) = ix2 (0 : Fin 1) k := by
    funext a
    match a with
    | ⟨0, _⟩ => exact Fin.ext rfl
    | ⟨1, _⟩ => exact Fin.ext rfl
  have hr : dot_S1x128_S128x128_S1x128_1_0_0_1_n_n.rhsIdx (ix2 (0 : Fin 1) q)
      ((contrEquiv1 dot_S1x128_S128x128_S1x128_1_0_0_1_n_n 128 rfl rfl).symm k) = ix2 k q := by
    funext a
    match a with
    | ⟨0, _⟩ => exact Fin.ext rfl
    | ⟨1, _⟩ => exact Fin.ext rfl
  rw [hl, hr]

theorem refXr_apply (xv : FVec Ideal S1x128 .f32) (Wr : FVec Ideal S128x128 .f32) (br : FVec Ideal S128 .f32)
    (q : Fin 128) :
    refXr xv Wr br (ix2 0 q)
      = Cert.Spec.xrR (fun k => xv (ix2 0 k)) (fun j k => Wr (ix2 j k)) (fun k => br (ix1 k)) q := by
  unfold refXr Cert.Spec.xrR Cert.Spec.vecmat
  rw [addf_apply, bcastVec128_apply]
  show Host.dotGeneral dot_S1x128_S128x128_S1x128_1_0_0_1_n_n none xv Wr (ix2 (0 : Fin 1) q) + _ = _
  rw [dot128x128_apply]

/-- the program's target projection is the specification's -/
theorem refXr_eq (xv : FVec Ideal S1x128 .f32) (Wr : FVec Ideal S128x128 .f32) (br : FVec Ideal S128 .f32) :
    refXr xv Wr br
      = fun i => Cert.Spec.xrR (fun k => xv (ix2 0 k)) (fun j k => Wr (ix2 j k)) (fun k => br (ix1 k)) (i 1) := by
  funext i
  obtain ⟨q, rfl⟩ := eq_row128 i
  exact refXr_apply xv Wr br q

/-- LayerNorm, ReLU and the projection together are the specification's projected global feature -/
theorem refG_apply (g : FVec Ideal S1x256 .f32) (s b : FVec Ideal S256 .f32) (W : FVec Ideal S256x128 .f32)
    (bb : FVec Ideal S128 .f32) (q : Fin 128) :
    refGProj (refRelu (refLn g s b)) W bb (ix2 0 q)
      = Cert.Spec.gproj (fun j => g (ix2 0 j)) (fun j => s (ix1 j)) (fun j => b (ix1 j)) (fun j k => W (ix2 j k))
          (fun k => bb (ix1 k)) q := by
  rw [refGProj_row]
  unfold Cert.Spec.gproj
  simp only [refRelu_apply, refLn_apply]

/-- the aggregation read at an entry of its row -/
theorem refAgg_row (X : FVec Ideal S100000x128 .f32) (Wl : FVec Ideal S128x128 .f32) (bl : FVec Ideal S128 .f32)
    (xr : FVec Ideal S1x128 .f32) (att : FVec Ideal S8x16 .f32) (bias : FVec Ideal S128 .f32) (q : Fin 128) :
    refAgg X Wl bl xr att bias (ix2 0 q)
      = Cert.Spec.aggR (fun n j => X (ix2 n j)) (fun j k => Wl (ix2 j k)) (fun j => bl (ix1 j))
          (fun k => xr (ix2 0 k)) (fun h c => att (ix2 h c)) (fun k => bias (ix1 k)) q := by
  rw [refAgg_eq]

/-! ## The epilogue -/

/-- the skip connection: the global feature plus the two aggregations side by side -/
def refSkip (g : FVec Ideal S1x256 .f32) (v2g s2g : FVec Ideal S1x128 .f32) : FVec Ideal S1x256 .f32 :=
  addf g
    ((fun a b => concatenate S1x256 1 [⟨S1x128, a⟩, ⟨S1x128, b⟩] concatenates_S1x128_S1x128_S1x256_d1) v2g s2g)

/-- the skip connection at an entry: the left aggregation below 128, the right one from 128 on -/
theorem refSkip_apply (g : FVec Ideal S1x256 .f32) (v2g s2g : FVec Ideal S1x128 .f32) (k : Fin 256) :
    refSkip g v2g s2g (ix2 0 k)
      = g (ix2 0 k) + Cert.Spec.cat (fun j => v2g (ix2 0 j)) (fun j => s2g (ix2 0 j)) k := by
  unfold refSkip Cert.Spec.cat
  rw [addf_apply]
  show _ + concatenate S1x256 1 [⟨S1x128, v2g⟩, ⟨S1x128, s2g⟩] concatenates_S1x128_S1x128_S1x256_d1
    (ix2 (0 : Fin 1) k) = _
  by_cases h : k.val < 128
  · rw [dif_pos h]
    rw [concatenate_pair_apply_left (1 : Fin 2) v2g s2g concatenates_S1x128_S1x128_S1x256_d1 (ix2 (0 : Fin 1) k) rfl
      (ix2 (0 : Fin 1) (⟨k.val, h⟩ : Fin 128)) (by intro b; match b with | ⟨0, _⟩ => rfl | ⟨1, _⟩ => rfl)]
  · rw [dif_neg h]
    rw [concatenate_pair_apply_right (1 : Fin 2) v2g s2g concatenates_S1x128_S1x128_S1x256_d1 (ix2 (0 : Fin 1) k) rfl
      rfl (ix2 (0 : Fin 1) (⟨k.val - 128, by omega⟩ : Fin 128))
      (by intro b hb; match b, hb with | ⟨0, _⟩, _ => rfl | ⟨1, _⟩, hb => exact absurd rfl hb)
      (by show k.val - 128 + 128 = k.val; omega)]

/-- a row times a 256 x 256 matrix at an entry: the sum over the shared axis -/
theorem dot256x256_apply (l : FVec Ideal S1x256 .f32) (r : FVec Ideal S256x256 .f32) (q : Fin 256) :
    Host.dotGeneral dot_S1x256_S256x256_S1x256_1_0_0_1_n_n none l r (ix2 (0 : Fin 1) q)
      = ∑ k : Fin 256, l (ix2 0 k) * r (ix2 k q) := by
  simp only [Host.dotGeneral]
  rw [Ideal.dotGeneral_apply]
  rw [← Equiv.sum_comp (contrEquiv1 dot_S1x256_S256x256_S1x256_1_0_0_1_n_n 256 rfl rfl).symm]
  refine Finset.sum_congr rfl fun k _ => ?_
  have hl : dot_S1x256_S256x256_S1x256_1_0_0_1_n_n.lhsIdx (ix2 (0 : Fin 1) q)
      ((contrEquiv1 dot_S1x256_S256x256_S1x256_1_0_0_1_n_n 256 rfl rfl).symm k) = ix2 (0 : Fin 1) k := by
    funext a
    match a with
    | ⟨0, _⟩ => exact Fin.ext rfl
    | ⟨1, _⟩ => exact Fin.ext rfl
  have hr : dot_S1x256_S256x256_S1x256_1_0_0_1_n_n.rhsIdx (ix2 (0 : Fin 1) q)
      ((contrEquiv1 dot_S1x256_S256x256_S1x256_1_0_0_1_n_n 256 rfl rfl).symm k) = ix2 k q := by
    funext a
    match a with
    | ⟨0, _⟩ => exact Fin.ext rfl
    | ⟨1, _⟩ => exact Fin.ext rfl
  rw [hl, hr]

/-- the epilogue: skip connection, LayerNorm, ReLU, the 256 x 256 layer with its bias, and the skip connection again -/
def refEpi (g : FVec Ideal S1x256 .f32) (v2g s2g : FVec Ideal S1x128 .f32) (lns lnb : FVec Ideal S256 .f32)
    (W : FVec Ideal S256x256 .f32) (b : FVec Ideal S256 .f32) : FVec Ideal S1x256 .f32 :=
  addf (refSkip g v2g s2g)
    (addf
      ((fun l r => Host.dotGeneral dot_S1x256_S256x256_S1x256_1_0_0_1_n_n none l r)
        (refRelu (refLn (refSkip g v2g s2g) lns lnb)) W)
      (broadcastInDim S1x256 ![1] bcast_S256_S1x256_1 b))

theorem refEpi_apply (g : FVec Ideal S1x256 .f32) (v2g s2g : FVec Ideal S1x128 .f32) (lns lnb : FVec Ideal S256 .f32)
    (W : FVec Ideal S256x256 .f32) (b : FVec Ideal S256 .f32) (k : Fin 256) :
    refEpi g v2g s2g lns lnb W b (ix2 0 k)
      = Cert.Spec.epi (fun j => g (ix2 0 j)) (fun j => v2g (ix2 0 j)) (fun j => s2g (ix2 0 j))
          (fun j => lns (ix1 j)) (fun j => lnb (ix1 j)) (fun j k => W (ix2 j k)) (fun j => b (ix1 j)) k := by
  unfold refEpi Cert.Spec.epi Cert.Spec.lin
  rw [addf_apply, addf_apply, bcastVec_apply, refSkip_apply]
  show _ + (Host.dotGeneral dot_S1x256_S256x256_S1x256_1_0_0_1_n_n none
    (refRelu (refLn (refSkip g v2g s2g) lns lnb)) W (ix2 (0 : Fin 1) k) + _) = _
  rw [dot256x256_apply]
  simp only [refRelu_apply, refLn_apply, refSkip_apply]

/-- the program's epilogue is the specification's -/
theorem refEpi_eq (g : FVec Ideal S1x256 .f32) (v2g s2g : FVec Ideal S1x128 .f32) (lns lnb : FVec Ideal S256 .f32)
    (W : FVec Ideal S256x256 .f32) (b : FVec Ideal S256 .f32) :
    refEpi g v2g s2g lns lnb W b
      = fun i => Cert.Spec.epi (fun j => g (ix2 0 j)) (fun j => v2g (ix2 0 j)) (fun j => s2g (ix2 0 j))
          (fun j => lns (ix1 j)) (fun j => lnb (ix1 j)) (fun j k => W (ix2 j k)) (fun j => b (ix1 j)) (i 1) := by
  funext i
  obtain ⟨k, rfl⟩ := eq_row256 i
  exact refEpi_apply g v2g s2g lns lnb W b k

/-! ## The whole program -/

/-- the program's result from its 27 arguments -/
def refOut
    (a0 : FVec Ideal S100000x128 .f32) (a1 : FVec Ideal S100000x128 .f32) (a2 : FVec Ideal S1x256 .f32)
    (a3 : FVec Ideal S256 .f32) (a4 : FVec Ideal S256 .f32) (a5 : FVec Ideal S256x128 .f32)
    (a6 : FVec Ideal S128 .f32) (a7 : FVec Ideal S128x128 .f32) (a8 : FVec Ideal S128 .f32)
    (a9 : FVec Ideal S128x128 .f32) (a10 : FVec Ideal S128 .f32) (a11 : FVec Ideal S8x16 .f32)
    (a12 : FVec Ideal S128 .f32) (a13 : FVec Ideal S256 .f32) (a14 : FVec Ideal S256 .f32)
    (a15 : FVec Ideal S256x128 .f32) (a16 : FVec Ideal S128 .f32) (a17 : FVec Ideal S128x128 .f32)
    (a18 : FVec Ideal S128 .f32) (a19 : FVec Ideal S128x128 .f32) (a20 : FVec Ideal S128 .f32)
    (a21 : FVec Ideal S8x16 .f32) (a22 : FVec Ideal S128 .f32) (a23 : FVec Ideal S256 .f32)
    (a24 : FVec Ideal S256 .f32) (a25 : FVec Ideal S256x256 .f32) (a26 : FVec Ideal S256 .f32) :
    FVec Ideal S1x256 .f32 :=
  refEpi a2
    (refAgg a0 a7 a8 (refXr (refGProj (refRelu (refLn a2 a3 a4)) a5 a6) a9 a10) a11 a12)
    (refAgg a1 a17 a18 (refXr (refGProj (refRelu (refLn a2 a13 a14)) a15 a16) a19 a20) a21 a22)
    a23 a24 a25 a26

/-- the 27 arguments read through plain indices -/
def argsOf
    (a0 : FVec Ideal S100000x128 .f32) (a1 : FVec Ideal S100000x128 .f32) (a2 : FVec Ideal S1x256 .f32)
    (a3 : FVec Ideal S256 .f32) (a4 : FVec Ideal S256 .f32) (a5 : FVec Ideal S256x128 .f32)
    (a6 : FVec Ideal S128 .f32) (a7 : FVec Ideal S128x128 .f32) (a8 : FVec Ideal S128 .f32)
    (a9 : FVec Ideal S128x128 .f32) (a10 : FVec Ideal S128 .f32) (a11 : FVec Ideal S8x16 .f32)
    (a12 : FVec Ideal S128 .f32) (a13 : FVec Ideal S256 .f32) (a14 : FVec Ideal S256 .f32)
    (a15 : FVec Ideal S256x128 .f32) (a16 : FVec Ideal S128 .f32) (a17 : FVec Ideal S128x128 .f32)
    (a18 : FVec Ideal S128 .f32) (a19 : FVec Ideal S128x128 .f32) (a20 : FVec Ideal S128 .f32)
    (a21 : FVec Ideal S8x16 .f32) (a22 : FVec Ideal S128 .f32) (a23 : FVec Ideal S256 .f32)
    (a24 : FVec Ideal S256 .f32) (a25 : FVec Ideal S256x256 .f32) (a26 : FVec Ideal S256 .f32) :
    Cert.Spec.Args where
    xv := fun n j => a0 (ix2 n j)
    xs := fun n j => a1 (ix2 n j)
    g := fun j => a2 (ix2 0 j)
    ln_g2v_s := fun j => a3 (ix1 j)
    ln_g2v_b := fun j => a4 (ix1 j)
    W_g2v := fun j k => a5 (ix2 j k)
    b_g2v := fun j => a6 (ix1 j)
    Wl_v := fun j k => a7 (ix2 j k)
    bl_v := fun j => a8 (ix1 j)
    Wr_v := fun j k => a9 (ix2 j k)
    br_v := fun j => a10 (ix1 j)
    att_v := fun h c => a11 (ix2 h c)
    bias_v := fun j => a12 (ix1 j)
    ln_g2s_s := fun j => a13 (ix1 j)
    ln_g2s_b := fun j => a14 (ix1 j)
    W_g2s := fun j k => a15 (ix2 j k)
    b_g2s := fun j => a16 (ix1 j)
    Wl_s := fun j k => a17 (ix2 j k)
    bl_s := fun j => a18 (ix1 j)
    Wr_s := fun j k => a19 (ix2 j k)
    br_s := fun j => a20 (ix1 j)
    att_s := fun h c => a21 (ix2 h c)
    bias_s := fun j => a22 (ix1 j)
    ln_pre_s := fun j => a23 (ix1 j)
    ln_pre_b := fun j => a24 (ix1 j)
    W_mlp := fun j k => a25 (ix2 j k)
    b_mlp := fun j => a26 (ix1 j)

/-- the program computes the specification's whole form on its arguments -/
theorem refOut_eq
    (a0 : FVec Ideal S100000x128 .f32) (a1 : FVec Ideal S100000x128 .f32) (a2 : FVec Ideal S1x256 .f32)
    (a3 : FVec Ideal S256 .f32) (a4 : FVec Ideal S256 .f32) (a5 : FVec Ideal S256x128 .f32)
    (a6 : FVec Ideal S128 .f32) (a7 : FVec Ideal S128x128 .f32) (a8 : FVec Ideal S128 .f32)
    (a9 : FVec Ideal S128x128 .f32) (a10 : FVec Ideal S128 .f32) (a11 : FVec Ideal S8x16 .f32)
    (a12 : FVec Ideal S128 .f32) (a13 : FVec Ideal S256 .f32) (a14 : FVec Ideal S256 .f32)
    (a15 : FVec Ideal S256x128 .f32) (a16 : FVec Ideal S128 .f32) (a17 : FVec Ideal S128x128 .f32)
    (a18 : FVec Ideal S128 .f32) (a19 : FVec Ideal S128x128 .f32) (a20 : FVec Ideal S128 .f32)
    (a21 : FVec Ideal S8x16 .f32) (a22 : FVec Ideal S128 .f32) (a23 : FVec Ideal S256 .f32)
    (a24 : FVec Ideal S256 .f32) (a25 : FVec Ideal S256x256 .f32) (a26 : FVec Ideal S256 .f32) :
    refOut a0 a1 a2 a3 a4 a5 a6 a7 a8 a9 a10 a11 a12 a13 a14 a15 a16 a17 a18 a19 a20 a21 a22 a23 a24 a25 a26
      = fun i => Cert.Spec.outR (argsOf a0 a1 a2 a3 a4 a5 a6 a7 a8 a9 a10 a11 a12 a13 a14 a15 a16 a17 a18 a19 a20 a21 a22 a23 a24 a25 a26) (i 1) := by
  funext i
  obtain ⟨k, rfl⟩ := eq_row256 i
  unfold refOut
  rw [refEpi_apply]
  simp only [refAgg_row, refXr_apply, refG_apply]
  rfl

end Cert.ReferenceIdeal.Hand

end
-- ==== Proof.RefOut.lean ====
/-
  What the reference program leaves in its result buffer, and its run read against the specification.

  The 239 operations are folded over the launch contents; at the result buffer the fold is, operation by
  operation, the term the stage functions spell: LayerNorm, ReLU and the linear layer on the global feature, the two
  attention aggregations, the two results side by side added to the global feature, and the epilogue. Every
  argument buffer keeps its launch contents: the operations write buffers of index 27 and above, the 27 arguments
  lie below.
-/
import proofs.«146274_g33088428049086_cont_sun_c4_530_10_alg».proof.Proof.RefRun
import proofs.«146274_g33088428049086_cont_sun_c4_530_10_alg».proof.Proof.RefAgg
import proofs.«146274_g33088428049086_cont_sun_c4_530_10_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## What the line leaves alone -/

section Kept

variable {F : FTy → Type} [FloatOps F]

/-- a buffer whose index lies below every index a line writes keeps its contents through the line -/
theorem kept_of_low {n : ℕ} (l : List (HloOp τ sig (Elt F))) (V : Valuation τ sig (Elt F))
    (h : l.Forall fun op => ∀ b ∈ op.writes, n ≤ b.idx.val) {r : Ref sig .tc} (hr : r.idx.val < n) :
    after l V (Proc.devRef .tc r) = V (Proc.devRef .tc r) :=
  after_of_forall_not_mem l V fun op hop hb =>
    absurd ((List.forall_iff_forall_mem.mp h) op hop _ hb) (Nat.not_le.mpr hr)

/-- the one buffer an operation writes, with its index bounded below -/
theorem low_single {n : ℕ} {y : Ref sig .tc} (h : n ≤ y.idx.val) :
    ∀ b ∈ ({(y : DevRef τ sig)} : Finset (DevRef τ sig)), n ≤ b.idx.val := fun b hb => by
  rw [Finset.mem_singleton.mp hb]; exact h

/-- every operation writes a buffer of index 27 or more: the 27 arguments lie below -/
theorem ops_low : (ops : List (HloOp τ sig (Elt F))).Forall fun op => ∀ b ∈ op.writes, 27 ≤ b.idx.val :=
  ⟨low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide), low_single (by decide),
    low_single (by decide), low_single (by decide), low_single (by decide), low_single (by decide)⟩

theorem arg_kept_0 (V : Valuation τ sig (Elt F)) :
    after ops V (main_arg0 : DevRef τ sig) = V (main_arg0 : DevRef τ sig) :=
  kept_of_low ops V ops_low (by decide)
theorem arg_kept_1 (V : Valuation τ sig (Elt F)) :
    after ops V (main_arg1 : DevRef τ sig) = V (main_arg1 : DevRef τ sig) :=
  kept_of_low ops V ops_low (by decide)
theorem arg_kept_2 (V : Valuation τ sig (Elt F)) :
    after ops V (main_arg2 : DevRef τ sig) = V (main_arg2 : DevRef τ sig) :=
  kept_of_low ops V ops_low (by decide)
theorem arg_kept_3 (V : Valuation τ sig (Elt F)) :
    after ops V (main_arg3 : DevRef τ sig) = V (main_arg3 : DevRef τ sig) :=
  kept_of_low ops V ops_low (by decide)
theorem arg_kept_4 (V : Valuation τ sig (Elt F)) :
    after ops V (main_arg4 : DevRef τ sig) = V (main_arg4 : DevRef τ sig) :=
  kept_of_low ops V ops_low (by decide)
theorem arg_kept_5 (V : Valuation τ sig (Elt F)) :
    after ops V (main_arg5 : DevRef τ sig) = V (main_arg5 : DevRef τ sig) :=
  kept_of_low ops V ops_low (by decide)
theorem arg_kept_6 (V : Valuation τ sig (Elt F)) :
    after ops V (main_arg6 : DevRef τ sig) = V (main_arg6 : DevRef τ sig) :=
  kept_of_low ops V ops_low (by decide)
theorem arg_kept_7 (V : Valuation τ sig (Elt F)) :
    after ops V (main_arg7 : DevRef τ sig) = V (main_arg7 : DevRef τ sig) :=
  kept_of_low ops V ops_low (by decide)
theorem arg_kept_8 (V : Valuation τ sig (Elt F)) :
    after ops V (main_arg8 : DevRef τ sig) = V (main_arg8 : DevRef τ sig) :=
  kept_of_low ops V ops_low (by decide)
theorem arg_kept_9 (V : Valuation τ sig (Elt F)) :
    after ops V (main_arg9 : DevRef τ sig) = V (main_arg9 : DevRef τ sig) :=
  kept_of_low ops V ops_low (by decide)
theorem arg_kept_10 (V : Valuation τ sig (Elt F)) :
    after ops V (main_arg10 : DevRef τ sig) = V (main_arg10 : DevRef τ sig) :=
  kept_of_low ops V ops_low (by decide)
theorem arg_kept_11 (V : Valuation τ sig (Elt F)) :
    after ops V (main_arg11 : DevRef τ sig) = V (main_arg11 : DevRef τ sig) :=
  kept_of_low ops V ops_low (by decide)
theorem arg_kept_12 (V : Valuation τ sig (Elt F)) :
    after ops V (main_arg12 : DevRef τ sig) = V (main_arg12 : DevRef τ sig) :=
  kept_of_low ops V ops_low (by decide)
theorem arg_kept_13 (V : Valuation τ sig (Elt F)) :
    after ops V (main_arg13 : DevRef τ sig) = V (main_arg13 : DevRef τ sig) :=
  kept_of_low ops V ops_low (by decide)
theorem arg_kept_14 (V : Valuation τ sig (Elt F)) :
    after ops V (main_arg14 : DevRef τ sig) = V (main_arg14 : DevRef τ sig) :=
  kept_of_low ops V ops_low (by decide)
theorem arg_kept_15 (V : Valuation τ sig (Elt F)) :
    after ops V (main_arg15 : DevRef τ sig) = V (main_arg15 : DevRef τ sig) :=
  kept_of_low ops V ops_low (by decide)
theorem arg_kept_16 (V : Valuation τ sig (Elt F)) :
    after ops V (main_arg16 : DevRef τ sig) = V (main_arg16 : DevRef τ sig) :=
  kept_of_low ops V ops_low (by decide)
theorem arg_kept_17 (V : Valuation τ sig (Elt F)) :
    after ops V (main_arg17 : DevRef τ sig) = V (main_arg17 : DevRef τ sig) :=
  kept_of_low ops V ops_low (by decide)
theorem arg_kept_18 (V : Valuation τ sig (Elt F)) :
    after ops V (main_arg18 : DevRef τ sig) = V (main_arg18 : DevRef τ sig) :=
  kept_of_low ops V ops_low (by decide)
theorem arg_kept_19 (V : Valuation τ sig (Elt F)) :
    after ops V (main_arg19 : DevRef τ sig) = V (main_arg19 : DevRef τ sig) :=
  kept_of_low ops V ops_low (by decide)
theorem arg_kept_20 (V : Valuation τ sig (Elt F)) :
    after ops V (main_arg20 : DevRef τ sig) = V (main_arg20 : DevRef τ sig) :=
  kept_of_low ops V ops_low (by decide)
theorem arg_kept_21 (V : Valuation τ sig (Elt F)) :
    after ops V (main_arg21 : DevRef τ sig) = V (main_arg21 : DevRef τ sig) :=
  kept_of_low ops V ops_low (by decide)
theorem arg_kept_22 (V : Valuation τ sig (Elt F)) :
    after ops V (main_arg22 : DevRef τ sig) = V (main_arg22 : DevRef τ sig) :=
  kept_of_low ops V ops_low (by decide)
theorem arg_kept_23 (V : Valuation τ sig (Elt F)) :
    after ops V (main_arg23 : DevRef τ sig) = V (main_arg23 : DevRef τ sig) :=
  kept_of_low ops V ops_low (by decide)
theorem arg_kept_24 (V : Valuation τ sig (Elt F)) :
    after ops V (main_arg24 : DevRef τ sig) = V (main_arg24 : DevRef τ sig) :=
  kept_of_low ops V ops_low (by decide)
theorem arg_kept_25 (V : Valuation τ sig (Elt F)) :
    after ops V (main_arg25 : DevRef τ sig) = V (main_arg25 : DevRef τ sig) :=
  kept_of_low ops V ops_low (by decide)
theorem arg_kept_26 (V : Valuation τ sig (Elt F)) :
    after ops V (main_arg26 : DevRef τ sig) = V (main_arg26 : DevRef τ sig) :=
  kept_of_low ops V ops_low (by decide)

end Kept

/-! ## The result buffer -/

/-- two rows of 128 side by side -/
def cat2 {α : Type} (a b : S1x128.Idx → α) : S1x256.Idx → α :=
  concatenate S1x256 1 [⟨S1x128, a⟩, ⟨S1x128, b⟩] concatenates_S1x128_S1x128_S1x256_d1

theorem cat2_eq {α : Type} (a b : S1x128.Idx → α) (h) :
    concatenate S1x256 1 [⟨S1x128, a⟩, ⟨S1x128, b⟩] h = cat2 a b := rfl

-- one rewrite per operation and per buffer carried back: the chain is as deep as the line is long
set_option maxRecDepth 65536 in
set_option maxHeartbeats 8000000 in
/-- The fold at the result buffer is the stage functions' term of the arguments' contents: each operation's result is
    read at the buffer it writes and carried past every other, the two rows side by side are re-entered through
    `cat2`, and what is left is the stage functions unfolded, term for term. -/
theorem out_eq (V : Valuation τ sig (Elt Ideal)) :
    after ops V (main_v130 : DevRef τ sig)
      = refOut
        (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
        (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig))
        (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig))
        (V (main_arg21 : DevRef τ sig)) (V (main_arg22 : DevRef τ sig)) (V (main_arg23 : DevRef τ sig)) (V (main_arg24 : DevRef τ sig)) (V (main_arg25 : DevRef τ sig)) (V (main_arg26 : DevRef τ sig)) := by
  simp (disch := decide) only [after_cons, after_nil,
    ↓nullary_result_ne', ↓unary_result_ne', ↓binary_result_ne', ↓ternary_result_ne', ↓reshape_result_ne',
    nullary_result', unary_result', binary_result', ternary_result', reshape_result', cat2_eq]
  unfold refOut refEpi refSkip refRelu refLn refVar refSq refDof refMean refAgg refAlpha refExp refMax refLogits refLrelu
    refPre refY refProj refXr refGProj cat2
  rfl

/-- On the compiled mesh, over the extended reals, from any memory with zero counters: every weakly fair execution of
    @main terminates, the result buffer holds the specification's whole form of the arguments' launch contents, and
    every argument buffer holds what it held. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v130)
        = (fun i => Cert.Spec.outR
          (argsOf
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16)) (m ((c.tc : Thread nD τ).loc main_arg17))
            (m ((c.tc : Thread nD τ).loc main_arg18)) (m ((c.tc : Thread nD τ).loc main_arg19)) (m ((c.tc : Thread nD τ).loc main_arg20))
            (m ((c.tc : Thread nD τ).loc main_arg21)) (m ((c.tc : Thread nD τ).loc main_arg22)) (m ((c.tc : Thread nD τ).loc main_arg23))
            (m ((c.tc : Thread nD τ).loc main_arg24)) (m ((c.tc : Thread nD τ).loc main_arg25)) (m ((c.tc : Thread nD τ).loc main_arg26))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono
    (fun _ h c => ⟨(h c main_v130).trans ((out_eq _).trans (refOut_eq ..)),
      (h c main_arg0).trans (arg_kept_0 _), (h c main_arg1).trans (arg_kept_1 _), (h c main_arg2).trans (arg_kept_2 _),
      (h c main_arg3).trans (arg_kept_3 _), (h c main_arg4).trans (arg_kept_4 _), (h c main_arg5).trans (arg_kept_5 _),
      (h c main_arg6).trans (arg_kept_6 _), (h c main_arg7).trans (arg_kept_7 _), (h c main_arg8).trans (arg_kept_8 _),
      (h c main_arg9).trans (arg_kept_9 _), (h c main_arg10).trans (arg_kept_10 _), (h c main_arg11).trans (arg_kept_11 _),
      (h c main_arg12).trans (arg_kept_12 _), (h c main_arg13).trans (arg_kept_13 _), (h c main_arg14).trans (arg_kept_14 _),
      (h c main_arg15).trans (arg_kept_15 _), (h c main_arg16).trans (arg_kept_16 _), (h c main_arg17).trans (arg_kept_17 _),
      (h c main_arg18).trans (arg_kept_18 _), (h c main_arg19).trans (arg_kept_19 _), (h c main_arg20).trans (arg_kept_20 _),
      (h c main_arg21).trans (arg_kept_21 _), (h c main_arg22).trans (arg_kept_22 _), (h c main_arg23).trans (arg_kept_23 _),
      (h c main_arg24).trans (arg_kept_24 _), (h c main_arg25).trans (arg_kept_25 _), (h c main_arg26).trans (arg_kept_26 _)⟩)
    (run_main m ρ)

end Cert.ReferenceIdeal.Hand

end
-- ==== Proof.SpecOnline.lean ====
/-
  The streamed softmax state in closed form. Over real logits `l` and real projected features `y`, after all 25 blocks
  the running maximum is the maximum `M` of the column's logits over all 100000 rows, the normaliser is
  `∑ n, exp (l n - M)` and the weighted sum `∑ n, exp (l n - M) · y n`: each block's rescaling by
  `exp (m_old - m_new)` telescopes because `exp a · exp b = exp (a + b)` on the reals, and the first block meets the
  state `(-∞, 0, 0)`, whose rescaling factor `exp (-∞ - m_new)` is zero against sums that are zero.

  The argument: one lane's state is in CLOSED FORM over a finite set `A` of rows when, for a real `M` that bounds the
  logits on `A` and is attained there, it is `(M, ∑_A exp (l - M), ∑_A exp (l - M) · y)`. Folding a nonempty block `B`
  disjoint from `A` into the empty state or into a closed form over `A` gives the closed form over `A ∪ B`, with the
  maximum `max M (max_B l)`. The rows below `4000 (n + 1)` are the rows below `4000 n` and block `n`; induction on the
  number of blocks ends at all rows.
-/
import proofs.«146274_g33088428049086_cont_sun_c4_530_10_alg».proof.Proof.SpecConsts

noncomputable section

namespace Cert.Spec

open Idealize.ShloMosaic

namespace Online

/-- the coercion of a finite real sum is the sum of the coercions -/
theorem coe_finset_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- the maximum of finitely many reals over a nonempty set, started from minus infinity, is attained -/
theorem fold_max_real {α : Type} (s : Finset α) (hs : s.Nonempty) (f : α → ℝ) :
    ∃ a ∈ s, (∀ b ∈ s, f b ≤ f a) ∧ s.fold max (⊥ : EReal) (fun n => (f n : EReal)) = (f a : EReal) := by
  obtain ⟨a, ha, hmax⟩ := s.exists_max_image f hs
  refine ⟨a, ha, hmax, le_antisymm ?_ ?_⟩
  · rw [Finset.fold_max_le]
    exact ⟨bot_le, fun b hb => EReal.coe_le_coe_iff.2 (hmax b hb)⟩
  · rw [Finset.le_fold_max]
    exact Or.inr ⟨a, ha, le_rfl⟩

/-- the coercion of a maximum of reals is the maximum of the coercions -/
theorem coe_max (a b : ℝ) : ((max a b : ℝ) : EReal) = max (a : EReal) (b : EReal) :=
  EReal.coe_strictMono.monotone.map_max

/-- rescaling a sum of exponentials from the maximum M to the maximum M' -/
theorem rescale {α : Type} (A : Finset α) (l g : α → ℝ) (M M' : ℝ) :
    (∑ n ∈ A, Real.exp (l n - M) * g n) * Real.exp (M - M') = ∑ n ∈ A, Real.exp (l n - M') * g n := by
  rw [Finset.sum_mul]
  refine Finset.sum_congr rfl fun n _ => ?_
  rw [mul_right_comm, ← Real.exp_add]
  congr 2; ring

/-- the same without a weight -/
theorem rescale1 {α : Type} (A : Finset α) (l : α → ℝ) (M M' : ℝ) :
    (∑ n ∈ A, Real.exp (l n - M)) * Real.exp (M - M') = ∑ n ∈ A, Real.exp (l n - M') := by
  simpa using rescale A l (fun _ => 1) M M'

/-- the closed form of one lane's state over the rows in A -/
def Closed {α : Type} (l y : α → ℝ) (A : Finset α) (m s w : EReal) : Prop :=
  ∃ M : ℝ, (∀ n ∈ A, l n ≤ M) ∧ (∃ n ∈ A, l n = M) ∧ m = (M : EReal)
    ∧ s = ((∑ n ∈ A, Real.exp (l n - M) : ℝ) : EReal)
    ∧ w = ((∑ n ∈ A, Real.exp (l n - M) * y n : ℝ) : EReal)

/-- the block sums at a real maximum -/
theorem block_sums {α : Type} (l y : α → ℝ) (B : Finset α) (M' : ℝ) :
    (∑ n ∈ B, Ideal.exp ((l n : EReal) - (M' : EReal))) = ((∑ n ∈ B, Real.exp (l n - M') : ℝ) : EReal)
    ∧ (∑ n ∈ B, Ideal.exp ((l n : EReal) - (M' : EReal)) * (y n : EReal))
        = ((∑ n ∈ B, Real.exp (l n - M') * y n : ℝ) : EReal) := by
  constructor
  · rw [coe_finset_sum]
    refine Finset.sum_congr rfl fun n _ => ?_
    rw [← EReal.coe_sub, Ideal.exp_coe]
  · rw [coe_finset_sum]
    refine Finset.sum_congr rfl fun n _ => ?_
    rw [← EReal.coe_sub, Ideal.exp_coe, EReal.coe_mul]

/-- one block folded into the state: from the empty state or a closed form over A to the closed form over A ∪ B -/
theorem step_closed {α : Type} [DecidableEq α] (l y : α → ℝ) (A B : Finset α) (hB : B.Nonempty) (hAB : Disjoint A B)
    (m s w : EReal) (h : (A = ∅ ∧ m = ⊥ ∧ s = 0 ∧ w = 0) ∨ Closed l y A m s w) :
    Closed l y (A ∪ B) (max m (B.fold max (⊥ : EReal) (fun n => (l n : EReal))))
      (s * Ideal.exp (m - max m (B.fold max (⊥ : EReal) (fun n => (l n : EReal))))
        + ∑ n ∈ B, Ideal.exp ((l n : EReal) - max m (B.fold max (⊥ : EReal) (fun n => (l n : EReal)))))
      (w * Ideal.exp (m - max m (B.fold max (⊥ : EReal) (fun n => (l n : EReal))))
        + ∑ n ∈ B, Ideal.exp ((l n : EReal) - max m (B.fold max (⊥ : EReal) (fun n => (l n : EReal)))) * (y n : EReal)) := by
  obtain ⟨b0, hb0, hmaxB, hfold⟩ := fold_max_real B hB l
  rw [hfold]
  rcases h with ⟨hA, hm, hs, hw⟩ | ⟨M, hle, ⟨a0, ha0, ha0M⟩, hm, hs, hw⟩
  · subst hA
    rw [hm, hs, hw, max_eq_right bot_le]
    simp only [zero_mul, zero_add, Finset.empty_union]
    rw [(block_sums l y B (l b0)).1, (block_sums l y B (l b0)).2]
    exact ⟨l b0, hmaxB, ⟨b0, hb0, rfl⟩, rfl, rfl, rfl⟩
  · rw [hm, hs, hw, ← coe_max, (block_sums l y B _).1, (block_sums l y B _).2, ← EReal.coe_sub, Ideal.exp_coe,
      ← EReal.coe_mul, ← EReal.coe_mul, ← EReal.coe_add, ← EReal.coe_add, rescale, rescale1,
      ← Finset.sum_union hAB, ← Finset.sum_union hAB]
    refine ⟨max M (l b0), ?_, ?_, rfl, rfl, rfl⟩
    · intro n hn
      rcases Finset.mem_union.1 hn with hn | hn
      · exact le_max_of_le_left (hle n hn)
      · exact le_max_of_le_right (hmaxB n hn)
    · rcases le_total M (l b0) with hc | hc
      · exact ⟨b0, Finset.mem_union_right _ hb0, (max_eq_right hc).symm⟩
      · exact ⟨a0, Finset.mem_union_left _ ha0, by rw [max_eq_left hc, ha0M]⟩

/-- row `4000 t + r` of the whole array, as an embedding of the block's rows -/
def blk (t : Fin 25) : Fin 4000 ↪ Fin 100000 where
  toFun r := ⟨4000 * t.val + r.val, by omega⟩
  inj' a b h := by
    have h' : 4000 * t.val + a.val = 4000 * t.val + b.val := congrArg Fin.val h
    exact Fin.ext (by omega)

theorem blk_val (n : ℕ) (hn : n < 25) (r : Fin 4000) : (blk ⟨n, hn⟩ r).val = 4000 * n + r.val := rfl

/-- the rows of the first `n` blocks -/
def rows (n : ℕ) : Finset (Fin 100000) := Finset.univ.filter (fun i => i.val < 4000 * n)

theorem mem_rows (n : ℕ) (i : Fin 100000) : i ∈ rows n ↔ i.val < 4000 * n := by
  simp [rows]

theorem mem_blk (n : ℕ) (hn : n < 25) (i : Fin 100000) :
    i ∈ Finset.univ.map (blk ⟨n, hn⟩) ↔ 4000 * n ≤ i.val ∧ i.val < 4000 * n + 4000 := by
  simp only [Finset.mem_map, Finset.mem_univ, true_and]
  constructor
  · rintro ⟨r, rfl⟩
    rw [blk_val]
    have := r.isLt
    omega
  · rintro ⟨h1, h2⟩
    refine ⟨⟨i.val - 4000 * n, by omega⟩, Fin.ext ?_⟩
    rw [blk_val]
    show 4000 * n + (i.val - 4000 * n) = i.val
    omega

theorem rows_zero : rows 0 = ∅ := by
  ext i
  simp [mem_rows]

theorem rows_all : rows 25 = Finset.univ := by
  ext i
  have := i.isLt
  simp only [mem_rows, Finset.mem_univ, iff_true]
  omega

theorem rows_succ (n : ℕ) (hn : n < 25) : rows (n + 1) = rows n ∪ Finset.univ.map (blk ⟨n, hn⟩) := by
  ext i
  rw [Finset.mem_union, mem_rows, mem_rows, mem_blk]
  omega

theorem rows_disj (n : ℕ) (hn : n < 25) : Disjoint (rows n) (Finset.univ.map (blk ⟨n, hn⟩)) := by
  rw [Finset.disjoint_left]
  intro i hi hi'
  rw [mem_rows] at hi
  rw [mem_blk] at hi'
  omega

/-- one more block: the closed form over the first `n` blocks (or the empty state) gives the closed form over the
    first `n + 1` -/
theorem online_step (X : Fin 100000 → Fin 128 → EReal) (Wl : Fin 128 → Fin 128 → EReal) (xr : Fin 128 → EReal)
    (AE : Fin 128 → Fin 128 → EReal) (l y : Fin 100000 → Fin 128 → ℝ)
    (hl : ∀ n k, lbK X Wl xr AE n k = (l n k : EReal)) (hy : ∀ n k, ymat X Wl n k = (y n k : EReal)) (k : Fin 128)
    (n : ℕ) (hn : n + 1 ≤ 25)
    (h : (rows n = ∅ ∧ (online X Wl xr AE n (by omega)).m k = ⊥ ∧ (online X Wl xr AE n (by omega)).s k = 0
            ∧ (online X Wl xr AE n (by omega)).w k = 0)
          ∨ Closed (fun i => l i k) (fun i => y i k) (rows n) ((online X Wl xr AE n (by omega)).m k)
              ((online X Wl xr AE n (by omega)).s k) ((online X Wl xr AE n (by omega)).w k)) :
    Closed (fun i => l i k) (fun i => y i k) (rows (n + 1)) ((online X Wl xr AE (n + 1) hn).m k)
      ((online X Wl xr AE (n + 1) hn).s k) ((online X Wl xr AE (n + 1) hn).w k) := by
  have hn' : n < 25 := by omega
  have hstep := step_closed (fun i => l i k) (fun i => y i k) (rows n) (Finset.univ.map (blk ⟨n, hn'⟩))
    ⟨_, Finset.mem_map_of_mem _ (Finset.mem_univ ⟨0, by omega⟩)⟩ (rows_disj n hn') _ _ _ h
  simp only [← rows_succ n hn', Finset.fold_map, Finset.sum_map] at hstep
  have hlb : ∀ r : Fin 4000, lbK (blockOf X ⟨n, hn'⟩) Wl xr AE r k = ((l (blk ⟨n, hn'⟩ r) k : ℝ) : EReal) :=
    fun r => hl _ k
  have hyb : ∀ r : Fin 4000, ymat (blockOf X ⟨n, hn'⟩) Wl r k = ((y (blk ⟨n, hn'⟩ r) k : ℝ) : EReal) :=
    fun r => hy _ k
  simp only [online, step, hlb, hyb, cbot_eq]
  exact hstep

end Online

/-- The state after all 25 blocks, lane `k`, when the head-replicated logits and the projected features are real. -/
theorem online_closed (X : Fin 100000 → Fin 128 → EReal) (Wl : Fin 128 → Fin 128 → EReal) (xr : Fin 128 → EReal)
    (AE : Fin 128 → Fin 128 → EReal) (l y : Fin 100000 → Fin 128 → ℝ)
    (hl : ∀ n k, lbK X Wl xr AE n k = (l n k : EReal)) (hy : ∀ n k, ymat X Wl n k = (y n k : EReal)) (k : Fin 128) :
    ∃ M : ℝ, (∀ n, l n k ≤ M) ∧ (∃ n, l n k = M)
      ∧ (online X Wl xr AE 25 le_rfl).m k = (M : EReal)
      ∧ (online X Wl xr AE 25 le_rfl).s k = ((∑ n : Fin 100000, Real.exp (l n k - M) : ℝ) : EReal)
      ∧ (online X Wl xr AE 25 le_rfl).w k = ((∑ n : Fin 100000, Real.exp (l n k - M) * y n k : ℝ) : EReal) := by
  have key : ∀ (n : ℕ) (hn : n + 1 ≤ 25),
      Online.Closed (fun i => l i k) (fun i => y i k) (Online.rows (n + 1)) ((online X Wl xr AE (n + 1) hn).m k)
        ((online X Wl xr AE (n + 1) hn).s k) ((online X Wl xr AE (n + 1) hn).w k) := by
    intro n
    induction n with
    | zero =>
      intro hn
      exact Online.online_step X Wl xr AE l y hl hy k 0 hn (Or.inl ⟨Online.rows_zero, cbot_eq, rfl, rfl⟩)
    | succ n ih =>
      intro hn
      exact Online.online_step X Wl xr AE l y hl hy k (n + 1) hn (Or.inr (ih (by omega)))
  obtain ⟨M, h1, ⟨n0, _, hn0⟩, h3, h4, h5⟩ := key 24 (by norm_num)
  rw [Online.rows_all] at h1 h4 h5
  exact ⟨M, fun n => h1 n (Finset.mem_univ n), ⟨n0, hn0⟩, h3, h4, h5⟩

end Cert.Spec

end
-- ==== Proof.SpecAgg.lean ====
/-
  The streamed aggregation and the whole aggregation agree on real inputs, and so do the two results.

  * the block-diagonal matrix turns the 128-lane product into the per-head sum over 16 channels, the same on every lane
    of a head;
  * the two leaky ReLUs agree for a slope in (0, 1); the two ways of adding the source bias and the target projection
    agree by associativity;
  * with `M` the maximum logit, `p n = exp (l n - M)`, `S = ∑ p`: `(∑ p · y) / S + (bl + bias)
    = ∑ (p / S) · (y + bl) + bias`, because `∑ p / S = 1`.
-/
import proofs.«146274_g33088428049086_cont_sun_c4_530_10_alg».proof.Proof.SpecOnline

noncomputable section

namespace Cert.Spec

open Idealize.ShloMosaic

/-! The auxiliary statements live in their own namespace. -/
namespace Agg

/-! ## Pushing the coercion of the reals through the operations -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

/-- a sum of products of reals, read in the extended reals -/
theorem sum_mul_coe {ι : Type} [Fintype ι] (f g : ι → ℝ) :
    (∑ i, (f i : EReal) * (g i : EReal)) = ((∑ i, f i * g i : ℝ) : EReal) := by
  rw [Agg.coe_sum]; exact Finset.sum_congr rfl (fun i _ => (EReal.coe_mul _ _).symm)

/-! ## The mean, LayerNorm and the projection of real vectors -/

theorem mean_coe (x : Fin 256 → ℝ) : mean (fun j => (x j : EReal)) = (((∑ j, x j) / 256 : ℝ) : EReal) := by
  unfold mean
  rw [c256_eq, Ideal.div_coe (by norm_num), ← Agg.coe_sum, ← EReal.coe_mul, mul_one_div]

theorem lnorm_coe (x s b : Fin 256 → ℝ) (j : Fin 256) :
    ∃ r : ℝ, lnorm (fun i => (x i : EReal)) (fun i => (s i : EReal)) (fun i => (b i : EReal)) j = r := by
  obtain ⟨e, he, hce⟩ := ceps_pos
  unfold lnorm
  rw [Agg.mean_coe]
  simp only [← EReal.coe_sub, ← EReal.coe_mul]
  rw [Agg.mean_coe, hce, ← EReal.coe_add, Ideal.rsqrt_coe]
  have hv : 0 ≤ (∑ i, (x i - (∑ j, x j) / 256) * (x i - (∑ j, x j) / 256)) / 256 :=
    div_nonneg (Finset.sum_nonneg (fun i _ => mul_self_nonneg _)) (by norm_num)
  rw [if_neg (by linarith), if_neg (by linarith)]
  exact ⟨_, by rw [← EReal.coe_mul, ← EReal.coe_mul, ← EReal.coe_add]⟩

theorem relu_coe (r : ℝ) : relu (r : EReal) = ((max r 0 : ℝ) : EReal) := by
  unfold relu; rw [Agg.coe_max, EReal.coe_zero]

/-! ## The two leaky ReLUs on a real argument -/

theorem lrelu_real (α z : ℝ) (h0 : 0 < α) (h1 : α < 1) : (if 0 ≤ z then z else α * z) = max z (α * z) := by
  split_ifs with hz
  · exact (max_eq_left (by nlinarith)).symm
  · exact (max_eq_right (by nlinarith)).symm

theorem lreluMax_coe (α : ℝ) (hα : cslope = (α : EReal)) (z : ℝ) :
    lreluMax (z : EReal) = ((max z (α * z) : ℝ) : EReal) := by
  unfold lreluMax; rw [hα, ← EReal.coe_mul, Agg.coe_max]

theorem lreluSel_coe (α : ℝ) (h0 : 0 < α) (h1 : α < 1) (hα : cslope = (α : EReal)) (z : ℝ) :
    lreluSel (z : EReal) = ((max z (α * z) : ℝ) : EReal) := by
  unfold lreluSel
  rw [← Agg.lrelu_real α z h0 h1, hα, ← EReal.coe_mul]
  by_cases hz : 0 ≤ z
  · rw [if_pos hz, if_pos (by exact_mod_cast hz)]
  · rw [if_neg hz, if_neg (by exact_mod_cast hz)]

/-! ## The 128 lanes as 8 heads of 16 channels -/

/-- the lanes, head by head -/
def laneEquiv : Fin 8 × Fin 16 ≃ Fin 128 where
  toFun p := lane p.1 p.2
  invFun j := (⟨j.val / 16, by omega⟩, ⟨j.val % 16, by omega⟩)
  left_inv p := by
    rcases p with ⟨h, c⟩
    ext <;> simp only [lane] <;> omega
  right_inv j := by
    ext; simp only [lane]; omega

theorem sum_lanes (f : Fin 128 → ℝ) : ∑ j, f j = ∑ h : Fin 8, ∑ c : Fin 16, f (lane h c) := by
  rw [← Fintype.sum_prod_type']
  exact (Fintype.sum_equiv Agg.laneEquiv (fun p => f (lane p.1 p.2)) f (fun _ => rfl)).symm

/-- against the block-diagonal matrix, a sum over the 128 lanes is the sum over the 16 channels of the column's head -/
theorem sum_head (g : Fin 128 → ℝ) (a : Fin 8 → Fin 16 → ℝ) (k : Fin 128) :
    ∑ j : Fin 128, g j * ((if j.val / 16 = k.val / 16 then (1 : ℝ) else 0)
        * a ⟨j.val / 16, by omega⟩ ⟨j.val % 16, by omega⟩)
      = ∑ c : Fin 16, g (lane ⟨k.val / 16, by omega⟩ c) * a ⟨k.val / 16, by omega⟩ c := by
  rw [Agg.sum_lanes]
  have hd : ∀ (h : Fin 8) (c : Fin 16), (lane h c).val / 16 = h.val := fun h c => by simp only [lane]; omega
  have hm : ∀ (h : Fin 8) (c : Fin 16), (lane h c).val % 16 = c.val := fun h c => by simp only [lane]; omega
  rw [Finset.sum_eq_single (⟨k.val / 16, by omega⟩ : Fin 8)]
  · refine Finset.sum_congr rfl (fun c _ => ?_)
    have e1 : (⟨(lane ⟨k.val / 16, by omega⟩ c).val / 16, by omega⟩ : Fin 8) = ⟨k.val / 16, by omega⟩ :=
      Fin.ext (hd _ c)
    have e2 : (⟨(lane ⟨k.val / 16, by omega⟩ c).val % 16, by omega⟩ : Fin 16) = c := Fin.ext (hm _ c)
    rw [if_pos (hd _ c), one_mul, e1, e2]
  · intro h _ hne
    refine Finset.sum_eq_zero (fun c _ => ?_)
    have : ¬ (lane h c).val / 16 = k.val / 16 := by
      rw [hd]; intro he; exact hne (Fin.ext he)
    rw [if_neg this, zero_mul, mul_zero]
  · intro hk; exact absurd (Finset.mem_univ _) hk

/-! ## A maximum over finitely many reals, taken in the extended reals from minus infinity -/

theorem fold_max_coe {ι : Type} [Fintype ι] (f : ι → ℝ) (M : ℝ) (hle : ∀ n, f n ≤ M) (hex : ∃ n, f n = M) :
    (Finset.univ : Finset ι).fold max (⊥ : EReal) (fun n => (f n : EReal)) = (M : EReal) := by
  apply le_antisymm
  · rw [Finset.fold_max_le]
    exact ⟨bot_le, fun n _ => by exact_mod_cast hle n⟩
  · rw [Finset.le_fold_max]
    obtain ⟨n, hn⟩ := hex
    exact Or.inr ⟨n, Finset.mem_univ _, by rw [hn]⟩

/-! ## The logits of both forms over real data -/

/-- the leaky ReLU on the reals, as a maximum -/
def lrR (α z : ℝ) : ℝ := max z (α * z)

theorem ite_coe (p : Prop) [Decidable p] :
    (if p then (1 : EReal) else 0) = (((if p then (1 : ℝ) else 0) : ℝ) : EReal) := by
  split_ifs
  · exact EReal.coe_one.symm
  · exact EReal.coe_zero.symm

/-- the streamed, head-replicated logit of lane `k` is the per-head sum over the 16 channels of the head of `k` -/
theorem lbK_real {ι : Type} (X : ι → Fin 128 → EReal) (Wl : Fin 128 → Fin 128 → EReal) (xr : Fin 128 → EReal)
    (att : Fin 8 → Fin 16 → EReal) (y : ι → Fin 128 → ℝ) (r : Fin 128 → ℝ) (a : Fin 8 → Fin 16 → ℝ) (α : ℝ)
    (hα : cslope = (α : EReal)) (hy : ∀ n k, ymat X Wl n k = (y n k : EReal)) (hr : ∀ k, xr k = (r k : EReal))
    (ha : ∀ h c, att h c = (a h c : EReal)) (n : ι) (k : Fin 128) :
    lbK X Wl xr (aeOf att) n k
      = ((∑ c : Fin 16, Agg.lrR α (y n (lane ⟨k.val / 16, by omega⟩ c) + r (lane ⟨k.val / 16, by omega⟩ c))
            * a ⟨k.val / 16, by omega⟩ c : ℝ) : EReal) := by
  unfold lbK aeOf
  simp only [hy, hr, ha, ← EReal.coe_add, Agg.lreluMax_coe α hα, Agg.ite_coe, ← EReal.coe_mul]
  rw [← Agg.coe_sum]
  exact congrArg _ (Agg.sum_head (fun j => Agg.lrR α (y n j + r j)) a k)

theorem lgR_real (X : Fin 100000 → Fin 128 → EReal) (Wl : Fin 128 → Fin 128 → EReal) (bl xr : Fin 128 → EReal)
    (att : Fin 8 → Fin 16 → EReal) (y : Fin 100000 → Fin 128 → ℝ) (b r : Fin 128 → ℝ) (a : Fin 8 → Fin 16 → ℝ)
    (α : ℝ) (h0 : 0 < α) (h1 : α < 1) (hα : cslope = (α : EReal)) (hy : ∀ n k, ymat X Wl n k = (y n k : EReal))
    (hb : ∀ k, bl k = (b k : EReal)) (hr : ∀ k, xr k = (r k : EReal)) (ha : ∀ h c, att h c = (a h c : EReal))
    (n : Fin 100000) (h : Fin 8) :
    lgR X Wl bl xr att n h
      = ((∑ c : Fin 16, Agg.lrR α ((y n (lane h c) + b (lane h c)) + r (lane h c)) * a h c : ℝ) : EReal) := by
  unfold lgR
  simp only [hy, hb, hr, ha, ← EReal.coe_add, Agg.lreluSel_coe α h0 h1 hα, ← EReal.coe_mul]
  rw [← Agg.coe_sum]
  rfl

/-! ## The softmax-weighted sum, with the source bias inside or outside -/

theorem real_agg {ι : Type} [Fintype ι] (p yk : ι → ℝ) (S b c : ℝ) (hS : S = ∑ n, p n) (hS0 : S ≠ 0) :
    (∑ n, p n * yk n) * (1 / S) + (b + c) = (∑ n, p n * (1 / S) * (yk n + b)) + c := by
  have h : ∑ n, p n * (1 / S) * (yk n + b) = (∑ n, p n * yk n) * (1 / S) + (∑ n, p n) * (1 / S) * b := by
    simp only [Finset.sum_mul, ← Finset.sum_add_distrib]
    exact Finset.sum_congr rfl (fun n _ => by ring)
  rw [h, ← hS, mul_one_div_cancel hS0]
  ring

/-! ## The projections of real data are real -/

theorem ymat_real {ι : Type} (X : ι → Fin 128 → EReal) (Wl : Fin 128 → Fin 128 → EReal)
    (hX : ∀ n j, ∃ r : ℝ, X n j = r) (hWl : ∀ j k, ∃ r : ℝ, Wl j k = r) :
    ∃ y : ι → Fin 128 → ℝ, ∀ n k, ymat X Wl n k = (y n k : EReal) := by
  choose x hx using hX
  choose wl hwl using hWl
  refine ⟨fun n k => ∑ j, x n j * wl j k, fun n k => ?_⟩
  unfold ymat; simp only [hx, hwl]; exact Agg.sum_mul_coe _ _

theorem vecmat_real (xv : Fin 128 → EReal) (Wr : Fin 128 → Fin 128 → EReal)
    (hxv : ∀ j, ∃ r : ℝ, xv j = r) (hWr : ∀ j k, ∃ r : ℝ, Wr j k = r) :
    ∃ v : Fin 128 → ℝ, ∀ k, vecmat xv Wr k = (v k : EReal) := by
  choose x hx using hxv
  choose wr hwr using hWr
  refine ⟨fun k => ∑ j, x j * wr j k, fun k => ?_⟩
  unfold vecmat; simp only [hx, hwr]; exact Agg.sum_mul_coe _ _

end Agg

/-! ## The projected global feature is real -/

/-- LayerNorm, ReLU and the linear layer keep real inputs real (the variance is nonnegative and epsilon positive, so the
    reciprocal square root is taken of a positive real). -/
theorem gproj_real (g s b : Fin 256 → EReal) (Wg : Fin 256 → Fin 128 → EReal) (bg : Fin 128 → EReal)
    (hg : ∀ j, ∃ r : ℝ, g j = r) (hs : ∀ j, ∃ r : ℝ, s j = r) (hb : ∀ j, ∃ r : ℝ, b j = r)
    (hW : ∀ j k, ∃ r : ℝ, Wg j k = r) (hbg : ∀ k, ∃ r : ℝ, bg k = r) :
    ∀ k, ∃ r : ℝ, gproj g s b Wg bg k = r := by
  choose g' hg' using hg
  choose s' hs' using hs
  choose b' hb' using hb
  choose W' hW' using hW
  choose bg' hbg' using hbg
  obtain rfl : g = fun j => (g' j : EReal) := funext hg'
  obtain rfl : s = fun j => (s' j : EReal) := funext hs'
  obtain rfl : b = fun j => (b' j : EReal) := funext hb'
  choose t ht using Agg.lnorm_coe g' s' b'
  intro k
  unfold gproj lin
  simp only [ht, Agg.relu_coe, hW', hbg', Agg.sum_mul_coe, ← EReal.coe_add]
  exact ⟨_, rfl⟩

/-! ## One stream -/

/-- One stream: the streamed aggregation equals the whole aggregation. -/
theorem agg_eq (X : Fin 100000 → Fin 128 → EReal) (Wl : Fin 128 → Fin 128 → EReal) (bl xv : Fin 128 → EReal)
    (Wr : Fin 128 → Fin 128 → EReal) (br : Fin 128 → EReal) (att : Fin 8 → Fin 16 → EReal) (bias : Fin 128 → EReal)
    (hX : ∀ n j, ∃ r : ℝ, X n j = r) (hWl : ∀ j k, ∃ r : ℝ, Wl j k = r) (hbl : ∀ j, ∃ r : ℝ, bl j = r)
    (hxv : ∀ j, ∃ r : ℝ, xv j = r) (hWr : ∀ j k, ∃ r : ℝ, Wr j k = r) (hbr : ∀ j, ∃ r : ℝ, br j = r)
    (hatt : ∀ h c, ∃ r : ℝ, att h c = r) (hbias : ∀ j, ∃ r : ℝ, bias j = r) :
    aggK X Wl (xrK bl xv Wr br) (aeOf att) (fun k => bl k + bias k) = aggR X Wl bl (xrR xv Wr br) att bias := by
  obtain ⟨y, hy⟩ := Agg.ymat_real X Wl hX hWl
  obtain ⟨v, hv⟩ := Agg.vecmat_real xv Wr hxv hWr
  choose b hb using hbl
  choose br' hbr' using hbr
  choose a ha using hatt
  choose bi hbi using hbias
  obtain ⟨α, h0, h1, hα⟩ := cslope_mem
  have hrK : ∀ k, xrK bl xv Wr br k = (((b k + v k) + br' k : ℝ) : EReal) := by
    intro k; unfold xrK; rw [hb, hv, hbr', ← EReal.coe_add, ← EReal.coe_add]
  have hrR : ∀ k, xrR xv Wr br k = ((v k + br' k : ℝ) : EReal) := by
    intro k; unfold xrR; rw [hv, hbr', ← EReal.coe_add]
  -- one real family of logits serves both forms
  obtain ⟨l, hlK, hlR⟩ : ∃ l : Fin 100000 → Fin 128 → ℝ,
      (∀ n k, lbK X Wl (xrK bl xv Wr br) (aeOf att) n k = (l n k : EReal)) ∧
      (∀ n (k : Fin 128), lgR X Wl bl (xrR xv Wr br) att n ⟨k.val / 16, by omega⟩ = (l n k : EReal)) := by
    refine ⟨fun n k => ∑ c : Fin 16, Agg.lrR α (y n (lane ⟨k.val / 16, by omega⟩ c)
        + ((b (lane ⟨k.val / 16, by omega⟩ c) + v (lane ⟨k.val / 16, by omega⟩ c))
            + br' (lane ⟨k.val / 16, by omega⟩ c))) * a ⟨k.val / 16, by omega⟩ c, ?_, ?_⟩
    · intro n k
      exact Agg.lbK_real X Wl _ att y (fun k => (b k + v k) + br' k) a α hα hy hrK ha n k
    · intro n k
      rw [Agg.lgR_real X Wl bl _ att y b (fun k => v k + br' k) a α h0 h1 hα hy hb hrR ha n]
      refine congrArg _ (Finset.sum_congr rfl (fun c _ => ?_))
      congr 2; ring
  funext k
  obtain ⟨M, hle, ⟨n₀, hn₀⟩, -, hs, hw⟩ := online_closed X Wl (xrK bl xv Wr br) (aeOf att) l y hlK hy k
  have hSpos : 0 < ∑ n : Fin 100000, Real.exp (l n k - M) :=
    Finset.sum_pos (fun n _ => Real.exp_pos _) ⟨n₀, Finset.mem_univ _⟩
  have hlR' : ∀ n, lgR X Wl bl (xrR xv Wr br) att n ⟨k.val / 16, by omega⟩ = (l n k : EReal) := fun n => hlR n k
  have hmx : mxR X Wl bl (xrR xv Wr br) att ⟨k.val / 16, by omega⟩ = (M : EReal) := by
    unfold mxR
    rw [cbot_eq]
    simp only [hlR']
    rw [Agg.fold_max_coe (fun n => l n k) M hle ⟨n₀, hn₀⟩]
    exact max_eq_right bot_le
  have hal : ∀ n, alphaR X Wl bl (xrR xv Wr br) att n ⟨k.val / 16, by omega⟩
      = ((Real.exp (l n k - M) * (1 / ∑ n' : Fin 100000, Real.exp (l n' k - M)) : ℝ) : EReal) := by
    intro n
    unfold alphaR
    rw [hmx]
    simp only [hlR', ← EReal.coe_sub, Ideal.exp_coe]
    rw [← Agg.coe_sum, Ideal.div_coe hSpos.ne', ← EReal.coe_mul]
  show Ideal.div ((online X Wl (xrK bl xv Wr br) (aeOf att) 25 le_rfl).w k)
        ((online X Wl (xrK bl xv Wr br) (aeOf att) 25 le_rfl).s k) + (bl k + bias k)
      = (∑ n : Fin 100000, alphaR X Wl bl (xrR xv Wr br) att n ⟨k.val / 16, by omega⟩ * (ymat X Wl n k + bl k))
        + bias k
  rw [hs, hw, Ideal.div_coe hSpos.ne']
  simp only [hal, hy, hb, hbi, ← EReal.coe_add, ← EReal.coe_mul]
  rw [← Agg.coe_sum, ← EReal.coe_add]
  exact congrArg _ (Agg.real_agg (fun n => Real.exp (l n k - M)) (fun n => y n k) _ (b k) (bi k) rfl hSpos.ne')

/-! ## Both streams -/

/-- On finite arguments the streamed program's result is the whole program's. -/
theorem outK_eq_outR (a : Args) (h : a.Finite) : outK a = outR a := by
  obtain ⟨hxv, hxs, hg, hvs, hvb, hvW, hvbg, hvWl, hvbl, hvWr, hvbr, hvatt, hvbias,
    hss, hsb, hsW, hsbg, hsWl, hsbl, hsWr, hsbr, hsatt, hsbias, -, -, -, -⟩ := h
  unfold outK outR
  rw [agg_eq a.xv a.Wl_v a.bl_v _ a.Wr_v a.br_v a.att_v a.bias_v hxv hvWl hvbl
        (gproj_real a.g a.ln_g2v_s a.ln_g2v_b a.W_g2v a.b_g2v hg hvs hvb hvW hvbg) hvWr hvbr hvatt hvbias,
      agg_eq a.xs a.Wl_s a.bl_s _ a.Wr_s a.br_s a.att_s a.bias_s hxs hsWl hsbl
        (gproj_real a.g a.ln_g2s_s a.ln_g2s_b a.W_g2s a.b_g2s hg hss hsb hsW hsbg) hsWr hsbr hsatt hsbias]

end Cert.Spec

end
-- ==== Proof.lean ====
/-
  The certificate: a streamed (online-softmax) attention aggregation over two star graphs of 100000 sources, with a small
  LayerNorm / linear prologue and epilogue, against the plain whole-array computation.

  * The three frame claims: the kernel's two are its frame certificate's; the reference's is its run with the result
    dropped.
  * The idealized kernel is the kernel's own text read at the extended reals, so nothing is owed for that conjunct.
  * The value claim: the kernel's result array is the specification's streamed result of the arguments (the grid induction
    over the 25 blocks), the reference's is the specification's whole result, and on finite arguments the two
    results agree: the running maximum, normaliser and weighted sum rescaled by `exp (m_old - m_new)` at every block
    telescope to the softmax over all rows, and the source bias, added once at the end, is the bias inside the weighted
    sum because the softmax weights sum to one.
-/
import proofs.«146274_g33088428049086_cont_sun_c4_530_10_alg».proof.Defs
import proofs.«146274_g33088428049086_cont_sun_c4_530_10_alg».proof.Proof.Gen.Kernel
import proofs.«146274_g33088428049086_cont_sun_c4_530_10_alg».proof.Proof.Gen.KernelIdeal
import proofs.«146274_g33088428049086_cont_sun_c4_530_10_alg».proof.Proof.Gen.ReferenceIdeal
import proofs.«146274_g33088428049086_cont_sun_c4_530_10_alg».proof.Proof.Gen.Pre_finite_inputs
import proofs.«146274_g33088428049086_cont_sun_c4_530_10_alg».proof.Proof.GenP.Kernel.Frame
import proofs.«146274_g33088428049086_cont_sun_c4_530_10_alg».proof.Proof.GenP.KernelIdeal.Frame
import proofs.«146274_g33088428049086_cont_sun_c4_530_10_alg».proof.Proof.KFinal
import proofs.«146274_g33088428049086_cont_sun_c4_530_10_alg».proof.Proof.RefOut
import proofs.«146274_g33088428049086_cont_sun_c4_530_10_alg».proof.Proof.SpecAgg
import proofs.«146274_g33088428049086_cont_sun_c4_530_10_alg».proof.Proof.Finite
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.GenP.frame m ρ

theorem frame_kernelIdeal [Cert.KernelIdeal.Facts] [Cert.Pre_finite_inputs.Facts] : Cert.frame_KernelIdeal :=
  fun m ρ _ => Cert.KernelIdeal.GenP.frame m ρ

/-- the reference's frame is its run with the result dropped -/
theorem frame_reference [Cert.ReferenceIdeal.Facts] [Cert.Pre_finite_inputs.Facts] : Cert.frame_ReferenceIdeal :=
  fun m ρ _ => (θ_run (Cert.ReferenceIdeal.defs (F := Ideal)) _ _).mono (fun _ h c => (h c).2) (Cert.ReferenceIdeal.Hand.run m ρ)

/-- Both programs end with the specification's result of the same finite arguments: the kernel with the streamed form,
    the reference with the whole form, and the two forms agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (fun i => Cert.Spec.outK (Cert.KernelIdeal.Hand.argsK m c) (i 1)), Cert.KernelIdeal.Hand.run m ρ, ?_⟩
  refine (θ_run (Cert.ReferenceIdeal.defs (F := Ideal)) _ _).mono (fun _ h c => ⟨(h c).1.trans ?_, (h c).2⟩)
    (Cert.ReferenceIdeal.Hand.run m' ρ')
  have hfin : (Cert.KernelIdeal.Hand.argsK m c).Finite :=
    Cert.KernelIdeal.Hand.finite_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (hpre c)
  beta_reduce
  rw [Cert.Spec.outK_eq_outR _ hfin]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
